-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x16384x128 : Shape := ⟨3, ![1, 16384, 128]⟩
abbrev S_ : Shape := ⟨0, ![]⟩

class Facts : Prop where
  bcast_S_S1x16384x128 : S_.BroadcastsInDim S1x16384x128 (![] : Fin 0 → Fin S1x16384x128.rank)
  reducesTo_S1x16384x128_S_d0_1_2 : S1x16384x128.ReducesTo [0, 1, 2] S_
  h_S_ : 0 < S_.numel

variable [Facts]

def fn {F : FTy → Type} [FloatOps F] (main_arg0 : FVec F S1x16384x128 .f32) (main_arg1 : FVec F S1x16384x128 .f32) : IVec S_ 1 :=
  let main_v0 : FVec F S1x16384x128 .f32 := Host.absf main_arg0
  let main_cst : FVec F S_ .f32 := constant S_ .f32 0x7F800000#32
  let main_v1 : FVec F S1x16384x128 .f32 := broadcastInDim S1x16384x128 ![] bcast_S_S1x16384x128 main_cst
  let main_v2 : IVec S1x16384x128 1 := cmpf .olt main_v0 main_v1
  let main_c : IVec S_ 1 := constantI S_ 1 1#1
  let main_v3 : IVec S_ 1 := (fun x v => Host.reduce IntOp.andi x v reducesTo_S1x16384x128_S_d0_1_2 h_S_) main_v2 main_c
  let main_v4 : FVec F S1x16384x128 .f32 := Host.absf main_arg1
  let main_cst_0 : FVec F S_ .f32 := constant S_ .f32 0x7F800000#32
  let main_v5 : FVec F S1x16384x128 .f32 := broadcastInDim S1x16384x128 ![] bcast_S_S1x16384x128 main_cst_0
  let main_v6 : IVec S1x16384x128 1 := cmpf .olt main_v4 main_v5
  let main_c_1 : IVec S_ 1 := constantI S_ 1 1#1
  let main_v7 : IVec S_ 1 := (fun x v => Host.reduce IntOp.andi x v reducesTo_S1x16384x128_S_d0_1_2 h_S_) main_v6 main_c_1
  let main_v8 : IVec S_ 1 := andi main_v3 main_v7
  main_v8
-- ==== Kernel.lean ====
abbrev S1x16384x128 : Shape := ⟨3, ![1, 16384, 128]⟩
abbrev S16384x128 : Shape := ⟨2, ![16384, 128]⟩
abbrev S1x16384 : Shape := ⟨2, ![1, 16384]⟩
abbrev S2048x128 : Shape := ⟨2, ![2048, 128]⟩
abbrev S1024x128 : Shape := ⟨2, ![1024, 128]⟩
abbrev S1x2048 : Shape := ⟨2, ![1, 2048]⟩
abbrev S2048 : Shape := ⟨1, ![2048]⟩
abbrev S2048x1 : Shape := ⟨2, ![2048, 1]⟩
abbrev S1024 : Shape := ⟨1, ![1024]⟩
abbrev S1024x1 : Shape := ⟨2, ![1024, 1]⟩
abbrev S1024x2048 : Shape := ⟨2, ![1024, 2048]⟩
abbrev S_ : Shape := ⟨0, ![]⟩

abbrev nBuf : Space → Nat
  | .hbm => 15
  | .vmem => 16
  | .smem => 0
  | _ => 0

abbrev bufTy : (tb : Table) → Fin (tcTables nBuf tb) → BufTy
  | .hbm, ⟨0, _⟩ => ⟨S1x16384x128, .f32⟩
  | .hbm, ⟨1, _⟩ => ⟨S1x16384x128, .f32⟩
  | .hbm, ⟨2, _⟩ => ⟨S16384x128, .f32⟩
  | .hbm, ⟨3, _⟩ => ⟨S16384x128, .f32⟩
  | .hbm, ⟨4, _⟩ => ⟨S1x16384, .f32⟩
  | .hbm, ⟨5, _⟩ => ⟨S1x16384, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S2048x128, .f32⟩
  | .local _ .vmem, ⟨1, _⟩ => ⟨S2048x128, .f32⟩
  | .local _ .vmem, ⟨2, _⟩ => ⟨S1024x128, .f32⟩
  | .local _ .vmem, ⟨3, _⟩ => ⟨S1024x128, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S2048x128, .f32⟩
  | .local _ .vmem, ⟨9, _⟩ => ⟨S2048x128, .f32⟩
  | .local _ .vmem, ⟨10, _⟩ => ⟨S1024x128, .f32⟩
  | .local _ .vmem, ⟨11, _⟩ => ⟨S1024x128, .f32⟩
  | .local _ .vmem, ⟨12, _⟩ => ⟨S1x2048, .f32⟩
  | .local _ .vmem, ⟨13, _⟩ => ⟨S1x2048, .f32⟩
  | .local _ .vmem, ⟨14, _⟩ => ⟨S1x2048, .f32⟩
  | .local _ .vmem, ⟨15, _⟩ => ⟨S1x2048, .f32⟩
  | _, _ => ⟨S1x16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_scratch0 : Ref sig .tc := ⟨.vmem, 14, rfl⟩
abbrev cc1_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v27 : BitVec 1 := Scalar.cmpi .eq arg1 c15_i32
  let v28 : BitVec 32 := Scalar.extui v27
  let c0_i32_13 : BitVec 32 := 0#32
  let v29 : BitVec 1 := Scalar.cmpi .ne v28 c0_i32_13
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 16], ![false, false]⟩

def k1_cond2 (i : grid1.Coords) : BitVec 1 :=
  let arg1 : BitVec 32 := BitVec.ofNat 32 (i 1).val
  let c15_i32 : BitVec 32 := 15#32
  let v27 : BitVec 1 := Scalar.cmpi .eq arg1 c15_i32
  let v28 : BitVec 32 := Scalar.extui v27
  let c0_i32_13 : BitVec 32 := 0#32
  let v29 : BitVec 1 := Scalar.cmpi .ne v28 c0_i32_13
  v29

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  shapeCasts_S1x16384x128_S16384x128 : S1x16384x128.ShapeCasts S16384x128
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  reduces_S2048x128_S2048 : S2048x128.Reduces [1] S2048
  shapeCasts_S2048_S2048x1 : S2048.ShapeCasts S2048x1
  transposes_S2048x1_p1_0_S1x2048 : S2048x1.Transposes [1, 0] S1x2048
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  reduces_S1024x128_S1024 : S1024x128.Reduces [1] S1024
  shapeCasts_S1024_S1024x1 : S1024.ShapeCasts S1024x1
  bitsLt_bf16_f32 : FTy.bits .bf16 < FTy.bits .f32
  broadcasts_S1024x1_S1024x2048 : S1024x1.Broadcasts S1024x2048
  broadcasts_S1x2048_S1024x2048 : S1x2048.Broadcasts S1024x2048
  reduces_S1024x2048_S2048 : S1024x2048.Reduces [0] S2048
  shapeCasts_S2048_S1x2048 : S2048.ShapeCasts S1x2048
  reducesTo_S1x16384_S_d0_1 : S1x16384.ReducesTo [0, 1] S_
  h_S_ : 0 < S_.numel
  dot_S1024x128_S2048x128_S1024x2048_1_1_0_0_n_n_wf : DotDims.WF S1024x128 S2048x128 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S16384x128.size a
  hwx0_0 : ∀ i : grid0.Coords, EltTy.bits .f32 = 32 ∨ (Rect.block (s := S16384x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S16384x128.size a
  hwx0_1 : ∀ i : grid0.Coords, EltTy.bits .f32 = 32 ∨ (Rect.block (s := S16384x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x16384.size a
  hwx0_2 : ∀ i : grid0.Coords, EltTy.bits .f32 = 32 ∨ (Rect.block (s := S1x16384) S1x2048.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S16384x128.size a
  hwx1_0 : ∀ i : grid1.Coords, EltTy.bits .f32 = 32 ∨ (Rect.block (s := S16384x128) S2048x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S16384x128.size a
  hwx1_1 : ∀ i : grid1.Coords, EltTy.bits .f32 = 32 ∨ (Rect.block (s := S16384x128) S1024x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x16384.size a
  hwx1_2 : ∀ i : grid1.Coords, EltTy.bits .f32 = 32 ∨ (Rect.block (s := S1x16384) S1x2048.size (cc1_transform_2 i) (hinb1_2 i)).WholeWords (EltTy.packing .f32)

variable [Facts₀]

def dot_S1024x128_S2048x128_S1024x2048_1_1_0_0_n_n : DotDims S1024x128 S2048x128 S1024x2048 where
  lhsContracting := [1]
  rhsContracting := [1]
  lhsNonContracting := [0]
  rhsNonContracting := [0]
  lhsBatch := []
  rhsBatch := []
  wf := dot_S1024x128_S2048x128_S1024x2048_1_1_0_0_n_n_wf

abbrev win0_0 : Pipeline.Window sig grid0 :=
  Pipeline.Window.ofSpec (Memref.whole main_v0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v1) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S1x16384x128 : Shape := ⟨3, ![1, 16384, 128]⟩
abbrev S_ : Shape := ⟨0, ![]⟩
abbrev S1x16384 : Shape := ⟨2, ![1, 16384]⟩
abbrev S1x16384x16384 : Shape := ⟨3, ![1, 16384, 16384]⟩
abbrev S1x16384x1 : Shape := ⟨3, ![1, 16384, 1]⟩
abbrev S1x1x16384 : Shape := ⟨3, ![1, 1, 16384]⟩

abbrev nBuf : Space → Nat
  | .hbm => 31
  | .vmem => 0
  | .smem => 0
  | _ => 0

abbrev bufTy : (tb : Table) → Fin (tcTables nBuf tb) → BufTy
  | .hbm, ⟨0, _⟩ => ⟨S1x16384x128, .f32⟩
  | .hbm, ⟨1, _⟩ => ⟨S1x16384x128, .f32⟩
  | .hbm, ⟨2, _⟩ => ⟨S1x16384x128, .f32⟩
  | .hbm, ⟨3, _⟩ => ⟨S_, .f32⟩
  | .hbm, ⟨4, _⟩ => ⟨S1x16384, .f32⟩
  | .hbm, ⟨5, _⟩ => ⟨S1x16384x128, .f32⟩
  | .hbm, ⟨6, _⟩ => ⟨S_, .f32⟩
  | .hbm, ⟨7, _⟩ => ⟨S1x16384, .f32⟩
  | .hbm, ⟨8, _⟩ => ⟨S1x16384x16384, .f32⟩
  | .hbm, ⟨9, _⟩ => ⟨S1x16384x1, .f32⟩
  | .hbm, ⟨10, _⟩ => ⟨S1x1x16384, .f32⟩
  | .hbm, ⟨11, _⟩ => ⟨S1x16384x16384, .f32⟩
  | .hbm, ⟨12, _⟩ => ⟨S1x16384x16384, .f32⟩
  | .hbm, ⟨13, _⟩ => ⟨S1x16384x16384, .f32⟩
  | .hbm, ⟨14, _⟩ => ⟨S_, .f32⟩
  | .hbm, ⟨15, _⟩ => ⟨S1x16384x16384, .f32⟩
  | .hbm, ⟨16, _⟩ => ⟨S1x16384x16384, .f32⟩
  | .hbm, ⟨17, _⟩ => ⟨S1x16384x16384, .f32⟩
  | .hbm, ⟨18, _⟩ => ⟨S_, .f32⟩
  | .hbm, ⟨19, _⟩ => ⟨S1x16384, .f32⟩
  | .hbm, ⟨20, _⟩ => ⟨S_, .f32⟩
  | .hbm, ⟨21, _⟩ => ⟨S1x16384, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | _, _ => ⟨S1x16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_cst_6 : Ref sig .tc := ⟨.hbm, 26, rfl⟩
abbrev main_v17 : Ref sig .tc := ⟨.hbm, 27, rfl⟩
abbrev main_cst_7 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]

class Facts₀ : Prop where
  reducesTo_S1x16384x128_S1x16384_d2 : S1x16384x128.ReducesTo [2] S1x16384
  h_S_ : 0 < S_.numel
  bcast_S1x16384_S1x16384x1_0_1 : S1x16384.BroadcastsInDim S1x16384x1 (![0, 1] : Fin 2 → Fin S1x16384x1.rank)
  bcast_S1x16384_S1x1x16384_0_2 : S1x16384.BroadcastsInDim S1x1x16384 (![0, 2] : Fin 2 → Fin S1x1x16384.rank)
  bcast_S1x16384x1_S1x16384x16384_0_1_2 : S1x16384x1.BroadcastsInDim S1x16384x16384 (![0, 1, 2] : Fin 3 → Fin S1x16384x16384.rank)
  bcast_S1x1x16384_S1x16384x16384_0_1_2 : S1x1x16384.BroadcastsInDim S1x16384x16384 (![0, 1, 2] : Fin 3 → Fin S1x16384x16384.rank)
  bcast_S_S1x16384x16384 : S_.BroadcastsInDim S1x16384x16384 (![] : Fin 0 → Fin S1x16384x16384.rank)
  reducesTo_S1x16384x16384_S1x16384_d2 : S1x16384x16384.ReducesTo [2] S1x16384
  reducesTo_S1x16384x16384_S1x16384_d1 : S1x16384x16384.ReducesTo [1] S1x16384
  reducesTo_S1x16384_S_d0_1 : S1x16384.ReducesTo [0, 1] S_
  dot_S1x16384x128_S1x16384x128_S1x16384x16384_2_2_1_1_0_0_wf : DotDims.WF S1x16384x128 S1x16384x128 S1x16384x16384 [2] [2] [1] [1] [0] [0]

variable [Facts₀]

def dot_S1x16384x128_S1x16384x128_S1x16384x16384_2_2_1_1_0_0 : DotDims S1x16384x128 S1x16384x128 S1x16384x16384 where
  lhsContracting := [2]
  rhsContracting := [2]
  lhsNonContracting := [1]
  rhsNonContracting := [1]
  lhsBatch := [0]
  rhsBatch := [0]
  wf := dot_S1x16384x128_S1x16384x128_S1x16384x16384_2_2_1_1_0_0_wf

class Facts : Prop extends Facts₀ where

variable [Facts]
-- ==== Proof.LibWholeStore.lean ====
/-
  A buffer written whole reads back as the last whole write.

  A list of writes (last first) whose head writes the whole shape through the rectangle at offset zero leaves, read back
  through any view of that shape, exactly the head's payload, whatever the earlier writes and the prior contents were.
-/
import Idealize.ShloMosaic.Lib.Pipeline.FrameBody
import Idealize.ShloMosaic.Lib.Pipeline.Value

namespace Cert.WholeStore

open Idealize.ShloMosaic

variable {Val : EltTy → Type} [∀ e, Nonempty (Val e)] {S : Shape} {e : EltTy}

/-- Reading back after a whole-shape write at the head of the list gives that write's payload. -/
theorem read_writes_cons_whole {sig : RefSig} {κ : Kind} {sp : Space} (v : View sig κ sp S e) (f : v.ty.Contents Val)
    {off : Fin S.rank → Nat} (h : off = fun _ => 0) (inb : ∀ a, off a + S.size a ≤ S.size a)
    (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, by
    subst h; show y ∈ (Rect.whole S).set; rw [Rect.set_whole]; exact Finset.mem_univ y⟩),
    View.canon_cons_unit_zero h]

end Cert.WholeStore
-- ==== Proof.K.Body0.lean ====
/-
  One grid point of the nearest-neighbour kernel of the first call, as a Hoare triple in each of its three control cases.

  The grid is (query tile i, key tile j), j fastest.  Two scratch rows of 2048 entries live across the key tiles of one
  query tile: the running minimum and the squared norms of the query tile's rows.
  * j = 0: the running minimum is reset to +inf, the norms are computed and stored, then the point's own step runs;
  * 0 < j < 15: only the step: running minimum := min(running minimum, column minima of this key tile's distances);
  * j = 15: the step, then the running minimum is copied to the output block.
  Every load and store moves a whole buffer, so what each buffer holds afterwards is the named payload of the last store
  into it, with every loaded value the contents (or the payload stored just before) it reads.
-/
import proofs.«140751_j59055800320002_1_alg».proof.Proof.Gen.Kernel.Launch
import proofs.«140751_j59055800320002_1_alg».proof.Proof.Gen.Kernel.Skeleton
import proofs.«140751_j59055800320002_1_alg».proof.Proof.Gen.Kernel.Points
import proofs.«140751_j59055800320002_1_alg».proof.Proof.LibWholeStore
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.WholeStore

variable {F : FTy → Type} [FloatOps F]

local notation "𝕄" => MT nD τ sig Unit (Elt F) ℕ (UR sig nD τ) ℕ

/-- The point is the first key tile of its query tile (the kernel's own scalar chain for `j == 0`). -/
abbrev isFirst0 (i : grid0.Coords) : Prop := (Scalar.cmpi .ne (Scalar.extui (Scalar.cmpi .eq (BitVec.ofNat 32 (i 1).val) 0#32)) 0#32) = 1#1
/-- The point is the last key tile of its query tile (`j == 15`). -/
abbrev isLast0 (i : grid0.Coords) : Prop := k0_cond2 i = 1#1

/-- Offset zero in a rank-2 shape. -/
theorem off00 : (![0, 0] : Fin 2 → Nat) = fun _ => 0 := by funext a; fin_cases a <;> rfl

set_option maxHeartbeats 1000000 in
/-- First key tile: both scratch rows hold anything on entry; afterwards the norms row holds the query tile's squared norms and
    the running minimum the step taken from +inf. The output block is not touched. -/
theorem run0_first (c : Dev nD) (E : Set ℕ) (i : grid0.Coords)
    (arg2 : Memref sig .tc .vmem S2048x128 .f32) (harg2 : arg2.IsWhole) (arg3 : Memref sig .tc .vmem S1024x128 .f32) (harg3 : arg3.IsWhole)
    (arg4 : Memref sig .tc .vmem S1x2048 .f32) (harg4 : arg4.IsWhole) (arg5 : Memref sig .tc .vmem S1x2048 .f32) (harg5 : arg5.IsWhole)
    (arg6 : Memref sig .tc .vmem S1x2048 .f32) (harg6 : arg6.IsWhole) (hc1 : isFirst0 i) (hc2 : ¬isLast0 i)
    (x0 : Vec F S2048x128 .f32) (x1 : Vec F S1024x128 .f32) (xi : Vec F S1x2048 .f32) (K : PUnit → sProp 𝕄) :
    iprop(owns (c : Thread nD τ) arg2 fullShare x0 ∗ owns (c : Thread nD τ) arg3 fullShare x1 ∗ owns (c : Thread nD τ) arg4 fullShare xi
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare xi
            ∗ owns (c : Thread nD τ) arg5 fullShare (k0_pay3 x1 x0 (k0_pay2 x0) k0_pay1) ∗ owns (c : Thread nD τ) arg6 fullShare (k0_pay2 x0)) -∗ K ⟨⟩))
      ⊢ wp frame (wpE (defs₀ (F := F)) Variants.none c none) E (cc0__min_dist_kernel i arg2 harg2 arg3 harg3 arg4 harg4 arg5 harg5 arg6 harg6) K := by
  simp only [cc0__min_dist_kernel_eq_skeleton]; unfold cc0__min_dist_kernel_skel
  unfold owns
  iintro ⟨⟨%f0, %hf0, H0⟩, ⟨%f1, %hf1, H1⟩, ⟨%f4, %hf4, H4⟩, ⟨%d5, %f5, -, H5⟩, ⟨%d6, %f6, -, H6⟩, Hk⟩
  obtain rfl := harg2.eq_unread hf0; obtain rfl := harg3.eq_unread hf1; obtain rfl := harg4.eq_unread hf4
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; · ipureintro; exact harg4.read_unread _
    iexact H4
  isplitl [H5]
  · iexists _; isplitr
    swap; · iexact H5
    ipureintro
    sl_unfold_words
    rw [read_writes_cons_whole _ _ off00]
    simp only [View.readAt_eq_ld, harg2.read_unread, harg3.read_unread, View.ld_unit_zero (S := S2048x128) off00,
      View.ld_unit_zero (S := S1024x128) off00, View.readCov_unit_zero (S := S1x2048) _ off00]
  · iexists _; isplitr
    swap; · iexact H6
    ipureintro
    sl_unfold_words
    rw [read_writes_cons_whole _ _ off00]
    simp only [View.readAt_eq_ld, harg2.read_unread, View.ld_unit_zero (S := S2048x128) off00]

set_option maxHeartbeats 1000000 in
/-- A middle key tile: the running minimum `acc` and the norms row `a2` come from the point before; the norms row is kept,
    the running minimum takes the step. The output block is not touched. -/
theorem run0_mid (c : Dev nD) (E : Set ℕ) (i : grid0.Coords)
    (arg2 : Memref sig .tc .vmem S2048x128 .f32) (harg2 : arg2.IsWhole) (arg3 : Memref sig .tc .vmem S1024x128 .f32) (harg3 : arg3.IsWhole)
    (arg4 : Memref sig .tc .vmem S1x2048 .f32) (harg4 : arg4.IsWhole) (arg5 : Memref sig .tc .vmem S1x2048 .f32) (harg5 : arg5.IsWhole)
    (arg6 : Memref sig .tc .vmem S1x2048 .f32) (harg6 : arg6.IsWhole) (hc1 : ¬isFirst0 i) (hc2 : ¬isLast0 i)
    (x0 : Vec F S2048x128 .f32) (x1 : Vec F S1024x128 .f32) (xi : Vec F S1x2048 .f32) (acc a2 : Vec F S1x2048 .f32) (K : PUnit → sProp 𝕄) :
    iprop(owns (c : Thread nD τ) arg2 fullShare x0 ∗ owns (c : Thread nD τ) arg3 fullShare x1 ∗ owns (c : Thread nD τ) arg4 fullShare xi
        ∗ owns (c : Thread nD τ) arg5 fullShare acc ∗ owns (c : Thread nD τ) arg6 fullShare a2
        ∗ (iprop(owns (c : Thread nD τ) arg2 fullShare x0 ∗ owns (c : Thread nD τ) arg3 fullShare x1 ∗ owns (c : Thread nD τ) arg4 fullShare xi
            ∗ owns (c : Thread nD τ) arg5 fullShare (k0_pay3 x1 x0 a2 acc) ∗ owns (c : Thread nD τ) arg6 fullShare a2) -∗ K ⟨⟩))
      ⊢ wp frame (wpE (defs₀ (F := F)) Variants.none c none) E (cc0__min_dist_kernel i arg2 harg2 arg3 harg3 arg4 harg4 arg5 harg5 arg6 harg6) K := by
  simp only [cc0__min_dist_kernel_eq_skeleton]; unfold cc0__min_dist_kernel_skel
  unfold owns
  iintro ⟨⟨%f0, %hf0, H0⟩, ⟨%f1, %hf1, H1⟩, ⟨%f4, %hf4, H4⟩, ⟨%f5, %hf5, H5⟩, ⟨%f6, %hf6, H6⟩, Hk⟩
  obtain rfl := harg2.eq_unread hf0; obtain rfl := harg3.eq_unread hf1; obtain rfl := harg4.eq_unread hf4
  obtain rfl := harg5.eq_unread hf5; obtain rfl := harg6.eq_unread hf6
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; · ipureintro; exact harg4.read_unread _
    iexact H4
  isplitl [H5]
  · iexists _; isplitr
    swap; · iexact H5
    ipureintro
    sl_unfold_words
    rw [read_writes_cons_whole _ _ off00]
    simp only [View.readAt_eq_ld, harg2.read_unread, harg3.read_unread, harg5.read_unread, harg6.read_unread,
      View.ld_unit_zero (S := S2048x128) off00, View.ld_unit_zero (S := S1024x128) off00, View.ld_unit_zero (S := S1x2048) off00]
  · iexists _; isplitr; · ipureintro; exact harg6.read_unread _
    iexact H6

set_option maxHeartbeats 1000000 in
/-- Last key tile: as a middle one, and the new running minimum is also what the output block holds afterwards. -/
theorem run0_last (c : Dev nD) (E : Set ℕ) (i : grid0.Coords)
    (arg2 : Memref sig .tc .vmem S2048x128 .f32) (harg2 : arg2.IsWhole) (arg3 : Memref sig .tc .vmem S1024x128 .f32) (harg3 : arg3.IsWhole)
    (arg4 : Memref sig .tc .vmem S1x2048 .f32) (harg4 : arg4.IsWhole) (arg5 : Memref sig .tc .vmem S1x2048 .f32) (harg5 : arg5.IsWhole)
    (arg6 : Memref sig .tc .vmem S1x2048 .f32) (harg6 : arg6.IsWhole) (hc1 : ¬isFirst0 i) (hc2 : isLast0 i)
    (x0 : Vec F S2048x128 .f32) (x1 : Vec F S1024x128 .f32) (acc a2 : Vec F S1x2048 .f32) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare acc ∗ owns (c : Thread nD τ) arg6 fullShare a2
        ∗ (iprop(owns (c : Thread nD τ) arg2 fullShare x0 ∗ owns (c : Thread nD τ) arg3 fullShare x1 ∗ owns (c : Thread nD τ) arg4 fullShare (k0_pay3 x1 x0 a2 acc)
            ∗ owns (c : Thread nD τ) arg5 fullShare (k0_pay3 x1 x0 a2 acc) ∗ owns (c : Thread nD τ) arg6 fullShare a2) -∗ K ⟨⟩))
      ⊢ wp frame (wpE (defs₀ (F := F)) Variants.none c none) E (cc0__min_dist_kernel i arg2 harg2 arg3 harg3 arg4 harg4 arg5 harg5 arg6 harg6) K := by
  simp only [cc0__min_dist_kernel_eq_skeleton]; unfold cc0__min_dist_kernel_skel
  unfold owns
  iintro ⟨⟨%f0, %hf0, H0⟩, ⟨%f1, %hf1, H1⟩, ⟨%d4, %f4, -, H4⟩, ⟨%f5, %hf5, H5⟩, ⟨%f6, %hf6, H6⟩, Hk⟩
  obtain rfl := harg2.eq_unread hf0; obtain rfl := harg3.eq_unread hf1
  obtain rfl := harg5.eq_unread hf5; obtain rfl := harg6.eq_unread hf6
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr
    swap; · iexact H4
    ipureintro
    sl_unfold_words
    rw [read_writes_cons_whole _ _ off00]
    simp only [View.readAt_eq_ld, harg2.read_unread, harg3.read_unread, harg5.read_unread, harg6.read_unread,
      View.ld_unit_zero (S := S2048x128) off00, View.ld_unit_zero (S := S1024x128) off00, View.ld_unit_zero (S := S1x2048) off00,
      View.readCov_unit_zero (S := S1x2048) _ off00]
  isplitl [H5]
  · iexists _; isplitr
    swap; · iexact H5
    ipureintro
    sl_unfold_words
    rw [read_writes_cons_whole _ _ off00]
    simp only [View.readAt_eq_ld, harg2.read_unread, harg3.read_unread, harg5.read_unread, harg6.read_unread,
      View.ld_unit_zero (S := S2048x128) off00, View.ld_unit_zero (S := S1024x128) off00, View.ld_unit_zero (S := S1x2048) off00]
  · iexists _; isplitr; · ipureintro; exact harg6.read_unread _
    iexact H6

end Cert.Kernel.Hand

end
-- ==== Proof.K.Inv0.lean ====
/-
  The first call's two scratch rows among the core's scoped buffers: the class invariant, which holds every scoped buffer that is
  no staging buffer of this call at some contents, splits into the two rows (as memrefs owned at some contents), the remaining
  buffers (the second call's staging buffers and scratch rows), and the generator register.
-/
import proofs.«140751_j59055800320002_1_alg».proof.Proof.K.Body0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.WholeStore

variable {F : FTy → Type} [FloatOps F]

local notation "𝕄" => MT nD τ sig Unit (Elt F) ℕ (UR sig nD τ) ℕ

/-- The two scratch rows as memrefs. -/
abbrev scMin0 : Memref sig .tc .vmem S1x2048 .f32 := Memref.whole cc0_scratch0
abbrev scNrm0 : Memref sig .tc .vmem S1x2048 .f32 := Memref.whole cc0_scratch1

/-- The core's other scoped buffers (the second call's staging buffers and scratch rows), each whole at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

/-- The class invariant with this call's two scratch rows as memrefs owned at some contents. -/
theorem PhiA0_eq (c : Dev nD) :
    (Pipeline.ΦA spec0 c : sProp 𝕄)
      = iprop(((∃ d, owns (c : Thread nD τ) scMin0 fullShare d) ∗ (∃ d, owns (c : Thread nD τ) scNrm0 fullShare d) ∗ rest0 c) ∗ (∃ r, prngReg c r)) := by
  unfold Pipeline.ΦA rest0; rw [scopedRest0_eq]; simp only [scMin0, scNrm0, owns_whole]; try rfl

end Cert.Kernel.Hand

end
-- ==== Proof.K.Dat0.lean ====
/-
  The first call, over all its 128 grid points: what the two scratch rows hold after each point, the invariant that carries
  them from point to point, the pipeline's proof data, and the body obligation at every point.

  The points run t = 16 i + j (query tile i, key tile j).  After point t the pair (running minimum, norms row) is
  * at j = 0: (step from +inf with the fresh norms, the fresh norms of query tile i),
  * at j > 0: (step from the pair after t - 1, the norms row unchanged).
  The output block is written only at j = 15, with the running minimum; at the other points its window is idle.
-/
import proofs.«140751_j59055800320002_1_alg».proof.Proof.K.Inv0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.WholeStore

variable {F : FTy → Type} [FloatOps F]

local notation "𝕄" => MT nD τ sig Unit (Elt F) ℕ (UR sig nD τ) ℕ

section Region0
-- the buffers' contents when the call is entered
variable (V : (c : Dev nD) → (b : Ref sig .tc) → Buf (Elt F) ((c : Thread nD τ).loc b))

/-! ## The windows' blocks -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The query tile and the key tile of point `t`, at their literal shapes. -/
abbrev qblk0 (c : Dev nD) (t : Fin cfg0.N) : Vec F S2048x128 .f32 := iblk0 V c 0 t
abbrev kblk0 (c : Dev nD) (t : Fin cfg0.N) : Vec F S1024x128 .f32 := iblk0 V c 1 t

/-- An input window's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## Which points are first and last of their query tile, and where the output window is idle -/

theorem hfirst0 : ∀ t : Fin cfg0.N, isFirst0 (grid0.coords t) ↔ t.val % 16 = 0 :=
  (by decide +kernel : ∀ t : Fin grid0.N, isFirst0 (grid0.coords t) ↔ t.val % 16 = 0)
theorem hlast0 : ∀ t : Fin cfg0.N, isLast0 (grid0.coords t) ↔ t.val % 16 = 15 :=
  (by decide +kernel : ∀ t : Fin grid0.N, isLast0 (grid0.coords t) ↔ t.val % 16 = 15)
theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬isLast0 (grid0.coords t) → cfg0.idle 2 (grid0.coords t) = true := by decide +kernel
theorem noFlush0_2 : ∀ t : Fin cfg0.N, ¬isLast0 (grid0.coords t) → (cfg0.win 2).flush t = false := by decide +kernel
theorem liveAt0_2 : ∀ t : Fin cfg0.N, isLast0 (grid0.coords t) → cfg0.idle 2 (grid0.coords t) = false := by decide +kernel

/-! ## The two scratch rows after each point -/

/-- (running minimum, norms row) after the body at position `n`. -/
def carry0 (c : Dev nD) : (n : ℕ) → n < cfg0.N → Vec F S1x2048 .f32 × Vec F S1x2048 .f32
  | 0, hn => (k0_pay3 (kblk0 V c ⟨0, hn⟩) (qblk0 V c ⟨0, hn⟩) (k0_pay2 (qblk0 V c ⟨0, hn⟩)) k0_pay1, k0_pay2 (qblk0 V c ⟨0, hn⟩))
  | n + 1, hn =>
    if (n + 1) % 16 = 0 then
      (k0_pay3 (kblk0 V c ⟨n + 1, hn⟩) (qblk0 V c ⟨n + 1, hn⟩) (k0_pay2 (qblk0 V c ⟨n + 1, hn⟩)) k0_pay1, k0_pay2 (qblk0 V c ⟨n + 1, hn⟩))
    else
      (k0_pay3 (kblk0 V c ⟨n + 1, hn⟩) (qblk0 V c ⟨n + 1, hn⟩) (carry0 c n (Nat.lt_of_succ_lt hn)).2 (carry0 c n (Nat.lt_of_succ_lt hn)).1,
        (carry0 c n (Nat.lt_of_succ_lt hn)).2)

/-- At the first key tile of a query tile: fresh norms, the step taken from +inf. -/
theorem carry0_first (c : Dev nD) (t : Fin cfg0.N) (h : t.val % 16 = 0) :
    carry0 V c t.val t.isLt = (k0_pay3 (kblk0 V c t) (qblk0 V c t) (k0_pay2 (qblk0 V c t)) k0_pay1, k0_pay2 (qblk0 V c t)) := by
  obtain ⟨n, hn⟩ := t
  cases n with
  | zero => rfl
  | succ n => exact (if_pos h).trans rfl

/-- At a later key tile: the step from what the point before left, the norms row kept. -/
theorem carry0_next (c : Dev nD) (t : Fin cfg0.N) (h : ¬t.val % 16 = 0) :
    carry0 V c t.val t.isLt = (k0_pay3 (kblk0 V c t) (qblk0 V c t) (carry0 V c (t.val - 1) (Nat.lt_of_le_of_lt (Nat.sub_le _ _) t.isLt)).2
        (carry0 V c (t.val - 1) (Nat.lt_of_le_of_lt (Nat.sub_le _ _) t.isLt)).1,
      (carry0 V c (t.val - 1) (Nat.lt_of_le_of_lt (Nat.sub_le _ _) t.isLt)).2) := by
  obtain ⟨n, hn⟩ := t
  cases n with
  | zero => exact absurd (Nat.zero_mod _) h
  | succ n => exact (if_neg h).trans rfl

/-! ## The invariant between points -/

/-- Before position `n`: at the call's entry anything in the scratch rows; afterwards what the point before left. -/
def Phi0 (c : Dev nD) : (n : ℕ) → n ≤ cfg0.N → sProp 𝕄
  | 0, _ => Pipeline.ΦA spec0 c
  | n + 1, hn => iprop((owns (c : Thread nD τ) scMin0 fullShare (carry0 V c n hn).1 ∗ owns (c : Thread nD τ) scNrm0 fullShare (carry0 V c n hn).2 ∗ rest0 c) ∗ (∃ r, prngReg c r))

theorem Phi0_zero (c : Dev nD) (n : ℕ) (h : n ≤ cfg0.N) (hz : n = 0) : Phi0 V c n h = Pipeline.ΦA spec0 c := by
  subst hz; rfl
theorem Phi0_succ (c : Dev nD) (n : ℕ) (hn : n < cfg0.N) :
    Phi0 V c (n + 1) hn = iprop((owns (c : Thread nD τ) scMin0 fullShare (carry0 V c n hn).1 ∗ owns (c : Thread nD τ) scNrm0 fullShare (carry0 V c n hn).2 ∗ rest0 c) ∗ (∃ r, prngReg c r)) := rfl
theorem Phi0_pos (c : Dev nD) (n : ℕ) (h : n ≤ cfg0.N) (hz : n ≠ 0) :
    Phi0 V c n h = iprop((owns (c : Thread nD τ) scMin0 fullShare (carry0 V c (n - 1) (by omega)).1 ∗ owns (c : Thread nD τ) scNrm0 fullShare (carry0 V c (n - 1) (by omega)).2 ∗ rest0 c) ∗ (∃ r, prngReg c r)) := by
  cases n with
  | zero => exact absurd rfl hz
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (carry0 V c t.val t.isLt).1
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem Phi0_castSucc (c : Dev nD) (t : Fin cfg0.N) :
    (dat0 V c).Φ t.castSucc = Phi0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (carry0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: which of the three cases it is follows from t mod 16; the invariant hands the body the scratch rows
    at what the point before left (anything at the call's first point) and takes them back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  have hN : t.val < 128 := lt_of_lt_of_eq t.isLt (show cfg0.N = 128 from N_0)
  by_cases h0 : t.val % 16 = 0
  · have hF : isFirst0 (grid0.coords t) := (hfirst0 t).mpr h0
    have hL : ¬isLast0 (grid0.coords t) := fun h => by have := (hlast0 t).mp h; omega
    rw [Dat.leavesExact_idle (dat0 V c) 2 t (idleAt0_2 t hL) (noFlush0_2 t hL)]
    rw [carry0_first V c t h0]
    dsimp only
    by_cases hz : t.val = 0
    · rw [Phi0_castSucc V c t, Phi0_zero V c _ _ hz, PhiA0_eq]
      iintro ⟨⟨⟨HA, HB, Hrest⟩, Hg⟩, Ho, ⟨%d0, H0⟩, ⟨%d1, H1⟩, ⟨%d2, H2⟩⟩
      iapply (run0_first c Set.univ (grid0.coords t) _ _ _ _ _ _ _ _ _ _ hF hL (qblk0 V c t) (kblk0 V c t) _ _)
      isplitl [H0]; · iexact H0
      isplitl [H1]; · iexact H1
      isplitl [H2]; · iexact H2
      isplitl [HA]; · iexact HA
      isplitl [HB]; · iexact HB
      iintro ⟨H0, H1, H2, HA, HB⟩
      isplitl [HA HB Hrest Hg]
      · isplitl [HA HB Hrest]
        · isplitl [HA]; · iexact HA
          isplitl [HB]; · iexact HB
          iexact Hrest
        iexact Hg
      isplitl [Ho]; · iexact Ho
      isplitl [H0]; · iexact H0
      isplitl [H1]; · iexact H1
      iexists _; iexact H2
    · rw [Phi0_castSucc V c t, Phi0_pos V c _ _ hz]
      iintro ⟨⟨⟨HA, HB, Hrest⟩, Hg⟩, Ho, ⟨%d0, H0⟩, ⟨%d1, H1⟩, ⟨%d2, H2⟩⟩
      iapply (run0_first c Set.univ (grid0.coords t) _ _ _ _ _ _ _ _ _ _ hF hL (qblk0 V c t) (kblk0 V c t) _ _)
      isplitl [H0]; · iexact H0
      isplitl [H1]; · iexact H1
      isplitl [H2]; · iexact H2
      isplitl [HA]; · iexists _; iexact HA
      isplitl [HB]; · iexists _; iexact HB
      iintro ⟨H0, H1, H2, HA, HB⟩
      isplitl [HA HB Hrest Hg]
      · isplitl [HA HB Hrest]
        · isplitl [HA]; · iexact HA
          isplitl [HB]; · iexact HB
          iexact Hrest
        iexact Hg
      isplitl [Ho]; · iexact Ho
      isplitl [H0]; · iexact H0
      isplitl [H1]; · iexact H1
      iexists _; iexact H2
  · have hF : ¬isFirst0 (grid0.coords t) := fun h => h0 ((hfirst0 t).mp h)
    have hz : t.val ≠ 0 := fun h => h0 (by rw [h])
    rw [carry0_next V c t h0]
    dsimp only
    rw [Phi0_castSucc V c t, Phi0_pos V c _ _ hz]
    by_cases h1 : t.val % 16 = 15
    · have hL : isLast0 (grid0.coords t) := (hlast0 t).mpr h1
      rw [show (dat0 V c).leavesExact 2 t = owns (c : Thread nD τ) (st0_2 t) fullShare ((dat0 V c).after 2 t) from by
        unfold Dat.leavesExact; rw [liveAt0_2 t hL], after0_2, carry0_next V c t h0]
      iintro ⟨⟨⟨HA, HB, Hrest⟩, Hg⟩, Ho, ⟨%d0, H0⟩, ⟨%d1, H1⟩, ⟨%d2, H2⟩⟩
      iapply (run0_last c Set.univ (grid0.coords t) _ _ _ _ _ _ _ _ _ _ hF hL (qblk0 V c t) (kblk0 V c t) _ _ _)
      isplitl [H0]; · iexact H0
      isplitl [H1]; · iexact H1
      isplitl [H2]; · iexists _; iexact H2
      isplitl [HA]; · iexact HA
      isplitl [HB]; · iexact HB
      iintro ⟨H0, H1, H2, HA, HB⟩
      isplitl [HA HB Hrest Hg]
      · isplitl [HA HB Hrest]
        · isplitl [HA]; · iexact HA
          isplitl [HB]; · iexact HB
          iexact Hrest
        iexact Hg
      isplitl [Ho]; · iexact Ho
      isplitl [H0]; · iexact H0
      isplitl [H1]; · iexact H1
      iexact H2
    · have hL : ¬isLast0 (grid0.coords t) := fun h => h1 ((hlast0 t).mp h)
      rw [Dat.leavesExact_idle (dat0 V c) 2 t (idleAt0_2 t hL) (noFlush0_2 t hL)]
      iintro ⟨⟨⟨HA, HB, Hrest⟩, Hg⟩, Ho, ⟨%d0, H0⟩, ⟨%d1, H1⟩, ⟨%d2, H2⟩⟩
      iapply (run0_mid c Set.univ (grid0.coords t) _ _ _ _ _ _ _ _ _ _ hF hL (qblk0 V c t) (kblk0 V c t) _ _ _ _)
      isplitl [H0]; · iexact H0
      isplitl [H1]; · iexact H1
      isplitl [H2]; · iexact H2
      isplitl [HA]; · iexact HA
      isplitl [HB]; · iexact HB
      iintro ⟨H0, H1, H2, HA, HB⟩
      isplitl [HA HB Hrest Hg]
      · isplitl [HA HB Hrest]
        · isplitl [HA]; · iexact HA
          isplitl [HB]; · iexact HB
          iexact Hrest
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the call is handed at its entry is the invariant before the first point; after the last point the scratch rows'
    contents are forgotten again. -/
theorem hin0 (c : Dev nD) : Pipeline.ΦA spec0 c ⊢ (dat0 V c).Φ 0 := by
  rw [show (dat0 V c).Φ 0 = Phi0 V c 0 (Nat.zero_le _) from rfl, Phi0_zero V c 0 _ rfl]
  try exact Idealize.SL.BI.Entails.refl _
theorem hout0 (c : Dev nD) : (dat0 V c).Φ (Fin.last cfg0.N) ⊢ Pipeline.ΦA spec0 c := by
  rw [show (dat0 V c).Φ (Fin.last cfg0.N) = Phi0 V c (Fin.last cfg0.N).val (Nat.le_of_lt_succ (Fin.last cfg0.N).isLt) from rfl,
    Phi0_pos V c _ _ (by rw [Fin.val_last]; have : cfg0.N = 128 := N_0; omega), PhiA0_eq]
  iintro ⟨⟨HA, HB, Hrest⟩, Hg⟩
  isplitl [HA HB Hrest]
  · isplitl [HA]; · iexists _; iexact HA
    isplitl [HB]; · iexists _; iexact HB
    iexact Hrest
  iexact Hg

end Region0

end Cert.Kernel.Hand

end
-- ==== Proof.K.Body1.lean ====
/-
  One grid point of the nearest-neighbour kernel of the second call, as a Hoare triple in each of its three control cases.

  The grid is (query tile i, key tile j), j fastest.  Two scratch rows of 2048 entries live across the key tiles of one
  query tile: the running minimum and the squared norms of the query tile's rows.
  * j = 0: the running minimum is reset to +inf, the norms are computed and stored, then the point's own step runs;
  * 0 < j < 15: only the step: running minimum := min(running minimum, column minima of this key tile's distances);
  * j = 15: the step, then the running minimum is copied to the output block.
  Every load and store moves a whole buffer, so what each buffer holds afterwards is the named payload of the last store
  into it, with every loaded value the contents (or the payload stored just before) it reads.
-/
import proofs.«140751_j59055800320002_1_alg».proof.Proof.Gen.Kernel.Launch
import proofs.«140751_j59055800320002_1_alg».proof.Proof.Gen.Kernel.Skeleton
import proofs.«140751_j59055800320002_1_alg».proof.Proof.Gen.Kernel.Points
import proofs.«140751_j59055800320002_1_alg».proof.Proof.LibWholeStore
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.WholeStore

variable {F : FTy → Type} [FloatOps F]

local notation "𝕄" => MT nD τ sig Unit (Elt F) ℕ (UR sig nD τ) ℕ

/-- The point is the first key tile of its query tile (the kernel's own scalar chain for `j == 0`). -/
abbrev isFirst1 (i : grid1.Coords) : Prop := (Scalar.cmpi .ne (Scalar.extui (Scalar.cmpi .eq (BitVec.ofNat 32 (i 1).val) 0#32)) 0#32) = 1#1
/-- The point is the last key tile of its query tile (`j == 15`). -/
abbrev isLast1 (i : grid1.Coords) : Prop := k1_cond2 i = 1#1

/-- Offset zero in a rank-2 shape. -/
theorem off00b : (![0, 0] : Fin 2 → Nat) = fun _ => 0 := by funext a; fin_cases a <;> rfl

set_option maxHeartbeats 1000000 in
/-- First key tile: both scratch rows hold anything on entry; afterwards the norms row holds the query tile's squared norms and
    the running minimum the step taken from +inf. The output block is not touched. -/
theorem run1_first (c : Dev nD) (E : Set ℕ) (i : grid1.Coords)
    (arg2 : Memref sig .tc .vmem S2048x128 .f32) (harg2 : arg2.IsWhole) (arg3 : Memref sig .tc .vmem S1024x128 .f32) (harg3 : arg3.IsWhole)
    (arg4 : Memref sig .tc .vmem S1x2048 .f32) (harg4 : arg4.IsWhole) (arg5 : Memref sig .tc .vmem S1x2048 .f32) (harg5 : arg5.IsWhole)
    (arg6 : Memref sig .tc .vmem S1x2048 .f32) (harg6 : arg6.IsWhole) (hc1 : isFirst1 i) (hc2 : ¬isLast1 i)
    (x0 : Vec F S2048x128 .f32) (x1 : Vec F S1024x128 .f32) (xi : Vec F S1x2048 .f32) (K : PUnit → sProp 𝕄) :
    iprop(owns (c : Thread nD τ) arg2 fullShare x0 ∗ owns (c : Thread nD τ) arg3 fullShare x1 ∗ owns (c : Thread nD τ) arg4 fullShare xi
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare xi
            ∗ owns (c : Thread nD τ) arg5 fullShare (k1_pay3 x1 x0 (k1_pay2 x0) k1_pay1) ∗ owns (c : Thread nD τ) arg6 fullShare (k1_pay2 x0)) -∗ K ⟨⟩))
      ⊢ wp frame (wpE (defs₀ (F := F)) Variants.none c none) E (cc1__min_dist_kernel i arg2 harg2 arg3 harg3 arg4 harg4 arg5 harg5 arg6 harg6) K := by
  simp only [cc1__min_dist_kernel_eq_skeleton]; unfold cc1__min_dist_kernel_skel
  unfold owns
  iintro ⟨⟨%f0, %hf0, H0⟩, ⟨%f1, %hf1, H1⟩, ⟨%f4, %hf4, H4⟩, ⟨%d5, %f5, -, H5⟩, ⟨%d6, %f6, -, H6⟩, Hk⟩
  obtain rfl := harg2.eq_unread hf0; obtain rfl := harg3.eq_unread hf1; obtain rfl := harg4.eq_unread hf4
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; · ipureintro; exact harg4.read_unread _
    iexact H4
  isplitl [H5]
  · iexists _; isplitr
    swap; · iexact H5
    ipureintro
    sl_unfold_words
    rw [read_writes_cons_whole _ _ off00b]
    simp only [View.readAt_eq_ld, harg2.read_unread, harg3.read_unread, View.ld_unit_zero (S := S2048x128) off00b,
      View.ld_unit_zero (S := S1024x128) off00b, View.readCov_unit_zero (S := S1x2048) _ off00b]
  · iexists _; isplitr
    swap; · iexact H6
    ipureintro
    sl_unfold_words
    rw [read_writes_cons_whole _ _ off00b]
    simp only [View.readAt_eq_ld, harg2.read_unread, View.ld_unit_zero (S := S2048x128) off00b]

set_option maxHeartbeats 1000000 in
/-- A middle key tile: the running minimum `acc` and the norms row `a2` come from the point before; the norms row is kept,
    the running minimum takes the step. The output block is not touched. -/
theorem run1_mid (c : Dev nD) (E : Set ℕ) (i : grid1.Coords)
    (arg2 : Memref sig .tc .vmem S2048x128 .f32) (harg2 : arg2.IsWhole) (arg3 : Memref sig .tc .vmem S1024x128 .f32) (harg3 : arg3.IsWhole)
    (arg4 : Memref sig .tc .vmem S1x2048 .f32) (harg4 : arg4.IsWhole) (arg5 : Memref sig .tc .vmem S1x2048 .f32) (harg5 : arg5.IsWhole)
    (arg6 : Memref sig .tc .vmem S1x2048 .f32) (harg6 : arg6.IsWhole) (hc1 : ¬isFirst1 i) (hc2 : ¬isLast1 i)
    (x0 : Vec F S2048x128 .f32) (x1 : Vec F S1024x128 .f32) (xi : Vec F S1x2048 .f32) (acc a2 : Vec F S1x2048 .f32) (K : PUnit → sProp 𝕄) :
    iprop(owns (c : Thread nD τ) arg2 fullShare x0 ∗ owns (c : Thread nD τ) arg3 fullShare x1 ∗ owns (c : Thread nD τ) arg4 fullShare xi
        ∗ owns (c : Thread nD τ) arg5 fullShare acc ∗ owns (c : Thread nD τ) arg6 fullShare a2
        ∗ (iprop(owns (c : Thread nD τ) arg2 fullShare x0 ∗ owns (c : Thread nD τ) arg3 fullShare x1 ∗ owns (c : Thread nD τ) arg4 fullShare xi
            ∗ owns (c : Thread nD τ) arg5 fullShare (k1_pay3 x1 x0 a2 acc) ∗ owns (c : Thread nD τ) arg6 fullShare a2) -∗ K ⟨⟩))
      ⊢ wp frame (wpE (defs₀ (F := F)) Variants.none c none) E (cc1__min_dist_kernel i arg2 harg2 arg3 harg3 arg4 harg4 arg5 harg5 arg6 harg6) K := by
  simp only [cc1__min_dist_kernel_eq_skeleton]; unfold cc1__min_dist_kernel_skel
  unfold owns
  iintro ⟨⟨%f0, %hf0, H0⟩, ⟨%f1, %hf1, H1⟩, ⟨%f4, %hf4, H4⟩, ⟨%f5, %hf5, H5⟩, ⟨%f6, %hf6, H6⟩, Hk⟩
  obtain rfl := harg2.eq_unread hf0; obtain rfl := harg3.eq_unread hf1; obtain rfl := harg4.eq_unread hf4
  obtain rfl := harg5.eq_unread hf5; obtain rfl := harg6.eq_unread hf6
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; · ipureintro; exact harg4.read_unread _
    iexact H4
  isplitl [H5]
  · iexists _; isplitr
    swap; · iexact H5
    ipureintro
    sl_unfold_words
    rw [read_writes_cons_whole _ _ off00b]
    simp only [View.readAt_eq_ld, harg2.read_unread, harg3.read_unread, harg5.read_unread, harg6.read_unread,
      View.ld_unit_zero (S := S2048x128) off00b, View.ld_unit_zero (S := S1024x128) off00b, View.ld_unit_zero (S := S1x2048) off00b]
  · iexists _; isplitr; · ipureintro; exact harg6.read_unread _
    iexact H6

set_option maxHeartbeats 1000000 in
/-- Last key tile: as a middle one, and the new running minimum is also what the output block holds afterwards. -/
theorem run1_last (c : Dev nD) (E : Set ℕ) (i : grid1.Coords)
    (arg2 : Memref sig .tc .vmem S2048x128 .f32) (harg2 : arg2.IsWhole) (arg3 : Memref sig .tc .vmem S1024x128 .f32) (harg3 : arg3.IsWhole)
    (arg4 : Memref sig .tc .vmem S1x2048 .f32) (harg4 : arg4.IsWhole) (arg5 : Memref sig .tc .vmem S1x2048 .f32) (harg5 : arg5.IsWhole)
    (arg6 : Memref sig .tc .vmem S1x2048 .f32) (harg6 : arg6.IsWhole) (hc1 : ¬isFirst1 i) (hc2 : isLast1 i)
    (x0 : Vec F S2048x128 .f32) (x1 : Vec F S1024x128 .f32) (acc a2 : Vec F S1x2048 .f32) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare acc ∗ owns (c : Thread nD τ) arg6 fullShare a2
        ∗ (iprop(owns (c : Thread nD τ) arg2 fullShare x0 ∗ owns (c : Thread nD τ) arg3 fullShare x1 ∗ owns (c : Thread nD τ) arg4 fullShare (k1_pay3 x1 x0 a2 acc)
            ∗ owns (c : Thread nD τ) arg5 fullShare (k1_pay3 x1 x0 a2 acc) ∗ owns (c : Thread nD τ) arg6 fullShare a2) -∗ K ⟨⟩))
      ⊢ wp frame (wpE (defs₀ (F := F)) Variants.none c none) E (cc1__min_dist_kernel i arg2 harg2 arg3 harg3 arg4 harg4 arg5 harg5 arg6 harg6) K := by
  simp only [cc1__min_dist_kernel_eq_skeleton]; unfold cc1__min_dist_kernel_skel
  unfold owns
  iintro ⟨⟨%f0, %hf0, H0⟩, ⟨%f1, %hf1, H1⟩, ⟨%d4, %f4, -, H4⟩, ⟨%f5, %hf5, H5⟩, ⟨%f6, %hf6, H6⟩, Hk⟩
  obtain rfl := harg2.eq_unread hf0; obtain rfl := harg3.eq_unread hf1
  obtain rfl := harg5.eq_unread hf5; obtain rfl := harg6.eq_unread hf6
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr
    swap; · iexact H4
    ipureintro
    sl_unfold_words
    rw [read_writes_cons_whole _ _ off00b]
    simp only [View.readAt_eq_ld, harg2.read_unread, harg3.read_unread, harg5.read_unread, harg6.read_unread,
      View.ld_unit_zero (S := S2048x128) off00b, View.ld_unit_zero (S := S1024x128) off00b, View.ld_unit_zero (S := S1x2048) off00b,
      View.readCov_unit_zero (S := S1x2048) _ off00b]
  isplitl [H5]
  · iexists _; isplitr
    swap; · iexact H5
    ipureintro
    sl_unfold_words
    rw [read_writes_cons_whole _ _ off00b]
    simp only [View.readAt_eq_ld, harg2.read_unread, harg3.read_unread, harg5.read_unread, harg6.read_unread,
      View.ld_unit_zero (S := S2048x128) off00b, View.ld_unit_zero (S := S1024x128) off00b, View.ld_unit_zero (S := S1x2048) off00b]
  · iexists _; isplitr; · ipureintro; exact harg6.read_unread _
    iexact H6

end Cert.Kernel.Hand

end
-- ==== Proof.K.Inv1.lean ====
/-
  The second call's two scratch rows among the core's scoped buffers: the class invariant, which holds every scoped buffer that
  is no staging buffer of this call at some contents, splits into the two rows (as memrefs owned at some contents), the
  remaining buffers (the first call's staging buffers and scratch rows), and the generator register.  The two rows come last in
  the enumeration of the scoped buffers, so the split is a rearrangement of a separating conjunction, proved in both directions.
-/
import proofs.«140751_j59055800320002_1_alg».proof.Proof.K.Body1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.WholeStore

variable {F : FTy → Type} [FloatOps F]

local notation "𝕄" => MT nD τ sig Unit (Elt F) ℕ (UR sig nD τ) ℕ

/-- The two scratch rows as memrefs. -/
abbrev scMin1 : Memref sig .tc .vmem S1x2048 .f32 := Memref.whole cc1_scratch0
abbrev scNrm1 : Memref sig .tc .vmem S1x2048 .f32 := Memref.whole cc1_scratch1

/-- The core's other scoped buffers (the first call's staging buffers and scratch rows), each whole at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))

/-- The scoped buffers, with the two rows pulled to the front. -/
theorem scoped1_split (c : Dev nD) : (Pipeline.scopedRest (Ix := Unit) (Name := ℕ) (U := UR sig nD τ) (Lvl := ℕ) (Val := Elt F) spec1 c : sProp 𝕄) ⊢ iprop((∃ d, owns (c : Thread nD τ) scMin1 fullShare d) ∗ (∃ d, owns (c : Thread nD τ) scNrm1 fullShare d) ∗ rest1 c) := by
  rw [scopedRest1_eq]; unfold rest1; simp only [scMin1, scNrm1, owns_whole]
  iintro ⟨H1, H2, H3, H4, H5, H6, H7, H8, HA, HB⟩
  isplitl [HA]; · iexact HA
  isplitl [HB]; · iexact HB
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- And put back in their place. -/
theorem scoped1_join (c : Dev nD) : iprop((∃ d, owns (c : Thread nD τ) scMin1 fullShare d) ∗ (∃ d, owns (c : Thread nD τ) scNrm1 fullShare d) ∗ rest1 c) ⊢ (Pipeline.scopedRest (Ix := Unit) (Name := ℕ) (U := UR sig nD τ) (Lvl := ℕ) (Val := Elt F) spec1 c : sProp 𝕄) := by
  rw [scopedRest1_eq]; unfold rest1; simp only [scMin1, scNrm1, owns_whole]
  iintro ⟨HA, HB, H1, H2, H3, H4, H5, H6, H7, H8⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HA]; · iexact HA
  iexact HB

/-- The class invariant with this call's two scratch rows as memrefs owned at some contents. -/
theorem PhiA1_eq (c : Dev nD) :
    (Pipeline.ΦA spec1 c : sProp 𝕄)
      = iprop(((∃ d, owns (c : Thread nD τ) scMin1 fullShare d) ∗ (∃ d, owns (c : Thread nD τ) scNrm1 fullShare d) ∗ rest1 c) ∗ (∃ r, prngReg c r)) := by
  unfold Pipeline.ΦA
  rw [show (Pipeline.scopedRest (Ix := Unit) (Name := ℕ) (U := UR sig nD τ) (Lvl := ℕ) (Val := Elt F) spec1 c : sProp 𝕄) = iprop((∃ d, owns (c : Thread nD τ) scMin1 fullShare d) ∗ (∃ d, owns (c : Thread nD τ) scNrm1 fullShare d) ∗ rest1 c) from BI.equiv_iff.mp ⟨scoped1_split c, scoped1_join c⟩]

end Cert.Kernel.Hand

end
-- ==== Proof.K.Dat1.lean ====
/-
  The second call, over all its 128 grid points: what the two scratch rows hold after each point, the invariant that carries
  them from point to point, the pipeline's proof data, and the body obligation at every point.

  The points run t = 16 i + j (query tile i, key tile j).  After point t the pair (running minimum, norms row) is
  * at j = 0: (step from +inf with the fresh norms, the fresh norms of query tile i),
  * at j > 0: (step from the pair after t - 1, the norms row unchanged).
  The output block is written only at j = 15, with the running minimum; at the other points its window is idle.
-/
import proofs.«140751_j59055800320002_1_alg».proof.Proof.K.Inv1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.WholeStore

variable {F : FTy → Type} [FloatOps F]

local notation "𝕄" => MT nD τ sig Unit (Elt F) ℕ (UR sig nD τ) ℕ

section Region1
-- the buffers' contents when the call is entered
variable (V : (c : Dev nD) → (b : Ref sig .tc) → Buf (Elt F) ((c : Thread nD τ).loc b))

/-! ## The windows' blocks -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query tile and the key tile of point `t`, at their literal shapes. -/
abbrev qblk1 (c : Dev nD) (t : Fin cfg1.N) : Vec F S2048x128 .f32 := iblk1 V c 0 t
abbrev kblk1 (c : Dev nD) (t : Fin cfg1.N) : Vec F S1024x128 .f32 := iblk1 V c 1 t

/-- An input window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## Which points are first and last of their query tile, and where the output window is idle -/

theorem hfirst1 : ∀ t : Fin cfg1.N, isFirst1 (grid1.coords t) ↔ t.val % 16 = 0 :=
  (by decide +kernel : ∀ t : Fin grid1.N, isFirst1 (grid1.coords t) ↔ t.val % 16 = 0)
theorem hlast1 : ∀ t : Fin cfg1.N, isLast1 (grid1.coords t) ↔ t.val % 16 = 15 :=
  (by decide +kernel : ∀ t : Fin grid1.N, isLast1 (grid1.coords t) ↔ t.val % 16 = 15)
theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬isLast1 (grid1.coords t) → cfg1.idle 2 (grid1.coords t) = true := by decide +kernel
theorem noFlush1_2 : ∀ t : Fin cfg1.N, ¬isLast1 (grid1.coords t) → (cfg1.win 2).flush t = false := by decide +kernel
theorem liveAt1_2 : ∀ t : Fin cfg1.N, isLast1 (grid1.coords t) → cfg1.idle 2 (grid1.coords t) = false := by decide +kernel

/-! ## The two scratch rows after each point -/

/-- (running minimum, norms row) after the body at position `n`. -/
def carry1 (c : Dev nD) : (n : ℕ) → n < cfg1.N → Vec F S1x2048 .f32 × Vec F S1x2048 .f32
  | 0, hn => (k1_pay3 (kblk1 V c ⟨0, hn⟩) (qblk1 V c ⟨0, hn⟩) (k1_pay2 (qblk1 V c ⟨0, hn⟩)) k1_pay1, k1_pay2 (qblk1 V c ⟨0, hn⟩))
  | n + 1, hn =>
    if (n + 1) % 16 = 0 then
      (k1_pay3 (kblk1 V c ⟨n + 1, hn⟩) (qblk1 V c ⟨n + 1, hn⟩) (k1_pay2 (qblk1 V c ⟨n + 1, hn⟩)) k1_pay1, k1_pay2 (qblk1 V c ⟨n + 1, hn⟩))
    else
      (k1_pay3 (kblk1 V c ⟨n + 1, hn⟩) (qblk1 V c ⟨n + 1, hn⟩) (carry1 c n (Nat.lt_of_succ_lt hn)).2 (carry1 c n (Nat.lt_of_succ_lt hn)).1,
        (carry1 c n (Nat.lt_of_succ_lt hn)).2)

/-- At the first key tile of a query tile: fresh norms, the step taken from +inf. -/
theorem carry1_first (c : Dev nD) (t : Fin cfg1.N) (h : t.val % 16 = 0) :
    carry1 V c t.val t.isLt = (k1_pay3 (kblk1 V c t) (qblk1 V c t) (k1_pay2 (qblk1 V c t)) k1_pay1, k1_pay2 (qblk1 V c t)) := by
  obtain ⟨n, hn⟩ := t
  cases n with
  | zero => rfl
  | succ n => exact (if_pos h).trans rfl

/-- At a later key tile: the step from what the point before left, the norms row kept. -/
theorem carry1_next (c : Dev nD) (t : Fin cfg1.N) (h : ¬t.val % 16 = 0) :
    carry1 V c t.val t.isLt = (k1_pay3 (kblk1 V c t) (qblk1 V c t) (carry1 V c (t.val - 1) (Nat.lt_of_le_of_lt (Nat.sub_le _ _) t.isLt)).2
        (carry1 V c (t.val - 1) (Nat.lt_of_le_of_lt (Nat.sub_le _ _) t.isLt)).1,
      (carry1 V c (t.val - 1) (Nat.lt_of_le_of_lt (Nat.sub_le _ _) t.isLt)).2) := by
  obtain ⟨n, hn⟩ := t
  cases n with
  | zero => exact absurd (Nat.zero_mod _) h
  | succ n => exact (if_neg h).trans rfl

/-! ## The invariant between points -/

/-- Before position `n`: at the call's entry anything in the scratch rows; afterwards what the point before left. -/
def Phi1 (c : Dev nD) : (n : ℕ) → n ≤ cfg1.N → sProp 𝕄
  | 0, _ => Pipeline.ΦA spec1 c
  | n + 1, hn => iprop((owns (c : Thread nD τ) scMin1 fullShare (carry1 V c n hn).1 ∗ owns (c : Thread nD τ) scNrm1 fullShare (carry1 V c n hn).2 ∗ rest1 c) ∗ (∃ r, prngReg c r))

theorem Phi1_zero (c : Dev nD) (n : ℕ) (h : n ≤ cfg1.N) (hz : n = 0) : Phi1 V c n h = Pipeline.ΦA spec1 c := by
  subst hz; rfl
theorem Phi1_succ (c : Dev nD) (n : ℕ) (hn : n < cfg1.N) :
    Phi1 V c (n + 1) hn = iprop((owns (c : Thread nD τ) scMin1 fullShare (carry1 V c n hn).1 ∗ owns (c : Thread nD τ) scNrm1 fullShare (carry1 V c n hn).2 ∗ rest1 c) ∗ (∃ r, prngReg c r)) := rfl
theorem Phi1_pos (c : Dev nD) (n : ℕ) (h : n ≤ cfg1.N) (hz : n ≠ 0) :
    Phi1 V c n h = iprop((owns (c : Thread nD τ) scMin1 fullShare (carry1 V c (n - 1) (by omega)).1 ∗ owns (c : Thread nD τ) scNrm1 fullShare (carry1 V c (n - 1) (by omega)).2 ∗ rest1 c) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (carry1 V c t.val t.isLt).1
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem Phi1_castSucc (c : Dev nD) (t : Fin cfg1.N) :
    (dat1 V c).Φ t.castSucc = Phi1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (carry1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: which of the three cases it is follows from t mod 16; the invariant hands the body the scratch rows
    at what the point before left (anything at the call's first point) and takes them back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  have hN : t.val < 128 := lt_of_lt_of_eq t.isLt (show cfg1.N = 128 from N_1)
  by_cases h0 : t.val % 16 = 0
  · have hF : isFirst1 (grid1.coords t) := (hfirst1 t).mpr h0
    have hL : ¬isLast1 (grid1.coords t) := fun h => by have := (hlast1 t).mp h; omega
    rw [Dat.leavesExact_idle (dat1 V c) 2 t (idleAt1_2 t hL) (noFlush1_2 t hL)]
    rw [carry1_first V c t h0]
    dsimp only
    by_cases hz : t.val = 0
    · rw [Phi1_castSucc V c t, Phi1_zero V c _ _ hz, PhiA1_eq]
      iintro ⟨⟨⟨HA, HB, Hrest⟩, Hg⟩, Ho, ⟨%d0, H0⟩, ⟨%d1, H1⟩, ⟨%d2, H2⟩⟩
      iapply (run1_first c Set.univ (grid1.coords t) _ _ _ _ _ _ _ _ _ _ hF hL (qblk1 V c t) (kblk1 V c t) _ _)
      isplitl [H0]; · iexact H0
      isplitl [H1]; · iexact H1
      isplitl [H2]; · iexact H2
      isplitl [HA]; · iexact HA
      isplitl [HB]; · iexact HB
      iintro ⟨H0, H1, H2, HA, HB⟩
      isplitl [HA HB Hrest Hg]
      · isplitl [HA HB Hrest]
        · isplitl [HA]; · iexact HA
          isplitl [HB]; · iexact HB
          iexact Hrest
        iexact Hg
      isplitl [Ho]; · iexact Ho
      isplitl [H0]; · iexact H0
      isplitl [H1]; · iexact H1
      iexists _; iexact H2
    · rw [Phi1_castSucc V c t, Phi1_pos V c _ _ hz]
      iintro ⟨⟨⟨HA, HB, Hrest⟩, Hg⟩, Ho, ⟨%d0, H0⟩, ⟨%d1, H1⟩, ⟨%d2, H2⟩⟩
      iapply (run1_first c Set.univ (grid1.coords t) _ _ _ _ _ _ _ _ _ _ hF hL (qblk1 V c t) (kblk1 V c t) _ _)
      isplitl [H0]; · iexact H0
      isplitl [H1]; · iexact H1
      isplitl [H2]; · iexact H2
      isplitl [HA]; · iexists _; iexact HA
      isplitl [HB]; · iexists _; iexact HB
      iintro ⟨H0, H1, H2, HA, HB⟩
      isplitl [HA HB Hrest Hg]
      · isplitl [HA HB Hrest]
        · isplitl [HA]; · iexact HA
          isplitl [HB]; · iexact HB
          iexact Hrest
        iexact Hg
      isplitl [Ho]; · iexact Ho
      isplitl [H0]; · iexact H0
      isplitl [H1]; · iexact H1
      iexists _; iexact H2
  · have hF : ¬isFirst1 (grid1.coords t) := fun h => h0 ((hfirst1 t).mp h)
    have hz : t.val ≠ 0 := fun h => h0 (by rw [h])
    rw [carry1_next V c t h0]
    dsimp only
    rw [Phi1_castSucc V c t, Phi1_pos V c _ _ hz]
    by_cases h1 : t.val % 16 = 15
    · have hL : isLast1 (grid1.coords t) := (hlast1 t).mpr h1
      rw [show (dat1 V c).leavesExact 2 t = owns (c : Thread nD τ) (st1_2 t) fullShare ((dat1 V c).after 2 t) from by
        unfold Dat.leavesExact; rw [liveAt1_2 t hL], after1_2, carry1_next V c t h0]
      iintro ⟨⟨⟨HA, HB, Hrest⟩, Hg⟩, Ho, ⟨%d0, H0⟩, ⟨%d1, H1⟩, ⟨%d2, H2⟩⟩
      iapply (run1_last c Set.univ (grid1.coords t) _ _ _ _ _ _ _ _ _ _ hF hL (qblk1 V c t) (kblk1 V c t) _ _ _)
      isplitl [H0]; · iexact H0
      isplitl [H1]; · iexact H1
      isplitl [H2]; · iexists _; iexact H2
      isplitl [HA]; · iexact HA
      isplitl [HB]; · iexact HB
      iintro ⟨H0, H1, H2, HA, HB⟩
      isplitl [HA HB Hrest Hg]
      · isplitl [HA HB Hrest]
        · isplitl [HA]; · iexact HA
          isplitl [HB]; · iexact HB
          iexact Hrest
        iexact Hg
      isplitl [Ho]; · iexact Ho
      isplitl [H0]; · iexact H0
      isplitl [H1]; · iexact H1
      iexact H2
    · have hL : ¬isLast1 (grid1.coords t) := fun h => h1 ((hlast1 t).mp h)
      rw [Dat.leavesExact_idle (dat1 V c) 2 t (idleAt1_2 t hL) (noFlush1_2 t hL)]
      iintro ⟨⟨⟨HA, HB, Hrest⟩, Hg⟩, Ho, ⟨%d0, H0⟩, ⟨%d1, H1⟩, ⟨%d2, H2⟩⟩
      iapply (run1_mid c Set.univ (grid1.coords t) _ _ _ _ _ _ _ _ _ _ hF hL (qblk1 V c t) (kblk1 V c t) _ _ _ _)
      isplitl [H0]; · iexact H0
      isplitl [H1]; · iexact H1
      isplitl [H2]; · iexact H2
      isplitl [HA]; · iexact HA
      isplitl [HB]; · iexact HB
      iintro ⟨H0, H1, H2, HA, HB⟩
      isplitl [HA HB Hrest Hg]
      · isplitl [HA HB Hrest]
        · isplitl [HA]; · iexact HA
          isplitl [HB]; · iexact HB
          iexact Hrest
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the call is handed at its entry is the invariant before the first point; after the last point the scratch rows'
    contents are forgotten again. -/
theorem hin1 (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _
theorem hout1 (c : Dev nD) : (dat1 V c).Φ (Fin.last cfg1.N) ⊢ Pipeline.ΦA spec1 c := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 128 := N_1; omega), PhiA1_eq]
  iintro ⟨⟨HA, HB, Hrest⟩, Hg⟩
  isplitl [HA HB Hrest]
  · isplitl [HA]; · iexists _; iexact HA
    isplitl [HB]; · iexists _; iexact HB
    iexact Hrest
  iexact Hg

end Region1

end Cert.Kernel.Hand

end
-- ==== Proof.K.Regs.lean ====
/-
  The two calls as segments of @main.

  Between two items of @main every unscoped buffer of a core is held whole at a named valuation: at launch the memory; after
  the two host reshapes `W1`; after the first call `W2` = `W1` with the first call's output array replaced by what the call
  leaves there; after the second call `W3` = `W2` with the second call's output array replaced likewise.  Each call's proof data
  are stated at the valuation it is entered from.  Beside the buffers rides the generator register at some state and the core
  owing nothing.
-/
import proofs.«140751_j59055800320002_1_alg».proof.Proof.K.Dat0
import proofs.«140751_j59055800320002_1_alg».proof.Proof.K.Dat1
import proofs.«140751_j59055800320002_1_alg».proof.Proof.Gen.Kernel.Regions
import Idealize.ShloMosaic.Lib.Pipeline.RegionsLoop

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen Cert.WholeStore

variable {F : FTy → Type} [FloatOps F]

local notation "𝕄" => MT nD τ sig Unit (Elt F) ℕ (UR sig nD τ) ℕ

variable (m : (ℓ : Loc nD τ sig) → Buf (Elt F) ℓ)

/-! ## The buffers' contents between the items -/

/-- After the two host reshapes (the first call's entry). -/
abbrev W1 (c : Dev nD) : Valuation τ sig (Elt F) := Gen.V1 m c
/-- The same read at the TensorCore's references. -/
abbrev E1 (c : Dev nD) (b : Ref sig .tc) : Buf (Elt F) ((c : Thread nD τ).loc b) := W1 m c b
/-- What the first call leaves in its output array. -/
def o2 (c : Dev nD) : Buf (Elt F) ((c : Thread nD τ).loc main_v2) := (dat0 (E1 m) c).arrAt 2 cfg0.N
/-- After the first call (the second call's entry). -/
def W2 (c : Dev nD) : Valuation τ sig (Elt F) := Function.update (W1 m c) main_v2 (o2 m c)
abbrev E2 (c : Dev nD) (b : Ref sig .tc) : Buf (Elt F) ((c : Thread nD τ).loc b) := W2 m c b
/-- What the second call leaves in its output array. -/
def o3 (c : Dev nD) : Buf (Elt F) ((c : Thread nD τ).loc main_v3) := (dat1 (E2 m) c).arrAt 2 cfg1.N
/-- After the second call. -/
def W3 (c : Dev nD) : Valuation τ sig (Elt F) := Function.update (W2 m c) main_v3 (o3 m c)

/-- What the calls leave, as the conditional run's unknowns: read off the last of these valuations. -/
def outsH : Gen.Outs (F := F) := fun _ r c => W3 m c r

theorem W3_v2 (c : Dev nD) : W3 m c main_v2 = o2 m c := by
  unfold W3 W2
  rw [Function.update_of_ne (StableHlo.devRef_ne_of_ne (by decide) : (Proc.devRef .tc main_v2 : DevRef τ sig) ≠ Proc.devRef .tc main_v3)]
  exact Function.update_self (Proc.devRef .tc main_v2 : DevRef τ sig) (o2 m c) (W1 m c)
theorem W3_v3 (c : Dev nD) : W3 m c main_v3 = o3 m c := by
  unfold W3; exact Function.update_self (Proc.devRef .tc main_v3 : DevRef τ sig) (o3 m c) (W2 m c)

/-- The conditional run's valuations are these. -/
theorem V2_eq (c : Dev nD) : Gen.V2 m (outsH m) c = W2 m c := by
  show Function.update (Gen.V1 m c) main_v2 (W3 m c main_v2) = _
  rw [W3_v2]; rfl
theorem V3_eq (c : Dev nD) : Gen.V3 m (outsH m) c = W3 m c := by
  show Function.update (Gen.V2 m (outsH m) c) main_v3 (W3 m c main_v3) = _
  rw [W3_v3, V2_eq]; rfl

/-! ## The proof data family and what rides beside the buffers -/

def pdatsH : (p : Fin 2) → (c : Dev nD) → Dat τ (Elt F) Unit ℕ (UR sig nD τ) ℕ (cfgs p) c
  | ⟨0, _⟩ => fun c => dat0 (E1 m) c
  | ⟨1, _⟩ => fun c => dat1 (E2 m) c

/-- No core owes another anything: no level is assigned. -/
abbrev LH : GSem nD τ sig → Finset Unit := fun _ => ∅
abbrev lvH : GSem nD τ sig → Unit → ℕ := fun _ _ => 0
/-- The generator register at some state, and the core owing nothing. -/
abbrev RH (c : Dev nD) : sProp 𝕄 := iprop((∃ r, prngReg c r) ∗ ∃ W, owes (c : Thread nD τ) (0 : CellTallies nD τ sig Unit) W)

/-! ## Each call's arrays at its exit -/

theorem hF0 (c : Dev nD) (w : Fin cfg0.W) : (pdatsH m 0 c).arrAt w cfg0.N = W2 m c (Pipeline.arrRef spec0 w) := by
  match w with
  | ⟨0, _⟩ =>
    refine ((dat0 (E1 m) c).arrAt_in 0 rfl _).trans ((A_eq0 (E1 m) c 0).trans ?_)
    unfold W2
    exact (Function.update_of_ne (StableHlo.devRef_ne_of_ne (by decide) : (Proc.devRef .tc main_v0 : DevRef τ sig) ≠ Proc.devRef .tc main_v2) _ _).symm
  | ⟨1, _⟩ =>
    refine ((dat0 (E1 m) c).arrAt_in 1 rfl _).trans ((A_eq0 (E1 m) c 1).trans ?_)
    unfold W2
    exact (Function.update_of_ne (StableHlo.devRef_ne_of_ne (by decide) : (Proc.devRef .tc main_v1 : DevRef τ sig) ≠ Proc.devRef .tc main_v2) _ _).symm
  | ⟨2, _⟩ =>
    unfold W2; exact (Function.update_self (Proc.devRef .tc main_v2 : DevRef τ sig) (o2 m c) (W1 m c)).symm
theorem hrest0 (c : Dev nD) : ∀ b : Ref sig .tc, b ∉ Finset.univ.image (Pipeline.arrRef spec0) → W2 m c b = W1 m c b := by
  intro b hb
  unfold W2
  exact Function.update_of_ne (StableHlo.devRef_ne_of_ne (fun e => hb (Finset.mem_image.mpr ⟨2, Finset.mem_univ _, e.symm⟩)) : (Proc.devRef .tc b : DevRef τ sig) ≠ Proc.devRef .tc main_v2) _ _

theorem hF1 (c : Dev nD) (w : Fin cfg1.W) : (pdatsH m 1 c).arrAt w cfg1.N = W3 m c (Pipeline.arrRef spec1 w) := by
  match w with
  | ⟨0, _⟩ =>
    refine ((dat1 (E2 m) c).arrAt_in 0 rfl _).trans ((A_eq1 (E2 m) c 0).trans ?_)
    unfold W3
    exact (Function.update_of_ne (StableHlo.devRef_ne_of_ne (by decide) : (Proc.devRef .tc main_v1 : DevRef τ sig) ≠ Proc.devRef .tc main_v3) _ _).symm
  | ⟨1, _⟩ =>
    refine ((dat1 (E2 m) c).arrAt_in 1 rfl _).trans ((A_eq1 (E2 m) c 1).trans ?_)
    unfold W3
    exact (Function.update_of_ne (StableHlo.devRef_ne_of_ne (by decide) : (Proc.devRef .tc main_v0 : DevRef τ sig) ≠ Proc.devRef .tc main_v3) _ _).symm
  | ⟨2, _⟩ =>
    unfold W3; exact (Function.update_self (Proc.devRef .tc main_v3 : DevRef τ sig) (o3 m c) (W2 m c)).symm
theorem hrest1 (c : Dev nD) : ∀ b : Ref sig .tc, b ∉ Finset.univ.image (Pipeline.arrRef spec1) → W3 m c b = W2 m c b := by
  intro b hb
  unfold W3
  exact Function.update_of_ne (StableHlo.devRef_ne_of_ne (fun e => hb (Finset.mem_image.mpr ⟨2, Finset.mem_univ _, e.symm⟩)) : (Proc.devRef .tc b : DevRef τ sig) ≠ Proc.devRef .tc main_v3) _ _

/-! ## The calls as segments -/

-- a library lemma stated over `pin pcs a p` unifies with the pinned configuration only when unification may unfold plain
-- definitions in a metavariable's type
set_option backward.isDefEq.respectTransparency.types false in
/-- Call 0 as a segment of @main: entered from every unscoped buffer at `W1`, left at `W2`. Its arrays are split out of
    the unscoped buffers and put back at their final contents; the generator register goes into the invariant and comes back;
    nothing is owed; the kernel has no semaphore of its own. -/
def reg0 : Pipeline.RegionSeg (pcfgs (F := F)) Gen.adm (pdatsH m) () defs₀ Variants.none LH lvH 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ LH lvH 0 fun _ _ => rfl
  pre c := iprop(StableHlo.held (c : Thread nD τ) (Pipeline.ucRefs τ sig) (W1 m c) ∗ RH c)
  post c := iprop(StableHlo.held (c : Thread nD τ) (Pipeline.ucRefs τ sig) (W2 m c) ∗ RH c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) Gen.adm (pdatsH m) launch0.win launch0.arr_whole c
      ((pdatsH m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (E1 m) c)
    unfold Pipeline.ΦA
    iintro ⟨Hp, -, Hr⟩
    isplitl [Hr]; · iexact Hr
    iexact Hp
  hout c := by
    rw [Pipeline.ownSems0_none]
    refine BIBase.Entails.trans (hout0 (E1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdatsH m) ((pdatsH m 0 c).share_full fun _ => rfl)
      (E1 m c) (fun b => W2 m c b) ((pdatsH m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold plain
-- definitions in a metavariable's type
set_option backward.isDefEq.respectTransparency.types false in
/-- Call 1 as a segment of @main: entered from every unscoped buffer at `W2`, left at `W3`. Its arrays are split out of
    the unscoped buffers and put back at their final contents; the generator register goes into the invariant and comes back;
    nothing is owed; the kernel has no semaphore of its own. -/
def reg1 : Pipeline.RegionSeg (pcfgs (F := F)) Gen.adm (pdatsH m) () defs₀ Variants.none LH lvH 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ LH lvH 1 fun _ _ => rfl
  pre c := iprop(StableHlo.held (c : Thread nD τ) (Pipeline.ucRefs τ sig) (W2 m c) ∗ RH c)
  post c := iprop(StableHlo.held (c : Thread nD τ) (Pipeline.ucRefs τ sig) (W3 m c) ∗ RH c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) Gen.adm (pdatsH m) launch1.win launch1.arr_whole c
      ((pdatsH m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (E2 m) c)
    unfold Pipeline.ΦA
    iintro ⟨Hp, -, Hr⟩
    isplitl [Hr]; · iexact Hr
    iexact Hp
  hout c := by
    rw [Pipeline.ownSems0_none]
    refine BIBase.Entails.trans (hout1 (E2 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdatsH m) ((pdatsH m 1 c).share_full fun _ => rfl)
      (E2 m c) (fun b => W3 m c b) ((pdatsH m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Frames.lean ====
/-
  The program's run and its frame claim, at any float instance.

  The conditional run of the two-region program is instantiated with the two calls' segment records: every weakly fair execution
  of @main from any memory with zero counters terminates, and the final memory holds every unscoped buffer at the last valuation
  (the launch memory, then the host reshapes, then each call's output array at what the call leaves, then the closing host
  operations).  No item writes an argument array, so the arguments end as launched: the frame claim.
-/
import proofs.«140751_j59055800320002_1_alg».proof.Proof.K.Regs
import proofs.«140751_j59055800320002_1_alg».proof.Proof.K.RunCond

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen Cert.WholeStore

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every unscoped buffer ends at the last valuation. -/
theorem runH : θ_run defs (onTc (τ := τ) (main (F := F))) ⟨m, fun _ => 0, ρ⟩ (fun r => ∀ c : Dev nD,
      ∀ b ∈ Pipeline.ucRefs τ sig, r.2.mem ((c : Thread nD τ).1, b) = Gen.V4 m (outsH m) c b) :=
  Gen.run_cond m emb₁ () Variants.none LH lvH (fun _ _ => rfl) ρ (outsH m) (pdatsH m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => RH c)
    (by
      refine Pipeline.initEach LH lvH fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun c => .rfl) (fun c => by rw [V2_eq]; exact .rfl)
    (reg1 m) (fun c => by rw [V2_eq]; exact .rfl) (fun c => by rw [V3_eq]; exact .rfl)

/-- The frame claim: the two argument arrays end as launched. -/
theorem frameH : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c (Proc.devRef .tc main_arg0) (Finset.mem_filter.mpr ⟨StableHlo.devRef_mem_tcRefs main_arg0, by decide⟩)).trans (Gen.V4_main_arg0 m (outsH m) c),
      (h c (Proc.devRef .tc main_arg1) (Finset.mem_filter.mpr ⟨StableHlo.devRef_mem_tcRefs main_arg1, by decide⟩)).trans (Gen.V4_main_arg1 m (outsH m) c)⟩)
    (runH m ρ)

end Cert.Kernel.Hand

end
-- ==== Proof.KI.Body0.lean ====
/-
  One grid point of the nearest-neighbour kernel of the first call, as a Hoare triple in each of its three control cases.

  The grid is (query tile i, key tile j), j fastest.  Two scratch rows of 2048 entries live across the key tiles of one
  query tile: the running minimum and the squared norms of the query tile's rows.
  * j = 0: the running minimum is reset to +inf, the norms are computed and stored, then the point's own step runs;
  * 0 < j < 15: only the step: running minimum := min(running minimum, column minima of this key tile's distances);
  * j = 15: the step, then the running minimum is copied to the output block.
  Every load and store moves a whole buffer, so what each buffer holds afterwards is the named payload of the last store
  into it, with every loaded value the contents (or the payload stored just before) it reads.
-/
import proofs.«140751_j59055800320002_1_alg».proof.Proof.Gen.KernelIdeal.Launch
import proofs.«140751_j59055800320002_1_alg».proof.Proof.Gen.KernelIdeal.Skeleton
import proofs.«140751_j59055800320002_1_alg».proof.Proof.Gen.KernelIdeal.Points
import proofs.«140751_j59055800320002_1_alg».proof.Proof.LibWholeStore
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.WholeStore

variable {F : FTy → Type} [FloatOps F]

local notation "𝕄" => MT nD τ sig Unit (Elt F) ℕ (UR sig nD τ) ℕ

/-- The point is the first key tile of its query tile (the kernel's own scalar chain for `j == 0`). -/
abbrev isFirst0 (i : grid0.Coords) : Prop := (Scalar.cmpi .ne (Scalar.extui (Scalar.cmpi .eq (BitVec.ofNat 32 (i 1).val) 0#32)) 0#32) = 1#1
/-- The point is the last key tile of its query tile (`j == 15`). -/
abbrev isLast0 (i : grid0.Coords) : Prop := k0_cond2 i = 1#1

/-- Offset zero in a rank-2 shape. -/
theorem off00 : (![0, 0] : Fin 2 → Nat) = fun _ => 0 := by funext a; fin_cases a <;> rfl

set_option maxHeartbeats 1000000 in
/-- First key tile: both scratch rows hold anything on entry; afterwards the norms row holds the query tile's squared norms and
    the running minimum the step taken from +inf. The output block is not touched. -/
theorem run0_first (c : Dev nD) (E : Set ℕ) (i : grid0.Coords)
    (arg2 : Memref sig .tc .vmem S2048x128 .f32) (harg2 : arg2.IsWhole) (arg3 : Memref sig .tc .vmem S1024x128 .f32) (harg3 : arg3.IsWhole)
    (arg4 : Memref sig .tc .vmem S1x2048 .f32) (harg4 : arg4.IsWhole) (arg5 : Memref sig .tc .vmem S1x2048 .f32) (harg5 : arg5.IsWhole)
    (arg6 : Memref sig .tc .vmem S1x2048 .f32) (harg6 : arg6.IsWhole) (hc1 : isFirst0 i) (hc2 : ¬isLast0 i)
    (x0 : Vec F S2048x128 .f32) (x1 : Vec F S1024x128 .f32) (xi : Vec F S1x2048 .f32) (K : PUnit → sProp 𝕄) :
    iprop(owns (c : Thread nD τ) arg2 fullShare x0 ∗ owns (c : Thread nD τ) arg3 fullShare x1 ∗ owns (c : Thread nD τ) arg4 fullShare xi
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare xi
            ∗ owns (c : Thread nD τ) arg5 fullShare (k0_pay3 x1 x0 (k0_pay2 x0) k0_pay1) ∗ owns (c : Thread nD τ) arg6 fullShare (k0_pay2 x0)) -∗ K ⟨⟩))
      ⊢ wp frame (wpE (defs₀ (F := F)) Variants.none c none) E (cc0__min_dist_kernel i arg2 harg2 arg3 harg3 arg4 harg4 arg5 harg5 arg6 harg6) K := by
  simp only [cc0__min_dist_kernel_eq_skeleton]; unfold cc0__min_dist_kernel_skel
  unfold owns
  iintro ⟨⟨%f0, %hf0, H0⟩, ⟨%f1, %hf1, H1⟩, ⟨%f4, %hf4, H4⟩, ⟨%d5, %f5, -, H5⟩, ⟨%d6, %f6, -, H6⟩, Hk⟩
  obtain rfl := harg2.eq_unread hf0; obtain rfl := harg3.eq_unread hf1; obtain rfl := harg4.eq_unread hf4
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; · ipureintro; exact harg4.read_unread _
    iexact H4
  isplitl [H5]
  · iexists _; isplitr
    swap; · iexact H5
    ipureintro
    sl_unfold_words
    rw [read_writes_cons_whole _ _ off00]
    simp only [View.readAt_eq_ld, harg2.read_unread, harg3.read_unread, View.ld_unit_zero (S := S2048x128) off00,
      View.ld_unit_zero (S := S1024x128) off00, View.readCov_unit_zero (S := S1x2048) _ off00]
  · iexists _; isplitr
    swap; · iexact H6
    ipureintro
    sl_unfold_words
    rw [read_writes_cons_whole _ _ off00]
    simp only [View.readAt_eq_ld, harg2.read_unread, View.ld_unit_zero (S := S2048x128) off00]

set_option maxHeartbeats 1000000 in
/-- A middle key tile: the running minimum `acc` and the norms row `a2` come from the point before; the norms row is kept,
    the running minimum takes the step. The output block is not touched. -/
theorem run0_mid (c : Dev nD) (E : Set ℕ) (i : grid0.Coords)
    (arg2 : Memref sig .tc .vmem S2048x128 .f32) (harg2 : arg2.IsWhole) (arg3 : Memref sig .tc .vmem S1024x128 .f32) (harg3 : arg3.IsWhole)
    (arg4 : Memref sig .tc .vmem S1x2048 .f32) (harg4 : arg4.IsWhole) (arg5 : Memref sig .tc .vmem S1x2048 .f32) (harg5 : arg5.IsWhole)
    (arg6 : Memref sig .tc .vmem S1x2048 .f32) (harg6 : arg6.IsWhole) (hc1 : ¬isFirst0 i) (hc2 : ¬isLast0 i)
    (x0 : Vec F S2048x128 .f32) (x1 : Vec F S1024x128 .f32) (xi : Vec F S1x2048 .f32) (acc a2 : Vec F S1x2048 .f32) (K : PUnit → sProp 𝕄) :
    iprop(owns (c : Thread nD τ) arg2 fullShare x0 ∗ owns (c : Thread nD τ) arg3 fullShare x1 ∗ owns (c : Thread nD τ) arg4 fullShare xi
        ∗ owns (c : Thread nD τ) arg5 fullShare acc ∗ owns (c : Thread nD τ) arg6 fullShare a2
        ∗ (iprop(owns (c : Thread nD τ) arg2 fullShare x0 ∗ owns (c : Thread nD τ) arg3 fullShare x1 ∗ owns (c : Thread nD τ) arg4 fullShare xi
            ∗ owns (c : Thread nD τ) arg5 fullShare (k0_pay3 x1 x0 a2 acc) ∗ owns (c : Thread nD τ) arg6 fullShare a2) -∗ K ⟨⟩))
      ⊢ wp frame (wpE (defs₀ (F := F)) Variants.none c none) E (cc0__min_dist_kernel i arg2 harg2 arg3 harg3 arg4 harg4 arg5 harg5 arg6 harg6) K := by
  simp only [cc0__min_dist_kernel_eq_skeleton]; unfold cc0__min_dist_kernel_skel
  unfold owns
  iintro ⟨⟨%f0, %hf0, H0⟩, ⟨%f1, %hf1, H1⟩, ⟨%f4, %hf4, H4⟩, ⟨%f5, %hf5, H5⟩, ⟨%f6, %hf6, H6⟩, Hk⟩
  obtain rfl := harg2.eq_unread hf0; obtain rfl := harg3.eq_unread hf1; obtain rfl := harg4.eq_unread hf4
  obtain rfl := harg5.eq_unread hf5; obtain rfl := harg6.eq_unread hf6
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; · ipureintro; exact harg4.read_unread _
    iexact H4
  isplitl [H5]
  · iexists _; isplitr
    swap; · iexact H5
    ipureintro
    sl_unfold_words
    rw [read_writes_cons_whole _ _ off00]
    simp only [View.readAt_eq_ld, harg2.read_unread, harg3.read_unread, harg5.read_unread, harg6.read_unread,
      View.ld_unit_zero (S := S2048x128) off00, View.ld_unit_zero (S := S1024x128) off00, View.ld_unit_zero (S := S1x2048) off00]
  · iexists _; isplitr; · ipureintro; exact harg6.read_unread _
    iexact H6

set_option maxHeartbeats 1000000 in
/-- Last key tile: as a middle one, and the new running minimum is also what the output block holds afterwards. -/
theorem run0_last (c : Dev nD) (E : Set ℕ) (i : grid0.Coords)
    (arg2 : Memref sig .tc .vmem S2048x128 .f32) (harg2 : arg2.IsWhole) (arg3 : Memref sig .tc .vmem S1024x128 .f32) (harg3 : arg3.IsWhole)
    (arg4 : Memref sig .tc .vmem S1x2048 .f32) (harg4 : arg4.IsWhole) (arg5 : Memref sig .tc .vmem S1x2048 .f32) (harg5 : arg5.IsWhole)
    (arg6 : Memref sig .tc .vmem S1x2048 .f32) (harg6 : arg6.IsWhole) (hc1 : ¬isFirst0 i) (hc2 : isLast0 i)
    (x0 : Vec F S2048x128 .f32) (x1 : Vec F S1024x128 .f32) (acc a2 : Vec F S1x2048 .f32) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare acc ∗ owns (c : Thread nD τ) arg6 fullShare a2
        ∗ (iprop(owns (c : Thread nD τ) arg2 fullShare x0 ∗ owns (c : Thread nD τ) arg3 fullShare x1 ∗ owns (c : Thread nD τ) arg4 fullShare (k0_pay3 x1 x0 a2 acc)
            ∗ owns (c : Thread nD τ) arg5 fullShare (k0_pay3 x1 x0 a2 acc) ∗ owns (c : Thread nD τ) arg6 fullShare a2) -∗ K ⟨⟩))
      ⊢ wp frame (wpE (defs₀ (F := F)) Variants.none c none) E (cc0__min_dist_kernel i arg2 harg2 arg3 harg3 arg4 harg4 arg5 harg5 arg6 harg6) K := by
  simp only [cc0__min_dist_kernel_eq_skeleton]; unfold cc0__min_dist_kernel_skel
  unfold owns
  iintro ⟨⟨%f0, %hf0, H0⟩, ⟨%f1, %hf1, H1⟩, ⟨%d4, %f4, -, H4⟩, ⟨%f5, %hf5, H5⟩, ⟨%f6, %hf6, H6⟩, Hk⟩
  obtain rfl := harg2.eq_unread hf0; obtain rfl := harg3.eq_unread hf1
  obtain rfl := harg5.eq_unread hf5; obtain rfl := harg6.eq_unread hf6
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr
    swap; · iexact H4
    ipureintro
    sl_unfold_words
    rw [read_writes_cons_whole _ _ off00]
    simp only [View.readAt_eq_ld, harg2.read_unread, harg3.read_unread, harg5.read_unread, harg6.read_unread,
      View.ld_unit_zero (S := S2048x128) off00, View.ld_unit_zero (S := S1024x128) off00, View.ld_unit_zero (S := S1x2048) off00,
      View.readCov_unit_zero (S := S1x2048) _ off00]
  isplitl [H5]
  · iexists _; isplitr
    swap; · iexact H5
    ipureintro
    sl_unfold_words
    rw [read_writes_cons_whole _ _ off00]
    simp only [View.readAt_eq_ld, harg2.read_unread, harg3.read_unread, harg5.read_unread, harg6.read_unread,
      View.ld_unit_zero (S := S2048x128) off00, View.ld_unit_zero (S := S1024x128) off00, View.ld_unit_zero (S := S1x2048) off00]
  · iexists _; isplitr; · ipureintro; exact harg6.read_unread _
    iexact H6

end Cert.KernelIdeal.Hand

end
-- ==== Proof.KI.Inv0.lean ====
/-
  The first call's two scratch rows among the core's scoped buffers: the class invariant, which holds every scoped buffer that is
  no staging buffer of this call at some contents, splits into the two rows (as memrefs owned at some contents), the remaining
  buffers (the second call's staging buffers and scratch rows), and the generator register.
-/
import proofs.«140751_j59055800320002_1_alg».proof.Proof.KI.Body0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.WholeStore

variable {F : FTy → Type} [FloatOps F]

local notation "𝕄" => MT nD τ sig Unit (Elt F) ℕ (UR sig nD τ) ℕ

/-- The two scratch rows as memrefs. -/
abbrev scMin0 : Memref sig .tc .vmem S1x2048 .f32 := Memref.whole cc0_scratch0
abbrev scNrm0 : Memref sig .tc .vmem S1x2048 .f32 := Memref.whole cc0_scratch1

/-- The core's other scoped buffers (the second call's staging buffers and scratch rows), each whole at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

/-- The class invariant with this call's two scratch rows as memrefs owned at some contents. -/
theorem PhiA0_eq (c : Dev nD) :
    (Pipeline.ΦA spec0 c : sProp 𝕄)
      = iprop(((∃ d, owns (c : Thread nD τ) scMin0 fullShare d) ∗ (∃ d, owns (c : Thread nD τ) scNrm0 fullShare d) ∗ rest0 c) ∗ (∃ r, prngReg c r)) := by
  unfold Pipeline.ΦA rest0; rw [scopedRest0_eq]; simp only [scMin0, scNrm0, owns_whole]; try rfl

end Cert.KernelIdeal.Hand

end
-- ==== Proof.KI.Dat0.lean ====
/-
  The first call, over all its 128 grid points: what the two scratch rows hold after each point, the invariant that carries
  them from point to point, the pipeline's proof data, and the body obligation at every point.

  The points run t = 16 i + j (query tile i, key tile j).  After point t the pair (running minimum, norms row) is
  * at j = 0: (step from +inf with the fresh norms, the fresh norms of query tile i),
  * at j > 0: (step from the pair after t - 1, the norms row unchanged).
  The output block is written only at j = 15, with the running minimum; at the other points its window is idle.
-/
import proofs.«140751_j59055800320002_1_alg».proof.Proof.KI.Inv0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.WholeStore

variable {F : FTy → Type} [FloatOps F]

local notation "𝕄" => MT nD τ sig Unit (Elt F) ℕ (UR sig nD τ) ℕ

section Region0
-- the buffers' contents when the call is entered
variable (V : (c : Dev nD) → (b : Ref sig .tc) → Buf (Elt F) ((c : Thread nD τ).loc b))

/-! ## The windows' blocks -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The query tile and the key tile of point `t`, at their literal shapes. -/
abbrev qblk0 (c : Dev nD) (t : Fin cfg0.N) : Vec F S2048x128 .f32 := iblk0 V c 0 t
abbrev kblk0 (c : Dev nD) (t : Fin cfg0.N) : Vec F S1024x128 .f32 := iblk0 V c 1 t

/-- An input window's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## Which points are first and last of their query tile, and where the output window is idle -/

theorem hfirst0 : ∀ t : Fin cfg0.N, isFirst0 (grid0.coords t) ↔ t.val % 16 = 0 :=
  (by decide +kernel : ∀ t : Fin grid0.N, isFirst0 (grid0.coords t) ↔ t.val % 16 = 0)
theorem hlast0 : ∀ t : Fin cfg0.N, isLast0 (grid0.coords t) ↔ t.val % 16 = 15 :=
  (by decide +kernel : ∀ t : Fin grid0.N, isLast0 (grid0.coords t) ↔ t.val % 16 = 15)
theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬isLast0 (grid0.coords t) → cfg0.idle 2 (grid0.coords t) = true := by decide +kernel
theorem noFlush0_2 : ∀ t : Fin cfg0.N, ¬isLast0 (grid0.coords t) → (cfg0.win 2).flush t = false := by decide +kernel
theorem liveAt0_2 : ∀ t : Fin cfg0.N, isLast0 (grid0.coords t) → cfg0.idle 2 (grid0.coords t) = false := by decide +kernel

/-! ## The two scratch rows after each point -/

/-- (running minimum, norms row) after the body at position `n`. -/
def carry0 (c : Dev nD) : (n : ℕ) → n < cfg0.N → Vec F S1x2048 .f32 × Vec F S1x2048 .f32
  | 0, hn => (k0_pay3 (kblk0 V c ⟨0, hn⟩) (qblk0 V c ⟨0, hn⟩) (k0_pay2 (qblk0 V c ⟨0, hn⟩)) k0_pay1, k0_pay2 (qblk0 V c ⟨0, hn⟩))
  | n + 1, hn =>
    if (n + 1) % 16 = 0 then
      (k0_pay3 (kblk0 V c ⟨n + 1, hn⟩) (qblk0 V c ⟨n + 1, hn⟩) (k0_pay2 (qblk0 V c ⟨n + 1, hn⟩)) k0_pay1, k0_pay2 (qblk0 V c ⟨n + 1, hn⟩))
    else
      (k0_pay3 (kblk0 V c ⟨n + 1, hn⟩) (qblk0 V c ⟨n + 1, hn⟩) (carry0 c n (Nat.lt_of_succ_lt hn)).2 (carry0 c n (Nat.lt_of_succ_lt hn)).1,
        (carry0 c n (Nat.lt_of_succ_lt hn)).2)

/-- At the first key tile of a query tile: fresh norms, the step taken from +inf. -/
theorem carry0_first (c : Dev nD) (t : Fin cfg0.N) (h : t.val % 16 = 0) :
    carry0 V c t.val t.isLt = (k0_pay3 (kblk0 V c t) (qblk0 V c t) (k0_pay2 (qblk0 V c t)) k0_pay1, k0_pay2 (qblk0 V c t)) := by
  obtain ⟨n, hn⟩ := t
  cases n with
  | zero => rfl
  | succ n => exact (if_pos h).trans rfl

/-- At a later key tile: the step from what the point before left, the norms row kept. -/
theorem carry0_next (c : Dev nD) (t : Fin cfg0.N) (h : ¬t.val % 16 = 0) :
    carry0 V c t.val t.isLt = (k0_pay3 (kblk0 V c t) (qblk0 V c t) (carry0 V c (t.val - 1) (Nat.lt_of_le_of_lt (Nat.sub_le _ _) t.isLt)).2
        (carry0 V c (t.val - 1) (Nat.lt_of_le_of_lt (Nat.sub_le _ _) t.isLt)).1,
      (carry0 V c (t.val - 1) (Nat.lt_of_le_of_lt (Nat.sub_le _ _) t.isLt)).2) := by
  obtain ⟨n, hn⟩ := t
  cases n with
  | zero => exact absurd (Nat.zero_mod _) h
  | succ n => exact (if_neg h).trans rfl

/-! ## The invariant between points -/

/-- Before position `n`: at the call's entry anything in the scratch rows; afterwards what the point before left. -/
def Phi0 (c : Dev nD) : (n : ℕ) → n ≤ cfg0.N → sProp 𝕄
  | 0, _ => Pipeline.ΦA spec0 c
  | n + 1, hn => iprop((owns (c : Thread nD τ) scMin0 fullShare (carry0 V c n hn).1 ∗ owns (c : Thread nD τ) scNrm0 fullShare (carry0 V c n hn).2 ∗ rest0 c) ∗ (∃ r, prngReg c r))

theorem Phi0_zero (c : Dev nD) (n : ℕ) (h : n ≤ cfg0.N) (hz : n = 0) : Phi0 V c n h = Pipeline.ΦA spec0 c := by
  subst hz; rfl
theorem Phi0_succ (c : Dev nD) (n : ℕ) (hn : n < cfg0.N) :
    Phi0 V c (n + 1) hn = iprop((owns (c : Thread nD τ) scMin0 fullShare (carry0 V c n hn).1 ∗ owns (c : Thread nD τ) scNrm0 fullShare (carry0 V c n hn).2 ∗ rest0 c) ∗ (∃ r, prngReg c r)) := rfl
theorem Phi0_pos (c : Dev nD) (n : ℕ) (h : n ≤ cfg0.N) (hz : n ≠ 0) :
    Phi0 V c n h = iprop((owns (c : Thread nD τ) scMin0 fullShare (carry0 V c (n - 1) (by omega)).1 ∗ owns (c : Thread nD τ) scNrm0 fullShare (carry0 V c (n - 1) (by omega)).2 ∗ rest0 c) ∗ (∃ r, prngReg c r)) := by
  cases n with
  | zero => exact absurd rfl hz
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (carry0 V c t.val t.isLt).1
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem Phi0_castSucc (c : Dev nD) (t : Fin cfg0.N) :
    (dat0 V c).Φ t.castSucc = Phi0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (carry0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: which of the three cases it is follows from t mod 16; the invariant hands the body the scratch rows
    at what the point before left (anything at the call's first point) and takes them back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  have hN : t.val < 128 := lt_of_lt_of_eq t.isLt (show cfg0.N = 128 from N_0)
  by_cases h0 : t.val % 16 = 0
  · have hF : isFirst0 (grid0.coords t) := (hfirst0 t).mpr h0
    have hL : ¬isLast0 (grid0.coords t) := fun h => by have := (hlast0 t).mp h; omega
    rw [Dat.leavesExact_idle (dat0 V c) 2 t (idleAt0_2 t hL) (noFlush0_2 t hL)]
    rw [carry0_first V c t h0]
    dsimp only
    by_cases hz : t.val = 0
    · rw [Phi0_castSucc V c t, Phi0_zero V c _ _ hz, PhiA0_eq]
      iintro ⟨⟨⟨HA, HB, Hrest⟩, Hg⟩, Ho, ⟨%d0, H0⟩, ⟨%d1, H1⟩, ⟨%d2, H2⟩⟩
      iapply (run0_first c Set.univ (grid0.coords t) _ _ _ _ _ _ _ _ _ _ hF hL (qblk0 V c t) (kblk0 V c t) _ _)
      isplitl [H0]; · iexact H0
      isplitl [H1]; · iexact H1
      isplitl [H2]; · iexact H2
      isplitl [HA]; · iexact HA
      isplitl [HB]; · iexact HB
      iintro ⟨H0, H1, H2, HA, HB⟩
      isplitl [HA HB Hrest Hg]
      · isplitl [HA HB Hrest]
        · isplitl [HA]; · iexact HA
          isplitl [HB]; · iexact HB
          iexact Hrest
        iexact Hg
      isplitl [Ho]; · iexact Ho
      isplitl [H0]; · iexact H0
      isplitl [H1]; · iexact H1
      iexists _; iexact H2
    · rw [Phi0_castSucc V c t, Phi0_pos V c _ _ hz]
      iintro ⟨⟨⟨HA, HB, Hrest⟩, Hg⟩, Ho, ⟨%d0, H0⟩, ⟨%d1, H1⟩, ⟨%d2, H2⟩⟩
      iapply (run0_first c Set.univ (grid0.coords t) _ _ _ _ _ _ _ _ _ _ hF hL (qblk0 V c t) (kblk0 V c t) _ _)
      isplitl [H0]; · iexact H0
      isplitl [H1]; · iexact H1
      isplitl [H2]; · iexact H2
      isplitl [HA]; · iexists _; iexact HA
      isplitl [HB]; · iexists _; iexact HB
      iintro ⟨H0, H1, H2, HA, HB⟩
      isplitl [HA HB Hrest Hg]
      · isplitl [HA HB Hrest]
        · isplitl [HA]; · iexact HA
          isplitl [HB]; · iexact HB
          iexact Hrest
        iexact Hg
      isplitl [Ho]; · iexact Ho
      isplitl [H0]; · iexact H0
      isplitl [H1]; · iexact H1
      iexists _; iexact H2
  · have hF : ¬isFirst0 (grid0.coords t) := fun h => h0 ((hfirst0 t).mp h)
    have hz : t.val ≠ 0 := fun h => h0 (by rw [h])
    rw [carry0_next V c t h0]
    dsimp only
    rw [Phi0_castSucc V c t, Phi0_pos V c _ _ hz]
    by_cases h1 : t.val % 16 = 15
    · have hL : isLast0 (grid0.coords t) := (hlast0 t).mpr h1
      rw [show (dat0 V c).leavesExact 2 t = owns (c : Thread nD τ) (st0_2 t) fullShare ((dat0 V c).after 2 t) from by
        unfold Dat.leavesExact; rw [liveAt0_2 t hL], after0_2, carry0_next V c t h0]
      iintro ⟨⟨⟨HA, HB, Hrest⟩, Hg⟩, Ho, ⟨%d0, H0⟩, ⟨%d1, H1⟩, ⟨%d2, H2⟩⟩
      iapply (run0_last c Set.univ (grid0.coords t) _ _ _ _ _ _ _ _ _ _ hF hL (qblk0 V c t) (kblk0 V c t) _ _ _)
      isplitl [H0]; · iexact H0
      isplitl [H1]; · iexact H1
      isplitl [H2]; · iexists _; iexact H2
      isplitl [HA]; · iexact HA
      isplitl [HB]; · iexact HB
      iintro ⟨H0, H1, H2, HA, HB⟩
      isplitl [HA HB Hrest Hg]
      · isplitl [HA HB Hrest]
        · isplitl [HA]; · iexact HA
          isplitl [HB]; · iexact HB
          iexact Hrest
        iexact Hg
      isplitl [Ho]; · iexact Ho
      isplitl [H0]; · iexact H0
      isplitl [H1]; · iexact H1
      iexact H2
    · have hL : ¬isLast0 (grid0.coords t) := fun h => h1 ((hlast0 t).mp h)
      rw [Dat.leavesExact_idle (dat0 V c) 2 t (idleAt0_2 t hL) (noFlush0_2 t hL)]
      iintro ⟨⟨⟨HA, HB, Hrest⟩, Hg⟩, Ho, ⟨%d0, H0⟩, ⟨%d1, H1⟩, ⟨%d2, H2⟩⟩
      iapply (run0_mid c Set.univ (grid0.coords t) _ _ _ _ _ _ _ _ _ _ hF hL (qblk0 V c t) (kblk0 V c t) _ _ _ _)
      isplitl [H0]; · iexact H0
      isplitl [H1]; · iexact H1
      isplitl [H2]; · iexact H2
      isplitl [HA]; · iexact HA
      isplitl [HB]; · iexact HB
      iintro ⟨H0, H1, H2, HA, HB⟩
      isplitl [HA HB Hrest Hg]
      · isplitl [HA HB Hrest]
        · isplitl [HA]; · iexact HA
          isplitl [HB]; · iexact HB
          iexact Hrest
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the call is handed at its entry is the invariant before the first point; after the last point the scratch rows'
    contents are forgotten again. -/
theorem hin0 (c : Dev nD) : Pipeline.ΦA spec0 c ⊢ (dat0 V c).Φ 0 := by
  rw [show (dat0 V c).Φ 0 = Phi0 V c 0 (Nat.zero_le _) from rfl, Phi0_zero V c 0 _ rfl]
  try exact Idealize.SL.BI.Entails.refl _
theorem hout0 (c : Dev nD) : (dat0 V c).Φ (Fin.last cfg0.N) ⊢ Pipeline.ΦA spec0 c := by
  rw [show (dat0 V c).Φ (Fin.last cfg0.N) = Phi0 V c (Fin.last cfg0.N).val (Nat.le_of_lt_succ (Fin.last cfg0.N).isLt) from rfl,
    Phi0_pos V c _ _ (by rw [Fin.val_last]; have : cfg0.N = 128 := N_0; omega), PhiA0_eq]
  iintro ⟨⟨HA, HB, Hrest⟩, Hg⟩
  isplitl [HA HB Hrest]
  · isplitl [HA]; · iexists _; iexact HA
    isplitl [HB]; · iexists _; iexact HB
    iexact Hrest
  iexact Hg

end Region0

end Cert.KernelIdeal.Hand

end
-- ==== Proof.KI.Body1.lean ====
/-
  One grid point of the nearest-neighbour kernel of the second call, as a Hoare triple in each of its three control cases.

  The grid is (query tile i, key tile j), j fastest.  Two scratch rows of 2048 entries live across the key tiles of one
  query tile: the running minimum and the squared norms of the query tile's rows.
  * j = 0: the running minimum is reset to +inf, the norms are computed and stored, then the point's own step runs;
  * 0 < j < 15: only the step: running minimum := min(running minimum, column minima of this key tile's distances);
  * j = 15: the step, then the running minimum is copied to the output block.
  Every load and store moves a whole buffer, so what each buffer holds afterwards is the named payload of the last store
  into it, with every loaded value the contents (or the payload stored just before) it reads.
-/
import proofs.«140751_j59055800320002_1_alg».proof.Proof.Gen.KernelIdeal.Launch
import proofs.«140751_j59055800320002_1_alg».proof.Proof.Gen.KernelIdeal.Skeleton
import proofs.«140751_j59055800320002_1_alg».proof.Proof.Gen.KernelIdeal.Points
import proofs.«140751_j59055800320002_1_alg».proof.Proof.LibWholeStore
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.WholeStore

variable {F : FTy → Type} [FloatOps F]

local notation "𝕄" => MT nD τ sig Unit (Elt F) ℕ (UR sig nD τ) ℕ

/-- The point is the first key tile of its query tile (the kernel's own scalar chain for `j == 0`). -/
abbrev isFirst1 (i : grid1.Coords) : Prop := (Scalar.cmpi .ne (Scalar.extui (Scalar.cmpi .eq (BitVec.ofNat 32 (i 1).val) 0#32)) 0#32) = 1#1
/-- The point is the last key tile of its query tile (`j == 15`). -/
abbrev isLast1 (i : grid1.Coords) : Prop := k1_cond2 i = 1#1

/-- Offset zero in a rank-2 shape. -/
theorem off00b : (![0, 0] : Fin 2 → Nat) = fun _ => 0 := by funext a; fin_cases a <;> rfl

set_option maxHeartbeats 1000000 in
/-- First key tile: both scratch rows hold anything on entry; afterwards the norms row holds the query tile's squared norms and
    the running minimum the step taken from +inf. The output block is not touched. -/
theorem run1_first (c : Dev nD) (E : Set ℕ) (i : grid1.Coords)
    (arg2 : Memref sig .tc .vmem S2048x128 .f32) (harg2 : arg2.IsWhole) (arg3 : Memref sig .tc .vmem S1024x128 .f32) (harg3 : arg3.IsWhole)
    (arg4 : Memref sig .tc .vmem S1x2048 .f32) (harg4 : arg4.IsWhole) (arg5 : Memref sig .tc .vmem S1x2048 .f32) (harg5 : arg5.IsWhole)
    (arg6 : Memref sig .tc .vmem S1x2048 .f32) (harg6 : arg6.IsWhole) (hc1 : isFirst1 i) (hc2 : ¬isLast1 i)
    (x0 : Vec F S2048x128 .f32) (x1 : Vec F S1024x128 .f32) (xi : Vec F S1x2048 .f32) (K : PUnit → sProp 𝕄) :
    iprop(owns (c : Thread nD τ) arg2 fullShare x0 ∗ owns (c : Thread nD τ) arg3 fullShare x1 ∗ owns (c : Thread nD τ) arg4 fullShare xi
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare xi
            ∗ owns (c : Thread nD τ) arg5 fullShare (k1_pay3 x1 x0 (k1_pay2 x0) k1_pay1) ∗ owns (c : Thread nD τ) arg6 fullShare (k1_pay2 x0)) -∗ K ⟨⟩))
      ⊢ wp frame (wpE (defs₀ (F := F)) Variants.none c none) E (cc1__min_dist_kernel i arg2 harg2 arg3 harg3 arg4 harg4 arg5 harg5 arg6 harg6) K := by
  simp only [cc1__min_dist_kernel_eq_skeleton]; unfold cc1__min_dist_kernel_skel
  unfold owns
  iintro ⟨⟨%f0, %hf0, H0⟩, ⟨%f1, %hf1, H1⟩, ⟨%f4, %hf4, H4⟩, ⟨%d5, %f5, -, H5⟩, ⟨%d6, %f6, -, H6⟩, Hk⟩
  obtain rfl := harg2.eq_unread hf0; obtain rfl := harg3.eq_unread hf1; obtain rfl := harg4.eq_unread hf4
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; · ipureintro; exact harg4.read_unread _
    iexact H4
  isplitl [H5]
  · iexists _; isplitr
    swap; · iexact H5
    ipureintro
    sl_unfold_words
    rw [read_writes_cons_whole _ _ off00b]
    simp only [View.readAt_eq_ld, harg2.read_unread, harg3.read_unread, View.ld_unit_zero (S := S2048x128) off00b,
      View.ld_unit_zero (S := S1024x128) off00b, View.readCov_unit_zero (S := S1x2048) _ off00b]
  · iexists _; isplitr
    swap; · iexact H6
    ipureintro
    sl_unfold_words
    rw [read_writes_cons_whole _ _ off00b]
    simp only [View.readAt_eq_ld, harg2.read_unread, View.ld_unit_zero (S := S2048x128) off00b]

set_option maxHeartbeats 1000000 in
/-- A middle key tile: the running minimum `acc` and the norms row `a2` come from the point before; the norms row is kept,
    the running minimum takes the step. The output block is not touched. -/
theorem run1_mid (c : Dev nD) (E : Set ℕ) (i : grid1.Coords)
    (arg2 : Memref sig .tc .vmem S2048x128 .f32) (harg2 : arg2.IsWhole) (arg3 : Memref sig .tc .vmem S1024x128 .f32) (harg3 : arg3.IsWhole)
    (arg4 : Memref sig .tc .vmem S1x2048 .f32) (harg4 : arg4.IsWhole) (arg5 : Memref sig .tc .vmem S1x2048 .f32) (harg5 : arg5.IsWhole)
    (arg6 : Memref sig .tc .vmem S1x2048 .f32) (harg6 : arg6.IsWhole) (hc1 : ¬isFirst1 i) (hc2 : ¬isLast1 i)
    (x0 : Vec F S2048x128 .f32) (x1 : Vec F S1024x128 .f32) (xi : Vec F S1x2048 .f32) (acc a2 : Vec F S1x2048 .f32) (K : PUnit → sProp 𝕄) :
    iprop(owns (c : Thread nD τ) arg2 fullShare x0 ∗ owns (c : Thread nD τ) arg3 fullShare x1 ∗ owns (c : Thread nD τ) arg4 fullShare xi
        ∗ owns (c : Thread nD τ) arg5 fullShare acc ∗ owns (c : Thread nD τ) arg6 fullShare a2
        ∗ (iprop(owns (c : Thread nD τ) arg2 fullShare x0 ∗ owns (c : Thread nD τ) arg3 fullShare x1 ∗ owns (c : Thread nD τ) arg4 fullShare xi
            ∗ owns (c : Thread nD τ) arg5 fullShare (k1_pay3 x1 x0 a2 acc) ∗ owns (c : Thread nD τ) arg6 fullShare a2) -∗ K ⟨⟩))
      ⊢ wp frame (wpE (defs₀ (F := F)) Variants.none c none) E (cc1__min_dist_kernel i arg2 harg2 arg3 harg3 arg4 harg4 arg5 harg5 arg6 harg6) K := by
  simp only [cc1__min_dist_kernel_eq_skeleton]; unfold cc1__min_dist_kernel_skel
  unfold owns
  iintro ⟨⟨%f0, %hf0, H0⟩, ⟨%f1, %hf1, H1⟩, ⟨%f4, %hf4, H4⟩, ⟨%f5, %hf5, H5⟩, ⟨%f6, %hf6, H6⟩, Hk⟩
  obtain rfl := harg2.eq_unread hf0; obtain rfl := harg3.eq_unread hf1; obtain rfl := harg4.eq_unread hf4
  obtain rfl := harg5.eq_unread hf5; obtain rfl := harg6.eq_unread hf6
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; · ipureintro; exact harg4.read_unread _
    iexact H4
  isplitl [H5]
  · iexists _; isplitr
    swap; · iexact H5
    ipureintro
    sl_unfold_words
    rw [read_writes_cons_whole _ _ off00b]
    simp only [View.readAt_eq_ld, harg2.read_unread, harg3.read_unread, harg5.read_unread, harg6.read_unread,
      View.ld_unit_zero (S := S2048x128) off00b, View.ld_unit_zero (S := S1024x128) off00b, View.ld_unit_zero (S := S1x2048) off00b]
  · iexists _; isplitr; · ipureintro; exact harg6.read_unread _
    iexact H6

set_option maxHeartbeats 1000000 in
/-- Last key tile: as a middle one, and the new running minimum is also what the output block holds afterwards. -/
theorem run1_last (c : Dev nD) (E : Set ℕ) (i : grid1.Coords)
    (arg2 : Memref sig .tc .vmem S2048x128 .f32) (harg2 : arg2.IsWhole) (arg3 : Memref sig .tc .vmem S1024x128 .f32) (harg3 : arg3.IsWhole)
    (arg4 : Memref sig .tc .vmem S1x2048 .f32) (harg4 : arg4.IsWhole) (arg5 : Memref sig .tc .vmem S1x2048 .f32) (harg5 : arg5.IsWhole)
    (arg6 : Memref sig .tc .vmem S1x2048 .f32) (harg6 : arg6.IsWhole) (hc1 : ¬isFirst1 i) (hc2 : isLast1 i)
    (x0 : Vec F S2048x128 .f32) (x1 : Vec F S1024x128 .f32) (acc a2 : Vec F S1x2048 .f32) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare acc ∗ owns (c : Thread nD τ) arg6 fullShare a2
        ∗ (iprop(owns (c : Thread nD τ) arg2 fullShare x0 ∗ owns (c : Thread nD τ) arg3 fullShare x1 ∗ owns (c : Thread nD τ) arg4 fullShare (k1_pay3 x1 x0 a2 acc)
            ∗ owns (c : Thread nD τ) arg5 fullShare (k1_pay3 x1 x0 a2 acc) ∗ owns (c : Thread nD τ) arg6 fullShare a2) -∗ K ⟨⟩))
      ⊢ wp frame (wpE (defs₀ (F := F)) Variants.none c none) E (cc1__min_dist_kernel i arg2 harg2 arg3 harg3 arg4 harg4 arg5 harg5 arg6 harg6) K := by
  simp only [cc1__min_dist_kernel_eq_skeleton]; unfold cc1__min_dist_kernel_skel
  unfold owns
  iintro ⟨⟨%f0, %hf0, H0⟩, ⟨%f1, %hf1, H1⟩, ⟨%d4, %f4, -, H4⟩, ⟨%f5, %hf5, H5⟩, ⟨%f6, %hf6, H6⟩, Hk⟩
  obtain rfl := harg2.eq_unread hf0; obtain rfl := harg3.eq_unread hf1
  obtain rfl := harg5.eq_unread hf5; obtain rfl := harg6.eq_unread hf6
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr
    swap; · iexact H4
    ipureintro
    sl_unfold_words
    rw [read_writes_cons_whole _ _ off00b]
    simp only [View.readAt_eq_ld, harg2.read_unread, harg3.read_unread, harg5.read_unread, harg6.read_unread,
      View.ld_unit_zero (S := S2048x128) off00b, View.ld_unit_zero (S := S1024x128) off00b, View.ld_unit_zero (S := S1x2048) off00b,
      View.readCov_unit_zero (S := S1x2048) _ off00b]
  isplitl [H5]
  · iexists _; isplitr
    swap; · iexact H5
    ipureintro
    sl_unfold_words
    rw [read_writes_cons_whole _ _ off00b]
    simp only [View.readAt_eq_ld, harg2.read_unread, harg3.read_unread, harg5.read_unread, harg6.read_unread,
      View.ld_unit_zero (S := S2048x128) off00b, View.ld_unit_zero (S := S1024x128) off00b, View.ld_unit_zero (S := S1x2048) off00b]
  · iexists _; isplitr; · ipureintro; exact harg6.read_unread _
    iexact H6

end Cert.KernelIdeal.Hand

end
-- ==== Proof.KI.Inv1.lean ====
/-
  The second call's two scratch rows among the core's scoped buffers: the class invariant, which holds every scoped buffer that
  is no staging buffer of this call at some contents, splits into the two rows (as memrefs owned at some contents), the
  remaining buffers (the first call's staging buffers and scratch rows), and the generator register.  The two rows come last in
  the enumeration of the scoped buffers, so the split is a rearrangement of a separating conjunction, proved in both directions.
-/
import proofs.«140751_j59055800320002_1_alg».proof.Proof.KI.Body1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.WholeStore

variable {F : FTy → Type} [FloatOps F]

local notation "𝕄" => MT nD τ sig Unit (Elt F) ℕ (UR sig nD τ) ℕ

/-- The two scratch rows as memrefs. -/
abbrev scMin1 : Memref sig .tc .vmem S1x2048 .f32 := Memref.whole cc1_scratch0
abbrev scNrm1 : Memref sig .tc .vmem S1x2048 .f32 := Memref.whole cc1_scratch1

/-- The core's other scoped buffers (the first call's staging buffers and scratch rows), each whole at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))

/-- The scoped buffers, with the two rows pulled to the front. -/
theorem scoped1_split (c : Dev nD) : (Pipeline.scopedRest (Ix := Unit) (Name := ℕ) (U := UR sig nD τ) (Lvl := ℕ) (Val := Elt F) spec1 c : sProp 𝕄) ⊢ iprop((∃ d, owns (c : Thread nD τ) scMin1 fullShare d) ∗ (∃ d, owns (c : Thread nD τ) scNrm1 fullShare d) ∗ rest1 c) := by
  rw [scopedRest1_eq]; unfold rest1; simp only [scMin1, scNrm1, owns_whole]
  iintro ⟨H1, H2, H3, H4, H5, H6, H7, H8, HA, HB⟩
  isplitl [HA]; · iexact HA
  isplitl [HB]; · iexact HB
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- And put back in their place. -/
theorem scoped1_join (c : Dev nD) : iprop((∃ d, owns (c : Thread nD τ) scMin1 fullShare d) ∗ (∃ d, owns (c : Thread nD τ) scNrm1 fullShare d) ∗ rest1 c) ⊢ (Pipeline.scopedRest (Ix := Unit) (Name := ℕ) (U := UR sig nD τ) (Lvl := ℕ) (Val := Elt F) spec1 c : sProp 𝕄) := by
  rw [scopedRest1_eq]; unfold rest1; simp only [scMin1, scNrm1, owns_whole]
  iintro ⟨HA, HB, H1, H2, H3, H4, H5, H6, H7, H8⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HA]; · iexact HA
  iexact HB

/-- The class invariant with this call's two scratch rows as memrefs owned at some contents. -/
theorem PhiA1_eq (c : Dev nD) :
    (Pipeline.ΦA spec1 c : sProp 𝕄)
      = iprop(((∃ d, owns (c : Thread nD τ) scMin1 fullShare d) ∗ (∃ d, owns (c : Thread nD τ) scNrm1 fullShare d) ∗ rest1 c) ∗ (∃ r, prngReg c r)) := by
  unfold Pipeline.ΦA
  rw [show (Pipeline.scopedRest (Ix := Unit) (Name := ℕ) (U := UR sig nD τ) (Lvl := ℕ) (Val := Elt F) spec1 c : sProp 𝕄) = iprop((∃ d, owns (c : Thread nD τ) scMin1 fullShare d) ∗ (∃ d, owns (c : Thread nD τ) scNrm1 fullShare d) ∗ rest1 c) from BI.equiv_iff.mp ⟨scoped1_split c, scoped1_join c⟩]

end Cert.KernelIdeal.Hand

end
-- ==== Proof.KI.Dat1.lean ====
/-
  The second call, over all its 128 grid points: what the two scratch rows hold after each point, the invariant that carries
  them from point to point, the pipeline's proof data, and the body obligation at every point.

  The points run t = 16 i + j (query tile i, key tile j).  After point t the pair (running minimum, norms row) is
  * at j = 0: (step from +inf with the fresh norms, the fresh norms of query tile i),
  * at j > 0: (step from the pair after t - 1, the norms row unchanged).
  The output block is written only at j = 15, with the running minimum; at the other points its window is idle.
-/
import proofs.«140751_j59055800320002_1_alg».proof.Proof.KI.Inv1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.WholeStore

variable {F : FTy → Type} [FloatOps F]

local notation "𝕄" => MT nD τ sig Unit (Elt F) ℕ (UR sig nD τ) ℕ

section Region1
-- the buffers' contents when the call is entered
variable (V : (c : Dev nD) → (b : Ref sig .tc) → Buf (Elt F) ((c : Thread nD τ).loc b))

/-! ## The windows' blocks -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query tile and the key tile of point `t`, at their literal shapes. -/
abbrev qblk1 (c : Dev nD) (t : Fin cfg1.N) : Vec F S2048x128 .f32 := iblk1 V c 0 t
abbrev kblk1 (c : Dev nD) (t : Fin cfg1.N) : Vec F S1024x128 .f32 := iblk1 V c 1 t

/-- An input window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## Which points are first and last of their query tile, and where the output window is idle -/

theorem hfirst1 : ∀ t : Fin cfg1.N, isFirst1 (grid1.coords t) ↔ t.val % 16 = 0 :=
  (by decide +kernel : ∀ t : Fin grid1.N, isFirst1 (grid1.coords t) ↔ t.val % 16 = 0)
theorem hlast1 : ∀ t : Fin cfg1.N, isLast1 (grid1.coords t) ↔ t.val % 16 = 15 :=
  (by decide +kernel : ∀ t : Fin grid1.N, isLast1 (grid1.coords t) ↔ t.val % 16 = 15)
theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬isLast1 (grid1.coords t) → cfg1.idle 2 (grid1.coords t) = true := by decide +kernel
theorem noFlush1_2 : ∀ t : Fin cfg1.N, ¬isLast1 (grid1.coords t) → (cfg1.win 2).flush t = false := by decide +kernel
theorem liveAt1_2 : ∀ t : Fin cfg1.N, isLast1 (grid1.coords t) → cfg1.idle 2 (grid1.coords t) = false := by decide +kernel

/-! ## The two scratch rows after each point -/

/-- (running minimum, norms row) after the body at position `n`. -/
def carry1 (c : Dev nD) : (n : ℕ) → n < cfg1.N → Vec F S1x2048 .f32 × Vec F S1x2048 .f32
  | 0, hn => (k1_pay3 (kblk1 V c ⟨0, hn⟩) (qblk1 V c ⟨0, hn⟩) (k1_pay2 (qblk1 V c ⟨0, hn⟩)) k1_pay1, k1_pay2 (qblk1 V c ⟨0, hn⟩))
  | n + 1, hn =>
    if (n + 1) % 16 = 0 then
      (k1_pay3 (kblk1 V c ⟨n + 1, hn⟩) (qblk1 V c ⟨n + 1, hn⟩) (k1_pay2 (qblk1 V c ⟨n + 1, hn⟩)) k1_pay1, k1_pay2 (qblk1 V c ⟨n + 1, hn⟩))
    else
      (k1_pay3 (kblk1 V c ⟨n + 1, hn⟩) (qblk1 V c ⟨n + 1, hn⟩) (carry1 c n (Nat.lt_of_succ_lt hn)).2 (carry1 c n (Nat.lt_of_succ_lt hn)).1,
        (carry1 c n (Nat.lt_of_succ_lt hn)).2)

/-- At the first key tile of a query tile: fresh norms, the step taken from +inf. -/
theorem carry1_first (c : Dev nD) (t : Fin cfg1.N) (h : t.val % 16 = 0) :
    carry1 V c t.val t.isLt = (k1_pay3 (kblk1 V c t) (qblk1 V c t) (k1_pay2 (qblk1 V c t)) k1_pay1, k1_pay2 (qblk1 V c t)) := by
  obtain ⟨n, hn⟩ := t
  cases n with
  | zero => rfl
  | succ n => exact (if_pos h).trans rfl

/-- At a later key tile: the step from what the point before left, the norms row kept. -/
theorem carry1_next (c : Dev nD) (t : Fin cfg1.N) (h : ¬t.val % 16 = 0) :
    carry1 V c t.val t.isLt = (k1_pay3 (kblk1 V c t) (qblk1 V c t) (carry1 V c (t.val - 1) (Nat.lt_of_le_of_lt (Nat.sub_le _ _) t.isLt)).2
        (carry1 V c (t.val - 1) (Nat.lt_of_le_of_lt (Nat.sub_le _ _) t.isLt)).1,
      (carry1 V c (t.val - 1) (Nat.lt_of_le_of_lt (Nat.sub_le _ _) t.isLt)).2) := by
  obtain ⟨n, hn⟩ := t
  cases n with
  | zero => exact absurd (Nat.zero_mod _) h
  | succ n => exact (if_neg h).trans rfl

/-! ## The invariant between points -/

/-- Before position `n`: at the call's entry anything in the scratch rows; afterwards what the point before left. -/
def Phi1 (c : Dev nD) : (n : ℕ) → n ≤ cfg1.N → sProp 𝕄
  | 0, _ => Pipeline.ΦA spec1 c
  | n + 1, hn => iprop((owns (c : Thread nD τ) scMin1 fullShare (carry1 V c n hn).1 ∗ owns (c : Thread nD τ) scNrm1 fullShare (carry1 V c n hn).2 ∗ rest1 c) ∗ (∃ r, prngReg c r))

theorem Phi1_zero (c : Dev nD) (n : ℕ) (h : n ≤ cfg1.N) (hz : n = 0) : Phi1 V c n h = Pipeline.ΦA spec1 c := by
  subst hz; rfl
theorem Phi1_succ (c : Dev nD) (n : ℕ) (hn : n < cfg1.N) :
    Phi1 V c (n + 1) hn = iprop((owns (c : Thread nD τ) scMin1 fullShare (carry1 V c n hn).1 ∗ owns (c : Thread nD τ) scNrm1 fullShare (carry1 V c n hn).2 ∗ rest1 c) ∗ (∃ r, prngReg c r)) := rfl
theorem Phi1_pos (c : Dev nD) (n : ℕ) (h : n ≤ cfg1.N) (hz : n ≠ 0) :
    Phi1 V c n h = iprop((owns (c : Thread nD τ) scMin1 fullShare (carry1 V c (n - 1) (by omega)).1 ∗ owns (c : Thread nD τ) scNrm1 fullShare (carry1 V c (n - 1) (by omega)).2 ∗ rest1 c) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (carry1 V c t.val t.isLt).1
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem Phi1_castSucc (c : Dev nD) (t : Fin cfg1.N) :
    (dat1 V c).Φ t.castSucc = Phi1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (carry1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: which of the three cases it is follows from t mod 16; the invariant hands the body the scratch rows
    at what the point before left (anything at the call's first point) and takes them back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  have hN : t.val < 128 := lt_of_lt_of_eq t.isLt (show cfg1.N = 128 from N_1)
  by_cases h0 : t.val % 16 = 0
  · have hF : isFirst1 (grid1.coords t) := (hfirst1 t).mpr h0
    have hL : ¬isLast1 (grid1.coords t) := fun h => by have := (hlast1 t).mp h; omega
    rw [Dat.leavesExact_idle (dat1 V c) 2 t (idleAt1_2 t hL) (noFlush1_2 t hL)]
    rw [carry1_first V c t h0]
    dsimp only
    by_cases hz : t.val = 0
    · rw [Phi1_castSucc V c t, Phi1_zero V c _ _ hz, PhiA1_eq]
      iintro ⟨⟨⟨HA, HB, Hrest⟩, Hg⟩, Ho, ⟨%d0, H0⟩, ⟨%d1, H1⟩, ⟨%d2, H2⟩⟩
      iapply (run1_first c Set.univ (grid1.coords t) _ _ _ _ _ _ _ _ _ _ hF hL (qblk1 V c t) (kblk1 V c t) _ _)
      isplitl [H0]; · iexact H0
      isplitl [H1]; · iexact H1
      isplitl [H2]; · iexact H2
      isplitl [HA]; · iexact HA
      isplitl [HB]; · iexact HB
      iintro ⟨H0, H1, H2, HA, HB⟩
      isplitl [HA HB Hrest Hg]
      · isplitl [HA HB Hrest]
        · isplitl [HA]; · iexact HA
          isplitl [HB]; · iexact HB
          iexact Hrest
        iexact Hg
      isplitl [Ho]; · iexact Ho
      isplitl [H0]; · iexact H0
      isplitl [H1]; · iexact H1
      iexists _; iexact H2
    · rw [Phi1_castSucc V c t, Phi1_pos V c _ _ hz]
      iintro ⟨⟨⟨HA, HB, Hrest⟩, Hg⟩, Ho, ⟨%d0, H0⟩, ⟨%d1, H1⟩, ⟨%d2, H2⟩⟩
      iapply (run1_first c Set.univ (grid1.coords t) _ _ _ _ _ _ _ _ _ _ hF hL (qblk1 V c t) (kblk1 V c t) _ _)
      isplitl [H0]; · iexact H0
      isplitl [H1]; · iexact H1
      isplitl [H2]; · iexact H2
      isplitl [HA]; · iexists _; iexact HA
      isplitl [HB]; · iexists _; iexact HB
      iintro ⟨H0, H1, H2, HA, HB⟩
      isplitl [HA HB Hrest Hg]
      · isplitl [HA HB Hrest]
        · isplitl [HA]; · iexact HA
          isplitl [HB]; · iexact HB
          iexact Hrest
        iexact Hg
      isplitl [Ho]; · iexact Ho
      isplitl [H0]; · iexact H0
      isplitl [H1]; · iexact H1
      iexists _; iexact H2
  · have hF : ¬isFirst1 (grid1.coords t) := fun h => h0 ((hfirst1 t).mp h)
    have hz : t.val ≠ 0 := fun h => h0 (by rw [h])
    rw [carry1_next V c t h0]
    dsimp only
    rw [Phi1_castSucc V c t, Phi1_pos V c _ _ hz]
    by_cases h1 : t.val % 16 = 15
    · have hL : isLast1 (grid1.coords t) := (hlast1 t).mpr h1
      rw [show (dat1 V c).leavesExact 2 t = owns (c : Thread nD τ) (st1_2 t) fullShare ((dat1 V c).after 2 t) from by
        unfold Dat.leavesExact; rw [liveAt1_2 t hL], after1_2, carry1_next V c t h0]
      iintro ⟨⟨⟨HA, HB, Hrest⟩, Hg⟩, Ho, ⟨%d0, H0⟩, ⟨%d1, H1⟩, ⟨%d2, H2⟩⟩
      iapply (run1_last c Set.univ (grid1.coords t) _ _ _ _ _ _ _ _ _ _ hF hL (qblk1 V c t) (kblk1 V c t) _ _ _)
      isplitl [H0]; · iexact H0
      isplitl [H1]; · iexact H1
      isplitl [H2]; · iexists _; iexact H2
      isplitl [HA]; · iexact HA
      isplitl [HB]; · iexact HB
      iintro ⟨H0, H1, H2, HA, HB⟩
      isplitl [HA HB Hrest Hg]
      · isplitl [HA HB Hrest]
        · isplitl [HA]; · iexact HA
          isplitl [HB]; · iexact HB
          iexact Hrest
        iexact Hg
      isplitl [Ho]; · iexact Ho
      isplitl [H0]; · iexact H0
      isplitl [H1]; · iexact H1
      iexact H2
    · have hL : ¬isLast1 (grid1.coords t) := fun h => h1 ((hlast1 t).mp h)
      rw [Dat.leavesExact_idle (dat1 V c) 2 t (idleAt1_2 t hL) (noFlush1_2 t hL)]
      iintro ⟨⟨⟨HA, HB, Hrest⟩, Hg⟩, Ho, ⟨%d0, H0⟩, ⟨%d1, H1⟩, ⟨%d2, H2⟩⟩
      iapply (run1_mid c Set.univ (grid1.coords t) _ _ _ _ _ _ _ _ _ _ hF hL (qblk1 V c t) (kblk1 V c t) _ _ _ _)
      isplitl [H0]; · iexact H0
      isplitl [H1]; · iexact H1
      isplitl [H2]; · iexact H2
      isplitl [HA]; · iexact HA
      isplitl [HB]; · iexact HB
      iintro ⟨H0, H1, H2, HA, HB⟩
      isplitl [HA HB Hrest Hg]
      · isplitl [HA HB Hrest]
        · isplitl [HA]; · iexact HA
          isplitl [HB]; · iexact HB
          iexact Hrest
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the call is handed at its entry is the invariant before the first point; after the last point the scratch rows'
    contents are forgotten again. -/
theorem hin1 (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _
theorem hout1 (c : Dev nD) : (dat1 V c).Φ (Fin.last cfg1.N) ⊢ Pipeline.ΦA spec1 c := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 128 := N_1; omega), PhiA1_eq]
  iintro ⟨⟨HA, HB, Hrest⟩, Hg⟩
  isplitl [HA HB Hrest]
  · isplitl [HA]; · iexists _; iexact HA
    isplitl [HB]; · iexists _; iexact HB
    iexact Hrest
  iexact Hg

end Region1

end Cert.KernelIdeal.Hand

end
-- ==== Proof.KI.Regs.lean ====
/-
  The two calls as segments of @main.

  Between two items of @main every unscoped buffer of a core is held whole at a named valuation: at launch the memory; after
  the two host reshapes `W1`; after the first call `W2` = `W1` with the first call's output array replaced by what the call
  leaves there; after the second call `W3` = `W2` with the second call's output array replaced likewise.  Each call's proof data
  are stated at the valuation it is entered from.  Beside the buffers rides the generator register at some state and the core
  owing nothing.
-/
import proofs.«140751_j59055800320002_1_alg».proof.Proof.KI.Dat0
import proofs.«140751_j59055800320002_1_alg».proof.Proof.KI.Dat1
import proofs.«140751_j59055800320002_1_alg».proof.Proof.Gen.KernelIdeal.Regions
import Idealize.ShloMosaic.Lib.Pipeline.RegionsLoop

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen Cert.WholeStore

variable {F : FTy → Type} [FloatOps F]

local notation "𝕄" => MT nD τ sig Unit (Elt F) ℕ (UR sig nD τ) ℕ

variable (m : (ℓ : Loc nD τ sig) → Buf (Elt F) ℓ)

/-! ## The buffers' contents between the items -/

/-- After the two host reshapes (the first call's entry). -/
abbrev W1 (c : Dev nD) : Valuation τ sig (Elt F) := Gen.V1 m c
/-- The same read at the TensorCore's references. -/
abbrev E1 (c : Dev nD) (b : Ref sig .tc) : Buf (Elt F) ((c : Thread nD τ).loc b) := W1 m c b
/-- What the first call leaves in its output array. -/
def o2 (c : Dev nD) : Buf (Elt F) ((c : Thread nD τ).loc main_v2) := (dat0 (E1 m) c).arrAt 2 cfg0.N
/-- After the first call (the second call's entry). -/
def W2 (c : Dev nD) : Valuation τ sig (Elt F) := Function.update (W1 m c) main_v2 (o2 m c)
abbrev E2 (c : Dev nD) (b : Ref sig .tc) : Buf (Elt F) ((c : Thread nD τ).loc b) := W2 m c b
/-- What the second call leaves in its output array. -/
def o3 (c : Dev nD) : Buf (Elt F) ((c : Thread nD τ).loc main_v3) := (dat1 (E2 m) c).arrAt 2 cfg1.N
/-- After the second call. -/
def W3 (c : Dev nD) : Valuation τ sig (Elt F) := Function.update (W2 m c) main_v3 (o3 m c)

/-- What the calls leave, as the conditional run's unknowns: read off the last of these valuations. -/
def outsH : Gen.Outs (F := F) := fun _ r c => W3 m c r

theorem W3_v2 (c : Dev nD) : W3 m c main_v2 = o2 m c := by
  unfold W3 W2
  rw [Function.update_of_ne (StableHlo.devRef_ne_of_ne (by decide) : (Proc.devRef .tc main_v2 : DevRef τ sig) ≠ Proc.devRef .tc main_v3)]
  exact Function.update_self (Proc.devRef .tc main_v2 : DevRef τ sig) (o2 m c) (W1 m c)
theorem W3_v3 (c : Dev nD) : W3 m c main_v3 = o3 m c := by
  unfold W3; exact Function.update_self (Proc.devRef .tc main_v3 : DevRef τ sig) (o3 m c) (W2 m c)

/-- The conditional run's valuations are these. -/
theorem V2_eq (c : Dev nD) : Gen.V2 m (outsH m) c = W2 m c := by
  show Function.update (Gen.V1 m c) main_v2 (W3 m c main_v2) = _
  rw [W3_v2]; rfl
theorem V3_eq (c : Dev nD) : Gen.V3 m (outsH m) c = W3 m c := by
  show Function.update (Gen.V2 m (outsH m) c) main_v3 (W3 m c main_v3) = _
  rw [W3_v3, V2_eq]; rfl

/-! ## The proof data family and what rides beside the buffers -/

def pdatsH : (p : Fin 2) → (c : Dev nD) → Dat τ (Elt F) Unit ℕ (UR sig nD τ) ℕ (cfgs p) c
  | ⟨0, _⟩ => fun c => dat0 (E1 m) c
  | ⟨1, _⟩ => fun c => dat1 (E2 m) c

/-- No core owes another anything: no level is assigned. -/
abbrev LH : GSem nD τ sig → Finset Unit := fun _ => ∅
abbrev lvH : GSem nD τ sig → Unit → ℕ := fun _ _ => 0
/-- The generator register at some state, and the core owing nothing. -/
abbrev RH (c : Dev nD) : sProp 𝕄 := iprop((∃ r, prngReg c r) ∗ ∃ W, owes (c : Thread nD τ) (0 : CellTallies nD τ sig Unit) W)

/-! ## Each call's arrays at its exit -/

theorem hF0 (c : Dev nD) (w : Fin cfg0.W) : (pdatsH m 0 c).arrAt w cfg0.N = W2 m c (Pipeline.arrRef spec0 w) := by
  match w with
  | ⟨0, _⟩ =>
    refine ((dat0 (E1 m) c).arrAt_in 0 rfl _).trans ((A_eq0 (E1 m) c 0).trans ?_)
    unfold W2
    exact (Function.update_of_ne (StableHlo.devRef_ne_of_ne (by decide) : (Proc.devRef .tc main_v0 : DevRef τ sig) ≠ Proc.devRef .tc main_v2) _ _).symm
  | ⟨1, _⟩ =>
    refine ((dat0 (E1 m) c).arrAt_in 1 rfl _).trans ((A_eq0 (E1 m) c 1).trans ?_)
    unfold W2
    exact (Function.update_of_ne (StableHlo.devRef_ne_of_ne (by decide) : (Proc.devRef .tc main_v1 : DevRef τ sig) ≠ Proc.devRef .tc main_v2) _ _).symm
  | ⟨2, _⟩ =>
    unfold W2; exact (Function.update_self (Proc.devRef .tc main_v2 : DevRef τ sig) (o2 m c) (W1 m c)).symm
theorem hrest0 (c : Dev nD) : ∀ b : Ref sig .tc, b ∉ Finset.univ.image (Pipeline.arrRef spec0) → W2 m c b = W1 m c b := by
  intro b hb
  unfold W2
  exact Function.update_of_ne (StableHlo.devRef_ne_of_ne (fun e => hb (Finset.mem_image.mpr ⟨2, Finset.mem_univ _, e.symm⟩)) : (Proc.devRef .tc b : DevRef τ sig) ≠ Proc.devRef .tc main_v2) _ _

theorem hF1 (c : Dev nD) (w : Fin cfg1.W) : (pdatsH m 1 c).arrAt w cfg1.N = W3 m c (Pipeline.arrRef spec1 w) := by
  match w with
  | ⟨0, _⟩ =>
    refine ((dat1 (E2 m) c).arrAt_in 0 rfl _).trans ((A_eq1 (E2 m) c 0).trans ?_)
    unfold W3
    exact (Function.update_of_ne (StableHlo.devRef_ne_of_ne (by decide) : (Proc.devRef .tc main_v1 : DevRef τ sig) ≠ Proc.devRef .tc main_v3) _ _).symm
  | ⟨1, _⟩ =>
    refine ((dat1 (E2 m) c).arrAt_in 1 rfl _).trans ((A_eq1 (E2 m) c 1).trans ?_)
    unfold W3
    exact (Function.update_of_ne (StableHlo.devRef_ne_of_ne (by decide) : (Proc.devRef .tc main_v0 : DevRef τ sig) ≠ Proc.devRef .tc main_v3) _ _).symm
  | ⟨2, _⟩ =>
    unfold W3; exact (Function.update_self (Proc.devRef .tc main_v3 : DevRef τ sig) (o3 m c) (W2 m c)).symm
theorem hrest1 (c : Dev nD) : ∀ b : Ref sig .tc, b ∉ Finset.univ.image (Pipeline.arrRef spec1) → W3 m c b = W2 m c b := by
  intro b hb
  unfold W3
  exact Function.update_of_ne (StableHlo.devRef_ne_of_ne (fun e => hb (Finset.mem_image.mpr ⟨2, Finset.mem_univ _, e.symm⟩)) : (Proc.devRef .tc b : DevRef τ sig) ≠ Proc.devRef .tc main_v3) _ _

/-! ## The calls as segments -/

-- a library lemma stated over `pin pcs a p` unifies with the pinned configuration only when unification may unfold plain
-- definitions in a metavariable's type
set_option backward.isDefEq.respectTransparency.types false in
/-- Call 0 as a segment of @main: entered from every unscoped buffer at `W1`, left at `W2`. Its arrays are split out of
    the unscoped buffers and put back at their final contents; the generator register goes into the invariant and comes back;
    nothing is owed; the kernel has no semaphore of its own. -/
def reg0 : Pipeline.RegionSeg (pcfgs (F := F)) Gen.adm (pdatsH m) () defs₀ Variants.none LH lvH 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ LH lvH 0 fun _ _ => rfl
  pre c := iprop(StableHlo.held (c : Thread nD τ) (Pipeline.ucRefs τ sig) (W1 m c) ∗ RH c)
  post c := iprop(StableHlo.held (c : Thread nD τ) (Pipeline.ucRefs τ sig) (W2 m c) ∗ RH c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) Gen.adm (pdatsH m) launch0.win launch0.arr_whole c
      ((pdatsH m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (E1 m) c)
    unfold Pipeline.ΦA
    iintro ⟨Hp, -, Hr⟩
    isplitl [Hr]; · iexact Hr
    iexact Hp
  hout c := by
    rw [Pipeline.ownSems0_none]
    refine BIBase.Entails.trans (hout0 (E1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdatsH m) ((pdatsH m 0 c).share_full fun _ => rfl)
      (E1 m c) (fun b => W2 m c b) ((pdatsH m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold plain
-- definitions in a metavariable's type
set_option backward.isDefEq.respectTransparency.types false in
/-- Call 1 as a segment of @main: entered from every unscoped buffer at `W2`, left at `W3`. Its arrays are split out of
    the unscoped buffers and put back at their final contents; the generator register goes into the invariant and comes back;
    nothing is owed; the kernel has no semaphore of its own. -/
def reg1 : Pipeline.RegionSeg (pcfgs (F := F)) Gen.adm (pdatsH m) () defs₀ Variants.none LH lvH 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ LH lvH 1 fun _ _ => rfl
  pre c := iprop(StableHlo.held (c : Thread nD τ) (Pipeline.ucRefs τ sig) (W2 m c) ∗ RH c)
  post c := iprop(StableHlo.held (c : Thread nD τ) (Pipeline.ucRefs τ sig) (W3 m c) ∗ RH c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) Gen.adm (pdatsH m) launch1.win launch1.arr_whole c
      ((pdatsH m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (E2 m) c)
    unfold Pipeline.ΦA
    iintro ⟨Hp, -, Hr⟩
    isplitl [Hr]; · iexact Hr
    iexact Hp
  hout c := by
    rw [Pipeline.ownSems0_none]
    refine BIBase.Entails.trans (hout1 (E2 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdatsH m) ((pdatsH m 1 c).share_full fun _ => rfl)
      (E2 m c) (fun b => W3 m c b) ((pdatsH m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Frames.lean ====
/-
  The program's run and its frame claim, at any float instance.

  The conditional run of the two-region program is instantiated with the two calls' segment records: every weakly fair execution
  of @main from any memory with zero counters terminates, and the final memory holds every unscoped buffer at the last valuation
  (the launch memory, then the host reshapes, then each call's output array at what the call leaves, then the closing host
  operations).  No item writes an argument array, so the arguments end as launched: the frame claim.
-/
import proofs.«140751_j59055800320002_1_alg».proof.Proof.KI.Regs
import proofs.«140751_j59055800320002_1_alg».proof.Proof.KI.RunCond

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen Cert.WholeStore

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every unscoped buffer ends at the last valuation. -/
theorem runH : θ_run defs (onTc (τ := τ) (main (F := F))) ⟨m, fun _ => 0, ρ⟩ (fun r => ∀ c : Dev nD,
      ∀ b ∈ Pipeline.ucRefs τ sig, r.2.mem ((c : Thread nD τ).1, b) = Gen.V4 m (outsH m) c b) :=
  Gen.run_cond m emb₁ () Variants.none LH lvH (fun _ _ => rfl) ρ (outsH m) (pdatsH m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => RH c)
    (by
      refine Pipeline.initEach LH lvH fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun c => .rfl) (fun c => by rw [V2_eq]; exact .rfl)
    (reg1 m) (fun c => by rw [V2_eq]; exact .rfl) (fun c => by rw [V3_eq]; exact .rfl)

/-- The frame claim: the two argument arrays end as launched. -/
theorem frameH : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c (Proc.devRef .tc main_arg0) (Finset.mem_filter.mpr ⟨StableHlo.devRef_mem_tcRefs main_arg0, by decide⟩)).trans (Gen.V4_main_arg0 m (outsH m) c),
      (h c (Proc.devRef .tc main_arg1) (Finset.mem_filter.mpr ⟨StableHlo.devRef_mem_tcRefs main_arg1, by decide⟩)).trans (Gen.V4_main_arg1 m (outsH m) c)⟩)
    (runH m ρ)

end Cert.KernelIdeal.Hand

end
-- ==== Proof.KI.Entry.lean ====
/-
  The host operations around the two calls, read as values.

  * Before the calls the two point clouds [1, 16384, 128] are reshaped to [16384, 128]: row r, column d of the reshaped array is
    entry (0, r, d) of the cloud.
  * The first call changes only its own output array, so the second call finds the two reshaped arrays as the first did.
  * After the calls the result is the sum of the two output rows' means: one function `tail` of the two rows (a sum over the
    row from the zero word, divided by 16384, the two quotients added), never opened: the reference ends with the same operations.
-/
import proofs.«140751_j59055800320002_1_alg».proof.Proof.KI.Regs
import Idealize.ShloMosaic.Lib.StableHlo.Run
import Idealize.ShloMosaic.Lib.ValueIdx
import Idealize.ShloMosaic.Lib.Pipeline.Value
import Idealize.ShloMosaic.Lib.ValueLayout

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.WholeStore
open Idealize.ShloMosaic.ValueIdx Idealize.ShloMosaic.StableHlo

variable {F : FTy → Type} [FloatOps F]

local notation "𝕄" => MT nD τ sig Unit (Elt F) ℕ (UR sig nD τ) ℕ

variable (m : (ℓ : Loc nD τ sig) → Buf (Elt F) ℓ)

/-- The closing host operations as one function of the two calls' output rows. -/
def tail (a b : Vec F S1x16384 .f32) : Vec F S_ .f32 :=
  addf
    (Host.divf (Host.reduceAdd a (constant (F := F) S_ .f32 0x00000000#32) reducesTo_S1x16384_S_d0_1 h_S_) (constant (F := F) S_ .f32 0x46800000#32))
    (Host.divf (Host.reduceAdd b (constant (F := F) S_ .f32 0x00000000#32) reducesTo_S1x16384_S_d0_1 h_S_) (constant (F := F) S_ .f32 0x46800000#32))

/-- The first reshaped array at (r, d) is the first cloud at (0, r, d). -/
theorem E1_v0_idx (c : Dev nD) (r : Fin 16384) (d : Fin 128) :
    (E1 m c main_v0 : Vec F S16384x128 .f32) (ix2 r d) = (m ((c : Thread nD τ).loc main_arg0) : Vec F S1x16384x128 .f32) (ix3 (0 : Fin 1) r d) := by
  -- the reshaped array is the cloud's elements in row-major order at the shape [16384, 128]
  have e : (E1 m c main_v0 : Vec F S16384x128 .f32)
      = shapeCast S16384x128 (m ((c : Thread nD τ).loc main_arg0) : Vec F S1x16384x128 .f32) shapeCasts_S1x16384x128_S16384x128 := by
    show StableHlo.after hostOps0 (fun b => m (c, b)) (Proc.devRef .tc main_v0) = _
    after_results
    rfl
  rw [e]
  -- position r · 128 + d of [16384, 128] is position (0 · 16384 + r) · 128 + d of [1, 16384, 128]
  exact shapeCast_1ab_ab_apply _ _ r d

/-- The second reshaped array at (r, d) is the second cloud at (0, r, d). -/
theorem E1_v1_idx (c : Dev nD) (r : Fin 16384) (d : Fin 128) :
    (E1 m c main_v1 : Vec F S16384x128 .f32) (ix2 r d) = (m ((c : Thread nD τ).loc main_arg1) : Vec F S1x16384x128 .f32) (ix3 (0 : Fin 1) r d) := by
  have e : (E1 m c main_v1 : Vec F S16384x128 .f32)
      = shapeCast S16384x128 (m ((c : Thread nD τ).loc main_arg1) : Vec F S1x16384x128 .f32) shapeCasts_S1x16384x128_S16384x128 := by
    show StableHlo.after hostOps0 (fun b => m (c, b)) (Proc.devRef .tc main_v1) = _
    after_results
    rfl
  rw [e]
  exact shapeCast_1ab_ab_apply _ _ r d

/-- The second call finds the reshaped arrays as the first did. -/
theorem E2_v0 (c : Dev nD) : E2 m c main_v0 = E1 m c main_v0 := by
  show W2 m c (Proc.devRef .tc main_v0) = W1 m c (Proc.devRef .tc main_v0)
  unfold W2
  exact Function.update_of_ne (StableHlo.devRef_ne_of_ne (by decide) : (Proc.devRef .tc main_v0 : DevRef τ sig) ≠ Proc.devRef .tc main_v2) _ _
theorem E2_v1 (c : Dev nD) : E2 m c main_v1 = E1 m c main_v1 := by
  show W2 m c (Proc.devRef .tc main_v1) = W1 m c (Proc.devRef .tc main_v1)
  unfold W2
  exact Function.update_of_ne (StableHlo.devRef_ne_of_ne (by decide) : (Proc.devRef .tc main_v1 : DevRef τ sig) ≠ Proc.devRef .tc main_v2) _ _

/-- The closing operations from any contents: the result buffer holds `tail` of the two output rows found there. -/
theorem after_hostOps2_v8 (W : Valuation τ sig (Elt F)) :
    (StableHlo.after hostOps2 W (Proc.devRef .tc main_v8) : Vec F S_ .f32)
      = tail (W (Proc.devRef .tc main_v2)) (W (Proc.devRef .tc main_v3)) := by
  after_results
  rfl

/-- The result buffer at the last valuation: the closing operations applied to what the two calls leave. -/
theorem V4_v8 (c : Dev nD) : (Gen.V4 m (outsH m) c main_v8 : Vec F S_ .f32) = tail (o2 m c) (o3 m c) := by
  show StableHlo.after hostOps2 (Gen.V3 m (outsH m) c) (Proc.devRef .tc main_v8) = _
  rw [V3_eq, after_hostOps2_v8, W3_v2, W3_v3]

end Cert.KernelIdeal.Hand

end
-- ==== Proof.Spec.lean ====
/-
  Squared distances between the rows of two matrices of 128 columns, as both programs compute them over the extended reals,
  and the nearest-row value built from them.

  For row matrices K (keys) and Q (queries):
    sq X r      = 0 + Σ_d X r d · X r d                       (the zero is the word the sums start from)
    dist K Q k q = (sq K k + sq Q q) − 2 · Σ_d K k d · Q q d
    nearest K Q q = the fold of min, from +inf, of dist K Q k q over all rows k of K.
  Swapping the two matrices swaps the arguments of dist: addition and multiplication of extended reals commute, and nothing
  else is needed (no distributivity, so no finiteness).
-/
import Idealize.ShloMosaic.PureOps.Ideal
import Idealize.ShloMosaic.PureOps.Ideal.Laws

noncomputable section

namespace Cert.Spec

open Idealize.ShloMosaic

/-- The squared norm of row `r`: the zero word plus the sum of the squares of its 128 entries. -/
def sq {n : ℕ} (X : Fin n → Fin 128 → EReal) (r : Fin n) : EReal :=
  Ideal.ofBits .f32 0x00000000#32 + ∑ d : Fin 128, X r d * X r d

/-- The squared distance between key row `k` and query row `q` by the expansion |k|² + |q|² − 2 k·q. -/
def dist {nk nq : ℕ} (K : Fin nk → Fin 128 → EReal) (Q : Fin nq → Fin 128 → EReal) (k : Fin nk) (q : Fin nq) : EReal :=
  (sq K k + sq Q q) - Ideal.ofBits .f32 0x40000000#32 * ∑ d : Fin 128, K k d * Q q d

/-- The least squared distance from query row `q` to a key row, folded from +inf. -/
def nearest {nk nq : ℕ} (K : Fin nk → Fin 128 → EReal) (Q : Fin nq → Fin 128 → EReal) (q : Fin nq) : EReal :=
  Finset.univ.fold min (Ideal.ofBits .f32 0x7F800000#32) (fun k : Fin nk => dist K Q k q)

/-- The expansion is symmetric in the two rows. -/
theorem dist_swap {nk nq : ℕ} (K : Fin nk → Fin 128 → EReal) (Q : Fin nq → Fin 128 → EReal) (k : Fin nk) (q : Fin nq) :
    dist K Q k q = dist Q K q k := by
  unfold dist
  rw [add_comm (sq K k) (sq Q q)]
  congr 2
  exact Finset.sum_congr rfl fun d _ => mul_comm _ _

end Cert.Spec

end
-- ==== Proof.KI.PayIdx.lean ====
/-
  The kernel body's three stored values, read at one entry of the 1×2048 row, over the extended reals.
  * the reset value is +inf everywhere;
  * the norms row at q is the squared norm of row q of the query tile;
  * the step at q is min(running minimum at q, min over the 1024 rows kk of the key tile of
    (|key row kk|² + norms row at q) − 2 · Σ_d key[kk,d] · query[q,d]).
-/
import proofs.«140751_j59055800320002_1_alg».proof.Proof.Gen.KernelIdeal.Skeleton
import proofs.«140751_j59055800320002_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.ValueIdx
open Cert.KernelIdeal Cert.KernelIdeal.Gen Cert.Spec

/-! ## Layout operations, reductions and the matrix product at explicit coordinates -/

namespace PayIdx

/-- A vector `[a]` viewed as a column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The index over `r` of a row reduction `[a, b] → [a]` with lane coordinate `k` is `(r, k)`. -/
theorem lift_axis1 {a b : ℕ} (h : (⟨2, ![a, b]⟩ : Shape).Reduces [1] ⟨1, ![a]⟩) (r : Fin a) (k : Fin b) :
    h.lift (ix1 r) k = ix2 r k := by
  funext c
  apply Fin.ext
  match c with
  | ⟨0, _⟩ => rfl
  | ⟨1, _⟩ => rfl

/-- The lane sum of the squares of an `[a, 128]` tile, read at row `r`, is the squared norm of that row. -/
theorem rowsq_apply {a : ℕ} (x : Vec Ideal ⟨2, ![a, 128]⟩ .f32) (h : (⟨2, ![a, 128]⟩ : Shape).Reduces [1] ⟨1, ![a]⟩)
    (hφ : FKind.Formats .f32) (hacc : (0x00000000#32 : BitVec 32) = FKind.add.neutral .f32 hφ) (r : Fin a) :
    multiReduction (F := Ideal) .add [1] ⟨1, ![a]⟩ (mulf x x) 0x00000000#32 h hφ hacc (ix1 r)
      = Spec.sq (fun r d => x (ix2 r d)) r := by
  refine (Ideal.multiReduction_add_single _ _ _ _ _ _).trans ?_
  unfold Spec.sq
  rw [Ideal.ofBits_zero_f32, zero_add]
  refine Finset.sum_congr rfl fun k _ => ?_
  exact congrArg (fun i => x i * x i) (lift_axis1 h r k)

/-- The index over column `c` of a column reduction `[a, b] → [b]` with row coordinate `k` is `(k, c)`. -/
theorem lift_axis0 {a b : ℕ} (h : (⟨2, ![a, b]⟩ : Shape).Reduces [0] ⟨1, ![b]⟩) (c : Fin b) (k : Fin a) :
    h.lift (ix1 c) k = ix2 k c := by
  funext d
  apply Fin.ext
  match d with
  | ⟨0, _⟩ => rfl
  | ⟨1, _⟩ => rfl

/-- A minimum over one axis, over the extended reals: the fold of `min` from the accumulator's value over that axis's
    coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]
  exact h.fold_filter_drop_single _ _ src j

/-- The minimum over the rows of an `[a, b]` tile, read at column `c`: the fold of `min` over the rows `kk` of the
    tile at `(kk, c)`. -/
theorem colmin_apply {a b : ℕ} (src : FVec Ideal ⟨2, ![a, b]⟩ .f32) (acc : BitVec 32)
    (h : (⟨2, ![a, b]⟩ : Shape).Reduces [0] ⟨1, ![b]⟩) (hφ : FKind.Formats .f32)
    (hacc : acc = FKind.minimumf.neutral .f32 hφ) (c : Fin b) :
    multiReduction (F := Ideal) .minimumf [0] ⟨1, ![b]⟩ src acc h hφ hacc (ix1 c)
      = Finset.univ.fold min (Ideal.ofBits .f32 acc) (fun kk : Fin a => src (ix2 kk c)) := by
  refine (multiReduction_minimumf_single src acc h hφ hacc (ix1 c)).trans ?_
  exact congrArg (fun f => Finset.fold min (Ideal.ofBits .f32 acc) f (Finset.univ : Finset (Fin a)))
    (funext fun k => congrArg src (lift_axis0 h c k))

/-- A column `[a, 1]` broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! The matrix product of the key tile `[1024, 128]` and the query tile `[2048, 128]`, both contracted on their lane axis:
    the operand indices at output `(kk, q)` and contraction coordinate `d` are `(kk, d)` and `(q, d)`. -/

theorem mm_lhs_0 (i : S1024x2048.Idx) (k : dot_S1024x128_S2048x128_S1024x2048_1_1_0_0_n_n.contr.Idx) :
    (dot_S1024x128_S2048x128_S1024x2048_1_1_0_0_n_n.lhsIdx i k 0).val = (i 0).val := by
  unfold DotDims.lhsIdx
  rw [dif_neg (show ¬(0 : Fin S1024x128.rank) ∈ dot_S1024x128_S2048x128_S1024x2048_1_1_0_0_n_n.lhsBatch by decide), dif_pos (show (0 : Fin S1024x128.rank) ∈ dot_S1024x128_S2048x128_S1024x2048_1_1_0_0_n_n.lhsNonContracting by decide)]
  rfl
theorem mm_lhs_1 (i : S1024x2048.Idx) (k : dot_S1024x128_S2048x128_S1024x2048_1_1_0_0_n_n.contr.Idx) :
    (dot_S1024x128_S2048x128_S1024x2048_1_1_0_0_n_n.lhsIdx i k 1).val = (k ⟨0, by decide⟩).val :=
  dot_S1024x128_S2048x128_S1024x2048_1_1_0_0_n_n.lhsIdx_val_of_single rfl i k
theorem mm_rhs_0 (i : S1024x2048.Idx) (k : dot_S1024x128_S2048x128_S1024x2048_1_1_0_0_n_n.contr.Idx) :
    (dot_S1024x128_S2048x128_S1024x2048_1_1_0_0_n_n.rhsIdx i k 0).val = (i 1).val := by
  unfold DotDims.rhsIdx
  rw [dif_neg (show ¬(0 : Fin S2048x128.rank) ∈ dot_S1024x128_S2048x128_S1024x2048_1_1_0_0_n_n.rhsBatch by decide), dif_pos (show (0 : Fin S2048x128.rank) ∈ dot_S1024x128_S2048x128_S1024x2048_1_1_0_0_n_n.rhsNonContracting by decide)]
  rfl
theorem mm_rhs_1 (i : S1024x2048.Idx) (k : dot_S1024x128_S2048x128_S1024x2048_1_1_0_0_n_n.contr.Idx) :
    (dot_S1024x128_S2048x128_S1024x2048_1_1_0_0_n_n.rhsIdx i k 1).val = (k ⟨0, by decide⟩).val :=
  dot_S1024x128_S2048x128_S1024x2048_1_1_0_0_n_n.rhsIdx_val_of_single rfl i k

/-- The product into a zero accumulator, read at `(kk, q)`: the sum over the 128 lanes of key `(kk, d)` times query `(q, d)`. -/
theorem mm_apply {φ₁ φ₂ : FTy} (l : FVec Ideal S1024x128 φ₁) (r : FVec Ideal S2048x128 φ₂) (kk : Fin 1024) (q : Fin 2048) :
    matmul dot_S1024x128_S2048x128_S1024x2048_1_1_0_0_n_n none l r (constant S1024x2048 .f32 0x00000000#32) (ix2 kk q)
      = ∑ d : Fin 128, l (ix2 kk d) * r (ix2 q d) := by
  simp only [matmul]
  rw [Ideal.matmul_constant_zero_apply, ← Equiv.sum_comp (ValueIdx.contrEquiv1 dot_S1024x128_S2048x128_S1024x2048_1_1_0_0_n_n 128 rfl rfl).symm]
  refine Finset.sum_congr rfl fun d _ => ?_
  have hd := ValueIdx.contrEquiv1_symm_val dot_S1024x128_S2048x128_S1024x2048_1_1_0_0_n_n 128 rfl rfl d
  have el : dot_S1024x128_S2048x128_S1024x2048_1_1_0_0_n_n.lhsIdx (ix2 kk q) ((ValueIdx.contrEquiv1 dot_S1024x128_S2048x128_S1024x2048_1_1_0_0_n_n 128 rfl rfl).symm d) = ix2 kk d := funext fun a => Fin.ext (by
    match a with
    | ⟨0, _⟩ => exact mm_lhs_0 _ _
    | ⟨1, _⟩ => exact (mm_lhs_1 _ _).trans hd)
  have er : dot_S1024x128_S2048x128_S1024x2048_1_1_0_0_n_n.rhsIdx (ix2 kk q) ((ValueIdx.contrEquiv1 dot_S1024x128_S2048x128_S1024x2048_1_1_0_0_n_n 128 rfl rfl).symm d) = ix2 q d := funext fun a => Fin.ext (by
    match a with
    | ⟨0, _⟩ => exact mm_rhs_0 _ _
    | ⟨1, _⟩ => exact (mm_rhs_1 _ _).trans hd)
  rw [el, er]

end PayIdx

open PayIdx

/-! ## The three stored values -/

/-- The reset value: +inf at every entry. -/
theorem pay1_idx (q : Fin 2048) :
    k0_pay1 (F := Ideal) (ix2 (0 : Fin 1) q) = Ideal.ofBits .f32 0x7F800000#32 := by
  unfold k0_pay1
  rw [shapeCast_self]
  rfl

/-- The norms row: entry q is the squared norm of row q of the query tile. -/
theorem pay2_idx (x0 : Vec Ideal S2048x128 .f32) (q : Fin 2048) :
    k0_pay2 (F := Ideal) x0 (ix2 (0 : Fin 1) q) = sq (fun r d => x0 (ix2 r d)) q := by
  unfold k0_pay2
  rw [shapeCast_self, transpose_ix2_apply, shapeCast_a_a1_apply, shapeCast_self]
  exact rowsq_apply x0 _ _ _ q

/-- The step: the running minimum against this key tile's column minimum of the expanded squared distances. -/
theorem pay3_idx (x1 : Vec Ideal S1024x128 .f32) (x0 : Vec Ideal S2048x128 .f32) (a2 acc : Vec Ideal S1x2048 .f32) (q : Fin 2048) :
    k0_pay3 (F := Ideal) x1 x0 a2 acc (ix2 (0 : Fin 1) q)
      = min (acc (ix2 (0 : Fin 1) q))
          (Finset.univ.fold min (Ideal.ofBits .f32 0x7F800000#32) (fun kk : Fin 1024 =>
            (sq (fun r d => x1 (ix2 r d)) kk + a2 (ix2 (0 : Fin 1) q))
              - Ideal.ofBits .f32 0x40000000#32 * ∑ d : Fin 128, x1 (ix2 kk d) * x0 (ix2 q d))) := by
  unfold k0_pay3
  rw [shapeCast_self, minimumf_apply, shapeCast_a_1a_apply]
  refine congrArg (min (acc (ix2 (0 : Fin 1) q))) ?_
  refine (colmin_apply _ _ _ _ _ q).trans ?_
  refine congrArg (fun f => Finset.fold min (Ideal.ofBits .f32 0x7F800000#32) f (Finset.univ : Finset (Fin 1024)))
    (funext fun kk => ?_)
  rw [subf_apply, addf_apply, mulf_apply, broadcast_apply, broadcastTo_a1_ab_apply, shapeCast_a_a1_apply,
    broadcastTo_1b_ab_apply, shapeCast_self, shapeCast_self]
  refine congrArg₂ (· - ·) (congrArg (· + a2 (ix2 (0 : Fin 1) q)) (rowsq_apply x1 _ _ _ kk)) ?_
  exact congrArg (Ideal.ofBits .f32 0x40000000#32 * ·) (mm_apply _ _ kk q)

/-- The second call runs the same kernel function: its stored values are the first call's. -/
theorem k1_pay1_eq : @k1_pay1 = @k0_pay1 := rfl
theorem k1_pay2_eq : @k1_pay2 = @k0_pay2 := rfl
theorem k1_pay3_eq : @k1_pay3 = @k0_pay3 := rfl

end Cert.KernelIdeal.Hand

end
-- ==== Proof.LibTiledMin.lean ====
/-
  A minimum taken tile by tile is the minimum over the whole axis.

  An axis of `w * N` positions is cut into `N` consecutive tiles of `w`.  A running value starts as the minimum of a start
  value `b` and the first tile's minimum, and at every later tile becomes the minimum of what it was and that tile's
  minimum (each tile's minimum itself folded from `b`).  After the last tile the running value is the fold of `min` from `b`
  over all `w * N` positions.  Nothing is assumed of `b` (it need not be a top element) and nothing of the order beyond
  linearity: the proof characterises both sides by their lower bounds.
-/
import Idealize.ShloMosaic.PureOps.Reduce

namespace Cert.TiledMin

variable {α : Type*} [LinearOrder α]

/-- The lower bounds of the running minimum after tile `n`: exactly the lower bounds of the start value and of every entry
    of tiles `0 … n`. -/
theorem le_running_iff (w N : ℕ) (b : α) (f : ℕ → Fin w → α) (acc : ℕ → α)
    (h0 : acc 0 = min b (Finset.univ.fold min b (f 0)))
    (hs : ∀ n, n + 1 < N → acc (n + 1) = min (acc n) (Finset.univ.fold min b (f (n + 1)))) (c : α) :
    ∀ n, n < N → (c ≤ acc n ↔ c ≤ b ∧ ∀ n', n' ≤ n → ∀ i', c ≤ f n' i') := by
  intro n
  induction n with
  | zero =>
    intro _
    rw [h0, le_min_iff, Finset.le_fold_min]
    constructor
    · rintro ⟨hb, -, hf⟩
      refine ⟨hb, fun n' hn' i' => ?_⟩
      obtain rfl : n' = 0 := Nat.le_zero.mp hn'
      exact hf i' (Finset.mem_univ _)
    · rintro ⟨hb, hf⟩
      exact ⟨hb, hb, fun i' _ => hf 0 (Nat.le_refl _) i'⟩
  | succ n ih =>
    intro hn
    rw [hs n hn, le_min_iff, ih (Nat.lt_of_succ_lt hn), Finset.le_fold_min]
    constructor
    · rintro ⟨⟨hb, hf⟩, -, hl⟩
      refine ⟨hb, fun n' hn' i' => ?_⟩
      rcases Nat.lt_or_ge n' (n + 1) with h | h
      · exact hf n' (Nat.lt_succ_iff.mp h) i'
      · obtain rfl : n' = n + 1 := Nat.le_antisymm hn' h
        exact hl i' (Finset.mem_univ _)
    · rintro ⟨hb, hf⟩
      exact ⟨⟨hb, fun n' hn' i' => hf n' (Nat.le_succ_of_le hn') i'⟩, hb, fun i' _ => hf (n + 1) (Nat.le_refl _) i'⟩

/-- After the last of `N` tiles of width `w` the running minimum is the fold of `min` from the start value over the whole axis
    of `M = w * N` positions, position `w * n + i'` being entry `i'` of tile `n`. -/
theorem running_last_eq_fold (w N M : ℕ) (hw : 0 < w) (hM : M = w * N) (b : α) (f : ℕ → Fin w → α) (acc : ℕ → α)
    (h0 : acc 0 = min b (Finset.univ.fold min b (f 0)))
    (hs : ∀ n, n + 1 < N → acc (n + 1) = min (acc n) (Finset.univ.fold min b (f (n + 1))))
    (F : Fin M → α) (hF : ∀ (n : ℕ) (i' : Fin w) (h : w * n + i'.val < M), F ⟨w * n + i'.val, h⟩ = f n i')
    (L : ℕ) (hL : L + 1 = N) :
    acc L = Finset.univ.fold min b F := by
  refine eq_of_forall_le_iff fun c => ?_
  rw [le_running_iff w N b f acc h0 hs c L (by omega), Finset.le_fold_min]
  constructor
  · rintro ⟨hb, hf⟩
    refine ⟨hb, fun i _ => ?_⟩
    have hi : i.val < w * N := hM ▸ i.isLt
    have hdiv : i.val / w ≤ L := by
      have : i.val / w < N := Nat.div_lt_of_lt_mul hi
      omega
    have e : i = ⟨w * (i.val / w) + (⟨i.val % w, Nat.mod_lt _ hw⟩ : Fin w).val, by
        show w * (i.val / w) + i.val % w < M
        rw [Nat.div_add_mod]; exact i.isLt⟩ :=
      Fin.ext (Nat.div_add_mod _ _).symm
    rw [e, hF]
    exact hf _ hdiv _
  · rintro ⟨hb, hf⟩
    refine ⟨hb, fun n' hn' i' => ?_⟩
    have hlt : w * n' + i'.val < M := by
      have h1 : w * n' + i'.val < w * (n' + 1) := by rw [Nat.mul_succ]; exact Nat.add_lt_add_left i'.isLt _
      have h2 : w * (n' + 1) ≤ w * N := Nat.mul_le_mul_left _ (by omega)
      omega
    rw [← hF n' i' hlt]
    exact hf _ (Finset.mem_univ _)

end Cert.TiledMin
-- ==== Proof.KI.Fold0.lean ====
/-
  The running minimum at the last key tile of a query tile is the minimum over ALL key rows.

  For the point t = 16 i + 15 and row q of query tile i (array row n = 2048 i + q): the norms row has held, since the tile's
  first point, the squared norm of query row n; the running minimum started at min(+inf, first key tile's minimum) and took
  one step per key tile, each the minimum over that tile's 1024 key rows (array rows 1024 j + kk) of the expanded squared
  distance to query row n.  A minimum taken tile by tile is the minimum over the whole axis of 16 · 1024 = 16384 rows.
-/
import proofs.«140751_j59055800320002_1_alg».proof.Proof.KI.Dat0
import proofs.«140751_j59055800320002_1_alg».proof.Proof.KI.PayIdx
import proofs.«140751_j59055800320002_1_alg».proof.Proof.Spec
import proofs.«140751_j59055800320002_1_alg».proof.Proof.LibTiledMin
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Spec

-- the buffers' contents when the call is entered
variable (V : (c : Dev nD) → (b : Ref sig .tc) → Buf (Elt Ideal) ((c : Thread nD τ).loc b))

/-- The rows of a [16384, 128] array. -/
abbrev rows2 (x : Vec Ideal S16384x128 .f32) : Fin 16384 → Fin 128 → EReal := fun r d => x (ix2 r d)

/-- The two input windows' block indices over the grid: the query window's block is (t / 16, 0), the key window's (t % 16, 0). -/
theorem idx0_0 : ∀ t : Fin cfg0.N, win0_0.index t (0 : Fin 2) = t.val / 16 ∧ win0_0.index t (1 : Fin 2) = 0 :=
  (by decide +kernel : ∀ t : Fin grid0.N, _)
theorem idx0_1 : ∀ t : Fin cfg0.N, win0_1.index t (0 : Fin 2) = t.val % 16 ∧ win0_1.index t (1 : Fin 2) = 0 :=
  (by decide +kernel : ∀ t : Fin grid0.N, _)

/-- Row r of the query tile of point t is row 2048 (t / 16) + r of the query array `main_v0`. -/
theorem qblk0_idx (c : Dev nD) (t : Fin cfg0.N) (r : Fin 2048) (d : Fin 128) (n : Fin 16384) (hn : n.val = 2048 * (t.val / 16) + r.val) :
    qblk0 (F := Ideal) V c t (ix2 r d) = rows2 (V c main_v0) n d := by
  unfold qblk0 iblk0
  obtain ⟨e0, e1⟩ := idx0_0 t
  show V c main_v0 (((cfg0.win 0).blk t).view.emb (ix2 r d)) = V c main_v0 (ix2 n d)
  refine congrArg (V c main_v0) ?_
  funext a; apply Fin.ext
  match a with
  | ⟨0, _⟩ =>
    show win0_0.index t (0 : Fin 2) * 2048 + 1 * r.val = n.val
    omega
  | ⟨1, _⟩ =>
    show win0_0.index t (1 : Fin 2) * 128 + 1 * d.val = d.val
    omega

/-- Row r of the key tile of point t is row 1024 (t % 16) + r of the key array `main_v1`. -/
theorem kblk0_idx (c : Dev nD) (t : Fin cfg0.N) (r : Fin 1024) (d : Fin 128) (m : Fin 16384) (hm : m.val = 1024 * (t.val % 16) + r.val) :
    kblk0 (F := Ideal) V c t (ix2 r d) = rows2 (V c main_v1) m d := by
  unfold kblk0 iblk0
  obtain ⟨e0, e1⟩ := idx0_1 t
  show V c main_v1 (((cfg0.win 1).blk t).view.emb (ix2 r d)) = V c main_v1 (ix2 m d)
  refine congrArg (V c main_v1) ?_
  funext a; apply Fin.ext
  match a with
  | ⟨0, _⟩ =>
    show win0_1.index t (0 : Fin 2) * 1024 + 1 * r.val = m.val
    omega
  | ⟨1, _⟩ =>
    show win0_1.index t (1 : Fin 2) * 128 + 1 * d.val = d.val
    omega

/-- The pair after a point depends on the point's position only. -/
theorem carry0_congr (c : Dev nD) {n n' : ℕ} (e : n = n') (h : n < cfg0.N) (h' : n' < cfg0.N) :
    carry0 (F := Ideal) V c n h = carry0 (F := Ideal) V c n' h' := by
  subst e; rfl

/-- Through query tile i the norms row holds, at q, the squared norm of query row n = 2048 i + q. -/
theorem norms0 (c : Dev nD) (i : ℕ) (q : Fin 2048) (n : Fin 16384) (hn : n.val = 2048 * i + q.val) :
    ∀ (j : ℕ), j ≤ 15 → ∀ (h : 16 * i + j < cfg0.N),
      (carry0 (F := Ideal) V c (16 * i + j) h).2 (ix2 (0 : Fin 1) q) = sq (rows2 (V c main_v0)) n := by
  intro j
  induction j with
  | zero =>
    intro _ h
    have e := carry0_first (F := Ideal) V c ⟨16 * i + 0, h⟩ (by show (16 * i + 0) % 16 = 0; omega)
    rw [show carry0 (F := Ideal) V c (16 * i + 0) h = _ from e]
    show k0_pay2 (F := Ideal) (qblk0 V c ⟨16 * i + 0, h⟩) (ix2 (0 : Fin 1) q) = _
    rw [pay2_idx]
    unfold Cert.Spec.sq
    refine congrArg (_ + ·) (Finset.sum_congr rfl fun d _ => ?_)
    have hq := qblk0_idx V c ⟨16 * i + 0, h⟩ q d n (by show n.val = 2048 * ((16 * i + 0) / 16) + q.val; omega)
    exact congrArg₂ (· * ·) hq hq
  | succ j ih =>
    intro hj h
    have e := carry0_next (F := Ideal) V c ⟨16 * i + (j + 1), h⟩ (by show ¬ (16 * i + (j + 1)) % 16 = 0; omega)
    rw [show carry0 (F := Ideal) V c (16 * i + (j + 1)) h = _ from e]
    show (carry0 (F := Ideal) V c (16 * i + (j + 1) - 1) _).2 (ix2 (0 : Fin 1) q) = _
    rw [carry0_congr V c (show 16 * i + (j + 1) - 1 = 16 * i + j by omega) _ (by omega)]
    exact ih (by omega) _

/-- Entry kk of key tile j against query row n: the expanded squared distance from key row 1024 j + kk. -/
def ftile (K Q : Fin 16384 → Fin 128 → EReal) (n : Fin 16384) : ℕ → Fin 1024 → EReal :=
  fun j kk => if h : 1024 * j + kk.val < 16384 then dist K Q ⟨1024 * j + kk.val, h⟩ n else 0

/-- The step's column minimum at point 16 i + j, the norms row holding query row n's squared norm, is the minimum of
    key tile j's expanded squared distances to query row n. -/
theorem tile_fold0 (c : Dev nD) (i j : ℕ) (hj : j ≤ 15) (h : 16 * i + j < cfg0.N) (q : Fin 2048) (n : Fin 16384)
    (hn : n.val = 2048 * i + q.val) (A : Vec Ideal S1x2048 .f32) (hA : A (ix2 (0 : Fin 1) q) = sq (rows2 (V c main_v0)) n) :
    Finset.univ.fold min (Ideal.ofBits .f32 0x7F800000#32) (fun kk : Fin 1024 =>
        (sq (fun r d => kblk0 (F := Ideal) V c ⟨16 * i + j, h⟩ (ix2 r d)) kk + A (ix2 (0 : Fin 1) q))
          - Ideal.ofBits .f32 0x40000000#32
            * ∑ d : Fin 128, kblk0 (F := Ideal) V c ⟨16 * i + j, h⟩ (ix2 kk d) * qblk0 (F := Ideal) V c ⟨16 * i + j, h⟩ (ix2 q d))
      = Finset.univ.fold min (Ideal.ofBits .f32 0x7F800000#32) (ftile (rows2 (V c main_v1)) (rows2 (V c main_v0)) n j) := by
  refine congrArg (Finset.univ.fold min _) (funext fun kk => ?_)
  have hkk : kk.val < 1024 := kk.isLt
  have hlt : 1024 * j + kk.val < 16384 := by omega
  rw [show ftile (rows2 (V c main_v1)) (rows2 (V c main_v0)) n j kk = dist (rows2 (V c main_v1)) (rows2 (V c main_v0)) ⟨1024 * j + kk.val, hlt⟩ n
    from dif_pos hlt]
  have hk : ∀ d, kblk0 (F := Ideal) V c ⟨16 * i + j, h⟩ (ix2 kk d) = rows2 (V c main_v1) ⟨1024 * j + kk.val, hlt⟩ d := fun d =>
    kblk0_idx V c ⟨16 * i + j, h⟩ kk d ⟨1024 * j + kk.val, hlt⟩ (by show 1024 * j + kk.val = 1024 * ((16 * i + j) % 16) + kk.val; omega)
  have hq : ∀ d, qblk0 (F := Ideal) V c ⟨16 * i + j, h⟩ (ix2 q d) = rows2 (V c main_v0) n d := fun d =>
    qblk0_idx V c ⟨16 * i + j, h⟩ q d n (by show n.val = 2048 * ((16 * i + j) / 16) + q.val; omega)
  unfold Cert.Spec.dist
  rw [hA]
  refine congrArg₂ (· - ·) (congrArg (· + _) ?_) (congrArg (_ * ·) (Finset.sum_congr rfl fun d _ => congrArg₂ (· * ·) (hk d) (hq d)))
  unfold Cert.Spec.sq
  exact congrArg (_ + ·) (Finset.sum_congr rfl fun d _ => congrArg₂ (· * ·) (hk d) (hk d))

/-- The running minimum after the last key tile of query tile i. -/
theorem carry0_last_aux (c : Dev nD) (i : ℕ) (hi : 16 * i + 15 < cfg0.N) (q : Fin 2048) (n : Fin 16384)
    (hn : n.val = 2048 * i + q.val) :
    (carry0 (F := Ideal) V c (16 * i + 15) hi).1 (ix2 (0 : Fin 1) q) = nearest (rows2 (V c main_v1)) (rows2 (V c main_v0)) n := by
  let acc : ℕ → EReal := fun j => if h : 16 * i + j < cfg0.N then (carry0 (F := Ideal) V c (16 * i + j) h).1 (ix2 (0 : Fin 1) q) else 0
  have h0 : acc 0 = min (Ideal.ofBits .f32 0x7F800000#32)
      (Finset.univ.fold min (Ideal.ofBits .f32 0x7F800000#32) (ftile (rows2 (V c main_v1)) (rows2 (V c main_v0)) n 0)) := by
    have h : 16 * i + 0 < cfg0.N := by omega
    show (if h : 16 * i + 0 < cfg0.N then (carry0 (F := Ideal) V c (16 * i + 0) h).1 (ix2 (0 : Fin 1) q) else 0) = _
    rw [dif_pos h]
    have e := carry0_first (F := Ideal) V c ⟨16 * i + 0, h⟩ (by show (16 * i + 0) % 16 = 0; omega)
    have hA := norms0 V c i q n hn 0 (by omega) h
    rw [show carry0 (F := Ideal) V c (16 * i + 0) h = _ from e] at hA ⊢
    show k0_pay3 (F := Ideal) (kblk0 V c ⟨16 * i + 0, h⟩) (qblk0 V c ⟨16 * i + 0, h⟩) (k0_pay2 (qblk0 V c ⟨16 * i + 0, h⟩)) (k0_pay1 (F := Ideal)) (ix2 (0 : Fin 1) q) = _
    rw [pay3_idx, pay1_idx]
    exact congrArg (min _) (tile_fold0 V c i 0 (by omega) h q n hn _ hA)
  have hs : ∀ j, j + 1 < 16 → acc (j + 1) = min (acc j)
      (Finset.univ.fold min (Ideal.ofBits .f32 0x7F800000#32) (ftile (rows2 (V c main_v1)) (rows2 (V c main_v0)) n (j + 1))) := by
    intro j hj
    have h1 : 16 * i + (j + 1) < cfg0.N := by omega
    have h0' : 16 * i + j < cfg0.N := by omega
    show (if h : 16 * i + (j + 1) < cfg0.N then (carry0 (F := Ideal) V c (16 * i + (j + 1)) h).1 (ix2 (0 : Fin 1) q) else 0)
      = min (if h : 16 * i + j < cfg0.N then (carry0 (F := Ideal) V c (16 * i + j) h).1 (ix2 (0 : Fin 1) q) else 0) _
    rw [dif_pos h1, dif_pos h0']
    have e := carry0_next (F := Ideal) V c ⟨16 * i + (j + 1), h1⟩ (by show ¬ (16 * i + (j + 1)) % 16 = 0; omega)
    rw [show carry0 (F := Ideal) V c (16 * i + (j + 1)) h1 = _ from e]
    show k0_pay3 (F := Ideal) (kblk0 V c ⟨16 * i + (j + 1), h1⟩) (qblk0 V c ⟨16 * i + (j + 1), h1⟩)
      (carry0 (F := Ideal) V c (16 * i + (j + 1) - 1) _).2 (carry0 (F := Ideal) V c (16 * i + (j + 1) - 1) _).1 (ix2 (0 : Fin 1) q) = _
    rw [pay3_idx, carry0_congr V c (show 16 * i + (j + 1) - 1 = 16 * i + j by omega) _ h0']
    exact congrArg (min _) (tile_fold0 V c i (j + 1) (by omega) h1 q n hn _ (norms0 V c i q n hn j (by omega) h0'))
  have hfin := Cert.TiledMin.running_last_eq_fold 1024 16 16384 (by norm_num) rfl (Ideal.ofBits .f32 0x7F800000#32)
    (ftile (rows2 (V c main_v1)) (rows2 (V c main_v0)) n) acc h0 hs
    (fun m : Fin 16384 => dist (rows2 (V c main_v1)) (rows2 (V c main_v0)) m n)
    (fun j kk h => by unfold ftile; rw [dif_pos h]) 15 rfl
  have hacc : acc 15 = (carry0 (F := Ideal) V c (16 * i + 15) hi).1 (ix2 (0 : Fin 1) q) := dif_pos hi
  rw [← hacc, hfin]
  rfl

/-- At the last key tile of query tile t / 16, entry q of the running minimum is the nearest-key value of array row
    n = 2048 (t / 16) + q. -/
theorem carry0_last (c : Dev nD) (t : Fin cfg0.N) (ht : t.val % 16 = 15) (q : Fin 2048) (n : Fin 16384)
    (hn : n.val = 2048 * (t.val / 16) + q.val) :
    (carry0 (F := Ideal) V c t.val t.isLt).1 (ix2 (0 : Fin 1) q) = nearest (rows2 (V c main_v1)) (rows2 (V c main_v0)) n := by
  have e : t.val = 16 * (t.val / 16) + 15 := by omega
  have hi : 16 * (t.val / 16) + 15 < cfg0.N := by have := t.isLt; omega
  rw [carry0_congr V c e t.isLt hi]
  exact carry0_last_aux V c (t.val / 16) hi q n hn

end Cert.KernelIdeal.Hand

end
-- ==== Proof.KI.Near0.lean ====
/-
  What the first call leaves in its output array, read at one entry over the extended reals: entry n is the least expanded
  squared distance from query row n to any of the 16384 key rows.

  Query row n lies in query tile i = n / 2048 at row n % 2048.  Over the sixteen key tiles j of that query tile the running
  minimum starts from +inf and takes one step per tile, each step the minimum over that tile's 1024 key rows; a minimum taken
  tile by tile is the minimum over all rows.  The point 16 i + 15 writes the running minimum to block i of the output, and
  these blocks tile the output array.
-/
import proofs.«140751_j59055800320002_1_alg».proof.Proof.KI.Fold0
import proofs.«140751_j59055800320002_1_alg».proof.Proof.Spec
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Spec

-- the buffers' contents when the call is entered
variable (V : (c : Dev nD) → (b : Ref sig .tc) → Buf (Elt Ideal) ((c : Thread nD τ).loc b))

/-! ## The output window's blocks -/

/-- The output window's block index over the grid: at point t = 16 i + j it is block (0, i). -/
theorem idx_out0 : ∀ t : Fin cfg0.N, win0_2.index t (0 : Fin 2) = 0 ∧ win0_2.index t (1 : Fin 2) = t.val / 16 :=
  (by decide +kernel : ∀ t : Fin grid0.N, win0_2.index t (0 : Fin 2) = 0 ∧ win0_2.index t (1 : Fin 2) = t.val / 16)

/-- What a last point t = 16 i + 15 writes back is block i of any whole-array function G whose column n is the nearest-key
    value of query row n: entry (0, q) of the block sits at column 2048 i + q of the array, and entry q of the running minimum
    there is the nearest-key value of that row. -/
theorem flushed0_eq (c : Dev nD) (G : Vec Ideal S1x16384 .f32)
    (hG : ∀ n : Fin 16384, G (ix2 (0 : Fin 1) n) = nearest (rows2 (V c main_v1)) (rows2 (V c main_v0)) n)
    (t : Fin cfg0.N) (hf : (cfg0.win 2).flush t = true) :
    (dat0 (F := Ideal) V c).flushed 2 t = ((cfg0.win 2).blk t).view.read (Elt Ideal) G := by
  have ht : t.val % 16 = 15 := (flush0_2 t).mp hf
  have hN : t.val < 128 := lt_of_lt_of_eq t.isLt (show cfg0.N = 128 from N_0)
  show (cfg0.win 2).cut (grid0.coords t) ((dat0 (F := Ideal) V c).after 2 t) = _
  rw [after0_2]
  funext j
  obtain ⟨e0, e1⟩ := idx_out0 t
  have hj0 : (j 0).val < 1 := (j 0).isLt
  have hj1 : (j 1).val < 2048 := (j 1).isLt
  -- the array column under entry j of the block
  have hn : 2048 * (t.val / 16) + (j 1).val < 16384 := by omega
  have key := carry0_last V c t ht ⟨(j 1).val, hj1⟩ ⟨2048 * (t.val / 16) + (j 1).val, hn⟩ rfl
  refine Eq.trans ?_ (key.trans ((hG ⟨2048 * (t.val / 16) + (j 1).val, hn⟩).symm.trans ?_))
  · -- the block is the whole running-minimum row: its entry j is entry (0, j 1)
    show (carry0 (F := Ideal) V c t.val t.isLt).1 ((cfg0.win 2).xinj (grid0.coords t) j) = _
    refine congrArg (carry0 (F := Ideal) V c t.val t.isLt).1 ?_
    funext a; apply Fin.ext
    match a with
    | ⟨0, _⟩ => show (j 0).val = 0; omega
    | ⟨1, _⟩ => rfl
  · -- a block's coordinate in the array: block index × block size + the coordinate inside the block
    show G _ = G (((cfg0.win 2).blk t).view.emb j)
    refine congrArg G ?_
    funext a; apply Fin.ext
    match a with
    | ⟨0, _⟩ => show 0 = win0_2.index t (0 : Fin 2) * 1 + 1 * (j 0).val; omega
    | ⟨1, _⟩ => show 2048 * (t.val / 16) + (j 1).val = win0_2.index t (1 : Fin 2) * 2048 + 1 * (j 1).val; omega

/-- An index of the output array lies in point t's block iff each coordinate lies in the block's range on its axis. -/
theorem mem_blk0 (t : Fin cfg0.N) (i : S1x16384.Idx) :
    i ∈ ((cfg0.win 2).blk t).view.set ↔ ∀ a : Fin 2, win0_2.index t a * S1x2048.size a ≤ (i a).val ∧ (i a).val < win0_2.index t a * S1x2048.size a + S1x2048.size a := by
  show i ∈ ((View.whole main_v2).slice (win0_2.rect t)).set ↔ _
  rw [View.set_slice_whole, Rect.mem_set_unit]
  exact Iff.rfl

/-- The written-back blocks tile the output array: column n lies in block n / 2048, which the point 16 (n / 2048) + 15
    writes back. -/
theorem covered0 (i : S1x16384.Idx) :
    ∃ t : Fin cfg0.N, (cfg0.win 2).flush t = true ∧ i ∈ ((cfg0.win 2).blk t).view.set := by
  have hi0 : (i 0).val < 1 := (i 0).isLt
  have hi1 : (i 1).val < 16384 := (i 1).isLt
  have hN : cfg0.N = 128 := N_0
  have ht : 16 * ((i 1).val / 2048) + 15 < cfg0.N := by rw [hN]; omega
  obtain ⟨e0, e1⟩ := idx_out0 ⟨16 * ((i 1).val / 2048) + 15, ht⟩
  have e1' : win0_2.index ⟨16 * ((i 1).val / 2048) + 15, ht⟩ (1 : Fin 2) = (16 * ((i 1).val / 2048) + 15) / 16 := e1
  refine ⟨⟨16 * ((i 1).val / 2048) + 15, ht⟩, (flush0_2 _).mpr (show (16 * ((i 1).val / 2048) + 15) % 16 = 15 by omega), ?_⟩
  rw [mem_blk0]
  intro a
  match a with
  | ⟨0, _⟩ =>
    show win0_2.index ⟨16 * ((i 1).val / 2048) + 15, ht⟩ (0 : Fin 2) * 1 ≤ (i 0).val
      ∧ (i 0).val < win0_2.index ⟨16 * ((i 1).val / 2048) + 15, ht⟩ (0 : Fin 2) * 1 + 1
    omega
  | ⟨1, _⟩ =>
    show win0_2.index ⟨16 * ((i 1).val / 2048) + 15, ht⟩ (1 : Fin 2) * 2048 ≤ (i 1).val
      ∧ (i 1).val < win0_2.index ⟨16 * ((i 1).val / 2048) + 15, ht⟩ (1 : Fin 2) * 2048 + 2048
    omega

/-! ## The output array after the call -/

/-- The whole output array as one function of the two inputs: column n holds the nearest-key value of query row n. -/
abbrev nearRow (c : Dev nD) : Vec Ideal S1x16384 .f32 :=
  fun j => nearest (rows2 (V c main_v1)) (rows2 (V c main_v0)) (j 1)

/-- Entry n of the output array after the call: nearest key row (rows of `main_v1`) to query row n (rows of `main_v0`). -/
theorem near0_idx (c : Dev nD) (n : Fin 16384) :
    ((dat0 (F := Ideal) V c).arrAt 2 cfg0.N : Vec Ideal S1x16384 .f32) (ix2 (0 : Fin 1) n)
      = nearest (rows2 (V c main_v1)) (rows2 (V c main_v0)) n := by
  have hG : ∀ m : Fin 16384, nearRow V c (ix2 (0 : Fin 1) m) = nearest (rows2 (V c main_v1)) (rows2 (V c main_v0)) m :=
    fun m => rfl
  -- every written-back block is its block of `nearRow`, and the blocks cover the array: the array ends holding `nearRow`
  have h := (dat0 (F := Ideal) V c).arrAt_eq_of_cover 2 (nearRow V c) (flushed0_eq V c (nearRow V c) hG) covered0
  exact (congrFun h (ix2 (0 : Fin 1) n)).trans (hG n)

end Cert.KernelIdeal.Hand

end
-- ==== Proof.KI.PayIdx1.lean ====
/-
  The kernel body's three stored values, read at one entry of the 1×2048 row, over the extended reals.
  * the reset value is +inf everywhere;
  * the norms row at q is the squared norm of row q of the query tile;
  * the step at q is min(running minimum at q, min over the 1024 rows kk of the key tile of
    (|key row kk|² + norms row at q) − 2 · Σ_d key[kk,d] · query[q,d]).
-/
import proofs.«140751_j59055800320002_1_alg».proof.Proof.Gen.KernelIdeal.Skeleton
import proofs.«140751_j59055800320002_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand.Second

open Idealize.ShloMosaic Idealize.ShloMosaic.ValueIdx
open Cert.KernelIdeal Cert.KernelIdeal.Gen Cert.Spec

/-! ## Layout operations, reductions and the matrix product at explicit coordinates -/

namespace PayIdx

/-- A vector `[a]` viewed as a column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The index over `r` of a row reduction `[a, b] → [a]` with lane coordinate `k` is `(r, k)`. -/
theorem lift_axis1 {a b : ℕ} (h : (⟨2, ![a, b]⟩ : Shape).Reduces [1] ⟨1, ![a]⟩) (r : Fin a) (k : Fin b) :
    h.lift (ix1 r) k = ix2 r k := by
  funext c
  apply Fin.ext
  match c with
  | ⟨0, _⟩ => rfl
  | ⟨1, _⟩ => rfl

/-- The lane sum of the squares of an `[a, 128]` tile, read at row `r`, is the squared norm of that row. -/
theorem rowsq_apply {a : ℕ} (x : Vec Ideal ⟨2, ![a, 128]⟩ .f32) (h : (⟨2, ![a, 128]⟩ : Shape).Reduces [1] ⟨1, ![a]⟩)
    (hφ : FKind.Formats .f32) (hacc : (0x00000000#32 : BitVec 32) = FKind.add.neutral .f32 hφ) (r : Fin a) :
    multiReduction (F := Ideal) .add [1] ⟨1, ![a]⟩ (mulf x x) 0x00000000#32 h hφ hacc (ix1 r)
      = Spec.sq (fun r d => x (ix2 r d)) r := by
  refine (Ideal.multiReduction_add_single _ _ _ _ _ _).trans ?_
  unfold Spec.sq
  rw [Ideal.ofBits_zero_f32, zero_add]
  refine Finset.sum_congr rfl fun k _ => ?_
  exact congrArg (fun i => x i * x i) (lift_axis1 h r k)

/-- The index over column `c` of a column reduction `[a, b] → [b]` with row coordinate `k` is `(k, c)`. -/
theorem lift_axis0 {a b : ℕ} (h : (⟨2, ![a, b]⟩ : Shape).Reduces [0] ⟨1, ![b]⟩) (c : Fin b) (k : Fin a) :
    h.lift (ix1 c) k = ix2 k c := by
  funext d
  apply Fin.ext
  match d with
  | ⟨0, _⟩ => rfl
  | ⟨1, _⟩ => rfl

/-- A minimum over one axis, over the extended reals: the fold of `min` from the accumulator's value over that axis's
    coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]
  exact h.fold_filter_drop_single _ _ src j

/-- The minimum over the rows of an `[a, b]` tile, read at column `c`: the fold of `min` over the rows `kk` of the
    tile at `(kk, c)`. -/
theorem colmin_apply {a b : ℕ} (src : FVec Ideal ⟨2, ![a, b]⟩ .f32) (acc : BitVec 32)
    (h : (⟨2, ![a, b]⟩ : Shape).Reduces [0] ⟨1, ![b]⟩) (hφ : FKind.Formats .f32)
    (hacc : acc = FKind.minimumf.neutral .f32 hφ) (c : Fin b) :
    multiReduction (F := Ideal) .minimumf [0] ⟨1, ![b]⟩ src acc h hφ hacc (ix1 c)
      = Finset.univ.fold min (Ideal.ofBits .f32 acc) (fun kk : Fin a => src (ix2 kk c)) := by
  refine (multiReduction_minimumf_single src acc h hφ hacc (ix1 c)).trans ?_
  exact congrArg (fun f => Finset.fold min (Ideal.ofBits .f32 acc) f (Finset.univ : Finset (Fin a)))
    (funext fun k => congrArg src (lift_axis0 h c k))

/-- A column `[a, 1]` broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! The matrix product of the key tile `[1024, 128]` and the query tile `[2048, 128]`, both contracted on their lane axis:
    the operand indices at output `(kk, q)` and contraction coordinate `d` are `(kk, d)` and `(q, d)`. -/

theorem mm_lhs_0 (i : S1024x2048.Idx) (k : dot_S1024x128_S2048x128_S1024x2048_1_1_0_0_n_n.contr.Idx) :
    (dot_S1024x128_S2048x128_S1024x2048_1_1_0_0_n_n.lhsIdx i k 0).val = (i 0).val := by
  unfold DotDims.lhsIdx
  rw [dif_neg (show ¬(0 : Fin S1024x128.rank) ∈ dot_S1024x128_S2048x128_S1024x2048_1_1_0_0_n_n.lhsBatch by decide), dif_pos (show (0 : Fin S1024x128.rank) ∈ dot_S1024x128_S2048x128_S1024x2048_1_1_0_0_n_n.lhsNonContracting by decide)]
  rfl
theorem mm_lhs_1 (i : S1024x2048.Idx) (k : dot_S1024x128_S2048x128_S1024x2048_1_1_0_0_n_n.contr.Idx) :
    (dot_S1024x128_S2048x128_S1024x2048_1_1_0_0_n_n.lhsIdx i k 1).val = (k ⟨0, by decide⟩).val :=
  dot_S1024x128_S2048x128_S1024x2048_1_1_0_0_n_n.lhsIdx_val_of_single rfl i k
theorem mm_rhs_0 (i : S1024x2048.Idx) (k : dot_S1024x128_S2048x128_S1024x2048_1_1_0_0_n_n.contr.Idx) :
    (dot_S1024x128_S2048x128_S1024x2048_1_1_0_0_n_n.rhsIdx i k 0).val = (i 1).val := by
  unfold DotDims.rhsIdx
  rw [dif_neg (show ¬(0 : Fin S2048x128.rank) ∈ dot_S1024x128_S2048x128_S1024x2048_1_1_0_0_n_n.rhsBatch by decide), dif_pos (show (0 : Fin S2048x128.rank) ∈ dot_S1024x128_S2048x128_S1024x2048_1_1_0_0_n_n.rhsNonContracting by decide)]
  rfl
theorem mm_rhs_1 (i : S1024x2048.Idx) (k : dot_S1024x128_S2048x128_S1024x2048_1_1_0_0_n_n.contr.Idx) :
    (dot_S1024x128_S2048x128_S1024x2048_1_1_0_0_n_n.rhsIdx i k 1).val = (k ⟨0, by decide⟩).val :=
  dot_S1024x128_S2048x128_S1024x2048_1_1_0_0_n_n.rhsIdx_val_of_single rfl i k

/-- The product into a zero accumulator, read at `(kk, q)`: the sum over the 128 lanes of key `(kk, d)` times query `(q, d)`. -/
theorem mm_apply {φ₁ φ₂ : FTy} (l : FVec Ideal S1024x128 φ₁) (r : FVec Ideal S2048x128 φ₂) (kk : Fin 1024) (q : Fin 2048) :
    matmul dot_S1024x128_S2048x128_S1024x2048_1_1_0_0_n_n none l r (constant S1024x2048 .f32 0x00000000#32) (ix2 kk q)
      = ∑ d : Fin 128, l (ix2 kk d) * r (ix2 q d) := by
  simp only [matmul]
  rw [Ideal.matmul_constant_zero_apply, ← Equiv.sum_comp (ValueIdx.contrEquiv1 dot_S1024x128_S2048x128_S1024x2048_1_1_0_0_n_n 128 rfl rfl).symm]
  refine Finset.sum_congr rfl fun d _ => ?_
  have hd := ValueIdx.contrEquiv1_symm_val dot_S1024x128_S2048x128_S1024x2048_1_1_0_0_n_n 128 rfl rfl d
  have el : dot_S1024x128_S2048x128_S1024x2048_1_1_0_0_n_n.lhsIdx (ix2 kk q) ((ValueIdx.contrEquiv1 dot_S1024x128_S2048x128_S1024x2048_1_1_0_0_n_n 128 rfl rfl).symm d) = ix2 kk d := funext fun a => Fin.ext (by
    match a with
    | ⟨0, _⟩ => exact mm_lhs_0 _ _
    | ⟨1, _⟩ => exact (mm_lhs_1 _ _).trans hd)
  have er : dot_S1024x128_S2048x128_S1024x2048_1_1_0_0_n_n.rhsIdx (ix2 kk q) ((ValueIdx.contrEquiv1 dot_S1024x128_S2048x128_S1024x2048_1_1_0_0_n_n 128 rfl rfl).symm d) = ix2 q d := funext fun a => Fin.ext (by
    match a with
    | ⟨0, _⟩ => exact mm_rhs_0 _ _
    | ⟨1, _⟩ => exact (mm_rhs_1 _ _).trans hd)
  rw [el, er]

end PayIdx

open PayIdx

/-! ## The three stored values -/

/-- The reset value: +inf at every entry. -/
theorem pay1_idx (q : Fin 2048) :
    k1_pay1 (F := Ideal) (ix2 (0 : Fin 1) q) = Ideal.ofBits .f32 0x7F800000#32 := by
  unfold k1_pay1
  rw [shapeCast_self]
  rfl

/-- The norms row: entry q is the squared norm of row q of the query tile. -/
theorem pay2_idx (x0 : Vec Ideal S2048x128 .f32) (q : Fin 2048) :
    k1_pay2 (F := Ideal) x0 (ix2 (0 : Fin 1) q) = sq (fun r d => x0 (ix2 r d)) q := by
  unfold k1_pay2
  rw [shapeCast_self, transpose_ix2_apply, shapeCast_a_a1_apply, shapeCast_self]
  exact rowsq_apply x0 _ _ _ q

/-- The step: the running minimum against this key tile's column minimum of the expanded squared distances. -/
theorem pay3_idx (x1 : Vec Ideal S1024x128 .f32) (x0 : Vec Ideal S2048x128 .f32) (a2 acc : Vec Ideal S1x2048 .f32) (q : Fin 2048) :
    k1_pay3 (F := Ideal) x1 x0 a2 acc (ix2 (0 : Fin 1) q)
      = min (acc (ix2 (0 : Fin 1) q))
          (Finset.univ.fold min (Ideal.ofBits .f32 0x7F800000#32) (fun kk : Fin 1024 =>
            (sq (fun r d => x1 (ix2 r d)) kk + a2 (ix2 (0 : Fin 1) q))
              - Ideal.ofBits .f32 0x40000000#32 * ∑ d : Fin 128, x1 (ix2 kk d) * x0 (ix2 q d))) := by
  unfold k1_pay3
  rw [shapeCast_self, minimumf_apply, shapeCast_a_1a_apply]
  refine congrArg (min (acc (ix2 (0 : Fin 1) q))) ?_
  refine (colmin_apply _ _ _ _ _ q).trans ?_
  refine congrArg (fun f => Finset.fold min (Ideal.ofBits .f32 0x7F800000#32) f (Finset.univ : Finset (Fin 1024)))
    (funext fun kk => ?_)
  rw [subf_apply, addf_apply, mulf_apply, broadcast_apply, broadcastTo_a1_ab_apply, shapeCast_a_a1_apply,
    broadcastTo_1b_ab_apply, shapeCast_self, shapeCast_self]
  refine congrArg₂ (· - ·) (congrArg (· + a2 (ix2 (0 : Fin 1) q)) (rowsq_apply x1 _ _ _ kk)) ?_
  exact congrArg (Ideal.ofBits .f32 0x40000000#32 * ·) (mm_apply _ _ kk q)

/-- The second call runs the same kernel function: its stored values are the second call's. -/
theorem k1_pay1_eq : @k1_pay1 = @k1_pay1 := rfl
theorem k1_pay2_eq : @k1_pay2 = @k1_pay2 := rfl
theorem k1_pay3_eq : @k1_pay3 = @k1_pay3 := rfl

end Cert.KernelIdeal.Hand.Second

end
-- ==== Proof.KI.Fold1.lean ====
/-
  The running minimum at the last key tile of a query tile is the minimum over ALL key rows.

  For the point t = 16 i + 15 and row q of query tile i (array row n = 2048 i + q): the norms row has held, since the tile's
  first point, the squared norm of query row n; the running minimum started at min(+inf, first key tile's minimum) and took
  one step per key tile, each the minimum over that tile's 1024 key rows (array rows 1024 j + kk) of the expanded squared
  distance to query row n.  A minimum taken tile by tile is the minimum over the whole axis of 16 · 1024 = 16384 rows.
-/
import proofs.«140751_j59055800320002_1_alg».proof.Proof.KI.Dat1
import proofs.«140751_j59055800320002_1_alg».proof.Proof.KI.PayIdx1
import proofs.«140751_j59055800320002_1_alg».proof.Proof.Spec
import proofs.«140751_j59055800320002_1_alg».proof.Proof.LibTiledMin
import Idealize.ShloMosaic.Lib.ValueIdx
import Idealize.ShloMosaic.Lib.Pipeline.Value

set_option maxRecDepth 16384

noncomputable section

namespace Cert.KernelIdeal.Hand.Second

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Spec

-- the buffers' contents when the call is entered
variable (V : (c : Dev nD) → (b : Ref sig .tc) → Buf (Elt Ideal) ((c : Thread nD τ).loc b))

/-- The rows of a [16384, 128] array. -/
abbrev rows2 (x : Vec Ideal S16384x128 .f32) : Fin 16384 → Fin 128 → EReal := fun r d => x (ix2 r d)

/-- The two input windows' block indices over the grid: the query window's block is (t / 16, 0), the key window's (t % 16, 0). -/
theorem idx0_0 : ∀ t : Fin cfg1.N, win1_0.index t (0 : Fin 2) = t.val / 16 ∧ win1_0.index t (1 : Fin 2) = 0 :=
  (by decide +kernel : ∀ t : Fin grid1.N, _)
theorem idx0_1 : ∀ t : Fin cfg1.N, win1_1.index t (0 : Fin 2) = t.val % 16 ∧ win1_1.index t (1 : Fin 2) = 0 :=
  (by decide +kernel : ∀ t : Fin grid1.N, _)

/-- Row r of the query tile of point t is row 2048 (t / 16) + r of the query array `main_v1`. -/
theorem qblk1_idx (c : Dev nD) (t : Fin cfg1.N) (r : Fin 2048) (d : Fin 128) (n : Fin 16384) (hn : n.val = 2048 * (t.val / 16) + r.val) :
    qblk1 (F := Ideal) V c t (ix2 r d) = rows2 (V c main_v1) n d := by
  unfold qblk1 iblk1
  obtain ⟨e0, e1⟩ := idx0_0 t
  show V c main_v1 (((cfg1.win 0).blk t).view.emb (ix2 r d)) = V c main_v1 (ix2 n d)
  refine congrArg (V c main_v1) ?_
  funext a; apply Fin.ext
  match a with
  | ⟨0, _⟩ =>
    show win1_0.index t (0 : Fin 2) * 2048 + 1 * r.val = n.val
    omega
  | ⟨1, _⟩ =>
    show win1_0.index t (1 : Fin 2) * 128 + 1 * d.val = d.val
    omega

/-- Row r of the key tile of point t is row 1024 (t % 16) + r of the key array `main_v0`. -/
theorem kblk1_idx (c : Dev nD) (t : Fin cfg1.N) (r : Fin 1024) (d : Fin 128) (m : Fin 16384) (hm : m.val = 1024 * (t.val % 16) + r.val) :
    kblk1 (F := Ideal) V c t (ix2 r d) = rows2 (V c main_v0) m d := by
  unfold kblk1 iblk1
  obtain ⟨e0, e1⟩ := idx0_1 t
  show V c main_v0 (((cfg1.win 1).blk t).view.emb (ix2 r d)) = V c main_v0 (ix2 m d)
  refine congrArg (V c main_v0) ?_
  funext a; apply Fin.ext
  match a with
  | ⟨0, _⟩ =>
    show win1_1.index t (0 : Fin 2) * 1024 + 1 * r.val = m.val
    omega
  | ⟨1, _⟩ =>
    show win1_1.index t (1 : Fin 2) * 128 + 1 * d.val = d.val
    omega

/-- The pair after a point depends on the point's position only. -/
theorem carry1_congr (c : Dev nD) {n n' : ℕ} (e : n = n') (h : n < cfg1.N) (h' : n' < cfg1.N) :
    carry1 (F := Ideal) V c n h = carry1 (F := Ideal) V c n' h' := by
  subst e; rfl

/-- Through query tile i the norms row holds, at q, the squared norm of query row n = 2048 i + q. -/
theorem norms0 (c : Dev nD) (i : ℕ) (q : Fin 2048) (n : Fin 16384) (hn : n.val = 2048 * i + q.val) :
    ∀ (j : ℕ), j ≤ 15 → ∀ (h : 16 * i + j < cfg1.N),
      (carry1 (F := Ideal) V c (16 * i + j) h).2 (ix2 (0 : Fin 1) q) = sq (rows2 (V c main_v1)) n := by
  intro j
  induction j with
  | zero =>
    intro _ h
    have e := carry1_first (F := Ideal) V c ⟨16 * i + 0, h⟩ (by show (16 * i + 0) % 16 = 0; omega)
    rw [show carry1 (F := Ideal) V c (16 * i + 0) h = _ from e]
    show k1_pay2 (F := Ideal) (qblk1 V c ⟨16 * i + 0, h⟩) (ix2 (0 : Fin 1) q) = _
    rw [pay2_idx]
    unfold Cert.Spec.sq
    refine congrArg (_ + ·) (Finset.sum_congr rfl fun d _ => ?_)
    have hq := qblk1_idx V c ⟨16 * i + 0, h⟩ q d n (by show n.val = 2048 * ((16 * i + 0) / 16) + q.val; omega)
    exact congrArg₂ (· * ·) hq hq
  | succ j ih =>
    intro hj h
    have e := carry1_next (F := Ideal) V c ⟨16 * i + (j + 1), h⟩ (by show ¬ (16 * i + (j + 1)) % 16 = 0; omega)
    rw [show carry1 (F := Ideal) V c (16 * i + (j + 1)) h = _ from e]
    show (carry1 (F := Ideal) V c (16 * i + (j + 1) - 1) _).2 (ix2 (0 : Fin 1) q) = _
    rw [carry1_congr V c (show 16 * i + (j + 1) - 1 = 16 * i + j by omega) _ (by omega)]
    exact ih (by omega) _

/-- Entry kk of key tile j against query row n: the expanded squared distance from key row 1024 j + kk. -/
def ftile (K Q : Fin 16384 → Fin 128 → EReal) (n : Fin 16384) : ℕ → Fin 1024 → EReal :=
  fun j kk => if h : 1024 * j + kk.val < 16384 then dist K Q ⟨1024 * j + kk.val, h⟩ n else 0

/-- The step's column minimum at point 16 i + j, the norms row holding query row n's squared norm, is the minimum of
    key tile j's expanded squared distances to query row n. -/
theorem tile_fold0 (c : Dev nD) (i j : ℕ) (hj : j ≤ 15) (h : 16 * i + j < cfg1.N) (q : Fin 2048) (n : Fin 16384)
    (hn : n.val = 2048 * i + q.val) (A : Vec Ideal S1x2048 .f32) (hA : A (ix2 (0 : Fin 1) q) = sq (rows2 (V c main_v1)) n) :
    Finset.univ.fold min (Ideal.ofBits .f32 0x7F800000#32) (fun kk : Fin 1024 =>
        (sq (fun r d => kblk1 (F := Ideal) V c ⟨16 * i + j, h⟩ (ix2 r d)) kk + A (ix2 (0 : Fin 1) q))
          - Ideal.ofBits .f32 0x40000000#32
            * ∑ d : Fin 128, kblk1 (F := Ideal) V c ⟨16 * i + j, h⟩ (ix2 kk d) * qblk1 (F := Ideal) V c ⟨16 * i + j, h⟩ (ix2 q d))
      = Finset.univ.fold min (Ideal.ofBits .f32 0x7F800000#32) (ftile (rows2 (V c main_v0)) (rows2 (V c main_v1)) n j) := by
  refine congrArg (Finset.univ.fold min _) (funext fun kk => ?_)
  have hkk : kk.val < 1024 := kk.isLt
  have hlt : 1024 * j + kk.val < 16384 := by omega
  rw [show ftile (rows2 (V c main_v0)) (rows2 (V c main_v1)) n j kk = dist (rows2 (V c main_v0)) (rows2 (V c main_v1)) ⟨1024 * j + kk.val, hlt⟩ n
    from dif_pos hlt]
  have hk : ∀ d, kblk1 (F := Ideal) V c ⟨16 * i + j, h⟩ (ix2 kk d) = rows2 (V c main_v0) ⟨1024 * j + kk.val, hlt⟩ d := fun d =>
    kblk1_idx V c ⟨16 * i + j, h⟩ kk d ⟨1024 * j + kk.val, hlt⟩ (by show 1024 * j + kk.val = 1024 * ((16 * i + j) % 16) + kk.val; omega)
  have hq : ∀ d, qblk1 (F := Ideal) V c ⟨16 * i + j, h⟩ (ix2 q d) = rows2 (V c main_v1) n d := fun d =>
    qblk1_idx V c ⟨16 * i + j, h⟩ q d n (by show n.val = 2048 * ((16 * i + j) / 16) + q.val; omega)
  unfold Cert.Spec.dist
  rw [hA]
  refine congrArg₂ (· - ·) (congrArg (· + _) ?_) (congrArg (_ * ·) (Finset.sum_congr rfl fun d _ => congrArg₂ (· * ·) (hk d) (hq d)))
  unfold Cert.Spec.sq
  exact congrArg (_ + ·) (Finset.sum_congr rfl fun d _ => congrArg₂ (· * ·) (hk d) (hk d))

/-- The running minimum after the last key tile of query tile i. -/
theorem carry1_last_aux (c : Dev nD) (i : ℕ) (hi : 16 * i + 15 < cfg1.N) (q : Fin 2048) (n : Fin 16384)
    (hn : n.val = 2048 * i + q.val) :
    (carry1 (F := Ideal) V c (16 * i + 15) hi).1 (ix2 (0 : Fin 1) q) = nearest (rows2 (V c main_v0)) (rows2 (V c main_v1)) n := by
  let acc : ℕ → EReal := fun j => if h : 16 * i + j < cfg1.N then (carry1 (F := Ideal) V c (16 * i + j) h).1 (ix2 (0 : Fin 1) q) else 0
  have h0 : acc 0 = min (Ideal.ofBits .f32 0x7F800000#32)
      (Finset.univ.fold min (Ideal.ofBits .f32 0x7F800000#32) (ftile (rows2 (V c main_v0)) (rows2 (V c main_v1)) n 0)) := by
    have h : 16 * i + 0 < cfg1.N := by omega
    show (if h : 16 * i + 0 < cfg1.N then (carry1 (F := Ideal) V c (16 * i + 0) h).1 (ix2 (0 : Fin 1) q) else 0) = _
    rw [dif_pos h]
    have e := carry1_first (F := Ideal) V c ⟨16 * i + 0, h⟩ (by show (16 * i + 0) % 16 = 0; omega)
    have hA := norms0 V c i q n hn 0 (by omega) h
    rw [show carry1 (F := Ideal) V c (16 * i + 0) h = _ from e] at hA ⊢
    show k1_pay3 (F := Ideal) (kblk1 V c ⟨16 * i + 0, h⟩) (qblk1 V c ⟨16 * i + 0, h⟩) (k1_pay2 (qblk1 V c ⟨16 * i + 0, h⟩)) (k1_pay1 (F := Ideal)) (ix2 (0 : Fin 1) q) = _
    rw [pay3_idx, pay1_idx]
    exact congrArg (min _) (tile_fold0 V c i 0 (by omega) h q n hn _ hA)
  have hs : ∀ j, j + 1 < 16 → acc (j + 1) = min (acc j)
      (Finset.univ.fold min (Ideal.ofBits .f32 0x7F800000#32) (ftile (rows2 (V c main_v0)) (rows2 (V c main_v1)) n (j + 1))) := by
    intro j hj
    have h1 : 16 * i + (j + 1) < cfg1.N := by omega
    have h0' : 16 * i + j < cfg1.N := by omega
    show (if h : 16 * i + (j + 1) < cfg1.N then (carry1 (F := Ideal) V c (16 * i + (j + 1)) h).1 (ix2 (0 : Fin 1) q) else 0)
      = min (if h : 16 * i + j < cfg1.N then (carry1 (F := Ideal) V c (16 * i + j) h).1 (ix2 (0 : Fin 1) q) else 0) _
    rw [dif_pos h1, dif_pos h0']
    have e := carry1_next (F := Ideal) V c ⟨16 * i + (j + 1), h1⟩ (by show ¬ (16 * i + (j + 1)) % 16 = 0; omega)
    rw [show carry1 (F := Ideal) V c (16 * i + (j + 1)) h1 = _ from e]
    show k1_pay3 (F := Ideal) (kblk1 V c ⟨16 * i + (j + 1), h1⟩) (qblk1 V c ⟨16 * i + (j + 1), h1⟩)
      (carry1 (F := Ideal) V c (16 * i + (j + 1) - 1) _).2 (carry1 (F := Ideal) V c (16 * i + (j + 1) - 1) _).1 (ix2 (0 : Fin 1) q) = _
    rw [pay3_idx, carry1_congr V c (show 16 * i + (j + 1) - 1 = 16 * i + j by omega) _ h0']
    exact congrArg (min _) (tile_fold0 V c i (j + 1) (by omega) h1 q n hn _ (norms0 V c i q n hn j (by omega) h0'))
  have hfin := Cert.TiledMin.running_last_eq_fold 1024 16 16384 (by norm_num) rfl (Ideal.ofBits .f32 0x7F800000#32)
    (ftile (rows2 (V c main_v0)) (rows2 (V c main_v1)) n) acc h0 hs
    (fun m : Fin 16384 => dist (rows2 (V c main_v0)) (rows2 (V c main_v1)) m n)
    (fun j kk h => by unfold ftile; rw [dif_pos h]) 15 rfl
  have hacc : acc 15 = (carry1 (F := Ideal) V c (16 * i + 15) hi).1 (ix2 (0 : Fin 1) q) := dif_pos hi
  rw [← hacc, hfin]
  rfl

/-- At the last key tile of query tile t / 16, entry q of the running minimum is the nearest-key value of array row
    n = 2048 (t / 16) + q. -/
theorem carry1_last (c : Dev nD) (t : Fin cfg1.N) (ht : t.val % 16 = 15) (q : Fin 2048) (n : Fin 16384)
    (hn : n.val = 2048 * (t.val / 16) + q.val) :
    (carry1 (F := Ideal) V c t.val t.isLt).1 (ix2 (0 : Fin 1) q) = nearest (rows2 (V c main_v0)) (rows2 (V c main_v1)) n := by
  have e : t.val = 16 * (t.val / 16) + 15 := by omega
  have hi : 16 * (t.val / 16) + 15 < cfg1.N := by have := t.isLt; omega
  rw [carry1_congr V c e t.isLt hi]
  exact carry1_last_aux V c (t.val / 16) hi q n hn

end Cert.KernelIdeal.Hand.Second

end
-- ==== Proof.KI.Near1.lean ====
/-
  What the second call leaves in its output array, read at one entry over the extended reals: entry n is the least expanded
  squared distance from query row n to any of the 16384 key rows.

  Query row n lies in query tile i = n / 2048 at row n % 2048.  Over the sixteen key tiles j of that query tile the running
  minimum starts from +inf and takes one step per tile, each step the minimum over that tile's 1024 key rows; a minimum taken
  tile by tile is the minimum over all rows.  The point 16 i + 15 writes the running minimum to block i of the output, and
  these blocks tile the output array.
-/
import proofs.«140751_j59055800320002_1_alg».proof.Proof.KI.Fold1
import proofs.«140751_j59055800320002_1_alg».proof.Proof.Spec
import Idealize.ShloMosaic.Lib.ValueIdx
import Idealize.ShloMosaic.Lib.Pipeline.Value

set_option maxRecDepth 16384

noncomputable section

namespace Cert.KernelIdeal.Hand.Second

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Spec

-- the buffers' contents when the call is entered
variable (V : (c : Dev nD) → (b : Ref sig .tc) → Buf (Elt Ideal) ((c : Thread nD τ).loc b))

/-! ## The output window's blocks -/

/-- The output window's block index over the grid: at point t = 16 i + j it is block (0, i). -/
theorem idx_out0 : ∀ t : Fin cfg1.N, win1_2.index t (0 : Fin 2) = 0 ∧ win1_2.index t (1 : Fin 2) = t.val / 16 :=
  (by decide +kernel : ∀ t : Fin grid1.N, win1_2.index t (0 : Fin 2) = 0 ∧ win1_2.index t (1 : Fin 2) = t.val / 16)

/-- What a last point t = 16 i + 15 writes back is block i of any whole-array function G whose column n is the nearest-key
    value of query row n: entry (0, q) of the block sits at column 2048 i + q of the array, and entry q of the running minimum
    there is the nearest-key value of that row. -/
theorem flushed0_eq (c : Dev nD) (G : Vec Ideal S1x16384 .f32)
    (hG : ∀ n : Fin 16384, G (ix2 (0 : Fin 1) n) = nearest (rows2 (V c main_v0)) (rows2 (V c main_v1)) n)
    (t : Fin cfg1.N) (hf : (cfg1.win 2).flush t = true) :
    (dat1 (F := Ideal) V c).flushed 2 t = ((cfg1.win 2).blk t).view.read (Elt Ideal) G := by
  have ht : t.val % 16 = 15 := (flush1_2 t).mp hf
  have hN : t.val < 128 := lt_of_lt_of_eq t.isLt (show cfg1.N = 128 from N_1)
  show (cfg1.win 2).cut (grid1.coords t) ((dat1 (F := Ideal) V c).after 2 t) = _
  rw [after1_2]
  funext j
  obtain ⟨e0, e1⟩ := idx_out0 t
  have hj0 : (j 0).val < 1 := (j 0).isLt
  have hj1 : (j 1).val < 2048 := (j 1).isLt
  -- the array column under entry j of the block
  have hn : 2048 * (t.val / 16) + (j 1).val < 16384 := by omega
  have key := carry1_last V c t ht ⟨(j 1).val, hj1⟩ ⟨2048 * (t.val / 16) + (j 1).val, hn⟩ rfl
  refine Eq.trans ?_ (key.trans ((hG ⟨2048 * (t.val / 16) + (j 1).val, hn⟩).symm.trans ?_))
  · -- the block is the whole running-minimum row: its entry j is entry (0, j 1)
    show (carry1 (F := Ideal) V c t.val t.isLt).1 ((cfg1.win 2).xinj (grid1.coords t) j) = _
    refine congrArg (carry1 (F := Ideal) V c t.val t.isLt).1 ?_
    funext a; apply Fin.ext
    match a with
    | ⟨0, _⟩ => show (j 0).val = 0; omega
    | ⟨1, _⟩ => rfl
  · -- a block's coordinate in the array: block index × block size + the coordinate inside the block
    show G _ = G (((cfg1.win 2).blk t).view.emb j)
    refine congrArg G ?_
    funext a; apply Fin.ext
    match a with
    | ⟨0, _⟩ => show 0 = win1_2.index t (0 : Fin 2) * 1 + 1 * (j 0).val; omega
    | ⟨1, _⟩ => show 2048 * (t.val / 16) + (j 1).val = win1_2.index t (1 : Fin 2) * 2048 + 1 * (j 1).val; omega

/-- An index of the output array lies in point t's block iff each coordinate lies in the block's range on its axis. -/
theorem mem_blk0 (t : Fin cfg1.N) (i : S1x16384.Idx) :
    i ∈ ((cfg1.win 2).blk t).view.set ↔ ∀ a : Fin 2, win1_2.index t a * S1x2048.size a ≤ (i a).val ∧ (i a).val < win1_2.index t a * S1x2048.size a + S1x2048.size a := by
  show i ∈ ((View.whole main_v3).slice (win1_2.rect t)).set ↔ _
  rw [View.set_slice_whole, Rect.mem_set_unit]
  exact Iff.rfl

/-- The written-back blocks tile the output array: column n lies in block n / 2048, which the point 16 (n / 2048) + 15
    writes back. -/
theorem covered0 (i : S1x16384.Idx) :
    ∃ t : Fin cfg1.N, (cfg1.win 2).flush t = true ∧ i ∈ ((cfg1.win 2).blk t).view.set := by
  have hi0 : (i 0).val < 1 := (i 0).isLt
  have hi1 : (i 1).val < 16384 := (i 1).isLt
  have hN : cfg1.N = 128 := N_1
  have ht : 16 * ((i 1).val / 2048) + 15 < cfg1.N := by rw [hN]; omega
  obtain ⟨e0, e1⟩ := idx_out0 ⟨16 * ((i 1).val / 2048) + 15, ht⟩
  have e1' : win1_2.index ⟨16 * ((i 1).val / 2048) + 15, ht⟩ (1 : Fin 2) = (16 * ((i 1).val / 2048) + 15) / 16 := e1
  refine ⟨⟨16 * ((i 1).val / 2048) + 15, ht⟩, (flush1_2 _).mpr (show (16 * ((i 1).val / 2048) + 15) % 16 = 15 by omega), ?_⟩
  rw [mem_blk0]
  intro a
  match a with
  | ⟨0, _⟩ =>
    show win1_2.index ⟨16 * ((i 1).val / 2048) + 15, ht⟩ (0 : Fin 2) * 1 ≤ (i 0).val
      ∧ (i 0).val < win1_2.index ⟨16 * ((i 1).val / 2048) + 15, ht⟩ (0 : Fin 2) * 1 + 1
    omega
  | ⟨1, _⟩ =>
    show win1_2.index ⟨16 * ((i 1).val / 2048) + 15, ht⟩ (1 : Fin 2) * 2048 ≤ (i 1).val
      ∧ (i 1).val < win1_2.index ⟨16 * ((i 1).val / 2048) + 15, ht⟩ (1 : Fin 2) * 2048 + 2048
    omega

/-! ## The output array after the call -/

/-- The whole output array as one function of the two inputs: column n holds the nearest-key value of query row n. -/
abbrev nearRow (c : Dev nD) : Vec Ideal S1x16384 .f32 :=
  fun j => nearest (rows2 (V c main_v0)) (rows2 (V c main_v1)) (j 1)

/-- Entry n of the output array after the call: nearest key row (rows of `main_v0`) to query row n (rows of `main_v1`). -/
theorem near1_idx (c : Dev nD) (n : Fin 16384) :
    ((dat1 (F := Ideal) V c).arrAt 2 cfg1.N : Vec Ideal S1x16384 .f32) (ix2 (0 : Fin 1) n)
      = nearest (rows2 (V c main_v0)) (rows2 (V c main_v1)) n := by
  have hG : ∀ m : Fin 16384, nearRow V c (ix2 (0 : Fin 1) m) = nearest (rows2 (V c main_v0)) (rows2 (V c main_v1)) m :=
    fun m => rfl
  -- every written-back block is its block of `nearRow`, and the blocks cover the array: the array ends holding `nearRow`
  have h := (dat1 (F := Ideal) V c).arrAt_eq_of_cover 2 (nearRow V c) (flushed0_eq V c (nearRow V c) hG) covered0
  exact (congrFun h (ix2 (0 : Fin 1) n)).trans (hG n)

end Cert.KernelIdeal.Hand.Second

end
-- ==== Proof.Ref.Stages.lean ====
/-
  The reference's two nearest-neighbour rows, read at one entry over the extended reals.
  With X0, X1 the rows of the two point clouds, the reference forms d[n,m] = (|X0 n|² + |X1 m|²) − 2 · Σ_d X0[n,d] · X1[m,d]
  and takes, from +inf, the minimum over m (for each n) and the minimum over n (for each m).
-/
import proofs.«140751_j59055800320002_1_alg».proof.Proof.Gen.ReferenceIdeal.Run
import proofs.«140751_j59055800320002_1_alg».proof.Proof.Gen.ReferenceIdeal.Read
import proofs.«140751_j59055800320002_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.ReferenceIdeal.RefValue

open Idealize.ShloMosaic Idealize.ShloMosaic.ValueIdx
open Cert.ReferenceIdeal Cert.ReferenceIdeal.Gen Cert.ReferenceIdeal.Read Cert.Spec

/-- The rows of a point cloud of shape [1, 16384, 128]. -/
abbrev rows3 (x : (⟨S1x16384x128, .f32⟩ : BufTy).Contents (Elt Ideal)) : Fin 16384 → Fin 128 → EReal :=
  fun r d => x (ix3 (0 : Fin 1) r d)

/-- The row index the first cloud's squared norm is read at: the broadcasts keep row n, the sum runs over column k. -/
theorem idx_sq0 (n m : Fin 16384) (k : Fin 128) :
    idx_main_v1 (idx_main_v5 (idx_main_v7 (ix3 (0 : Fin 1) n m))) k = ix3 (0 : Fin 1) n k :=
  funext fun a => Fin.ext (by match a with | ⟨0, _⟩ => rfl | ⟨1, _⟩ => rfl | ⟨2, _⟩ => rfl)

/-- The row index the second cloud's squared norm is read at: the broadcasts keep row m, the sum runs over column k. -/
theorem idx_sq1 (n m : Fin 16384) (k : Fin 128) :
    idx_main_v3 (idx_main_v6 (idx_main_v8 (ix3 (0 : Fin 1) n m))) k = ix3 (0 : Fin 1) m k :=
  funext fun a => Fin.ext (by match a with | ⟨0, _⟩ => rfl | ⟨1, _⟩ => rfl | ⟨2, _⟩ => rfl)

/-- The left factor of the inner product at entry (n, m), term k, is X0[n, k]. -/
theorem idx_dotl (n m : Fin 16384) (k : Fin 128) :
    lidx_main_v4 (ix3 (0 : Fin 1) n m) k = ix3 (0 : Fin 1) n k :=
  funext fun a => Fin.ext (by match a with | ⟨0, _⟩ => rfl | ⟨1, _⟩ => rfl | ⟨2, _⟩ => rfl)

/-- The right factor of the inner product at entry (n, m), term k, is X1[m, k]. -/
theorem idx_dotr (n m : Fin 16384) (k : Fin 128) :
    ridx_main_v4 (ix3 (0 : Fin 1) n m) k = ix3 (0 : Fin 1) m k :=
  funext fun a => Fin.ext (by match a with | ⟨0, _⟩ => rfl | ⟨1, _⟩ => rfl | ⟨2, _⟩ => rfl)

/-- One entry of the distance array. -/
theorem v12_idx (x0 x1 : (⟨S1x16384x128, .f32⟩ : BufTy).Contents (Elt Ideal)) (n m : Fin 16384) :
    val_main_v12 (F := Ideal) x0 x1 (ix3 (0 : Fin 1) n m) = dist (rows3 x0) (rows3 x1) n m := by
  -- d[n,m] = (|X0 n|² + |X1 m|²) − 2 · Σ_k X0[n,k] · X1[m,k], each stage read at its entry
  rw [val_main_v12_apply, val_main_v9_apply, val_main_v7_apply, val_main_v5_apply, val_main_v1_apply,
      val_main_v8_apply, val_main_v6_apply, val_main_v3_apply, val_main_v11_apply, val_main_v10_apply,
      val_main_cst_1_apply, val_main_v4_apply, val_main_cst_apply, val_main_cst_0_apply]
  simp only [val_main_v0_apply, val_main_v2_apply, idx_sq0, idx_sq1, idx_dotl, idx_dotr,
    Ideal.subf_def, Ideal.addf_def, Ideal.mulf_def, Ideal.ofBits_def]
  rfl

/-- Entry (0, n) of the row of minima over the last axis, with coordinate k put back on that axis, is entry (0, n, k). -/
theorem lift_d2 (h : S1x16384x16384.Reduces [2] S1x16384) (n : Fin 16384) (k : Fin (S1x16384x16384.size 2)) :
    h.lift (ix2 (0 : Fin 1) n) k = ix3 (0 : Fin 1) n (⟨k.val, k.isLt⟩ : Fin 16384) :=
  funext fun c => Fin.ext (by match c with | ⟨0, _⟩ => rfl | ⟨1, _⟩ => rfl | ⟨2, _⟩ => rfl)

/-- Entry (0, m) of the row of minima over the middle axis, with coordinate k put back on that axis, is entry (0, k, m). -/
theorem lift_d1 (h : S1x16384x16384.Reduces [1] S1x16384) (m : Fin 16384) (k : Fin (S1x16384x16384.size 1)) :
    h.lift (ix2 (0 : Fin 1) m) k = ix3 (0 : Fin 1) (⟨k.val, k.isLt⟩ : Fin 16384) m :=
  funext fun c => Fin.ext (by match c with | ⟨0, _⟩ => rfl | ⟨1, _⟩ => rfl | ⟨2, _⟩ => rfl)

/-- Nearest in the second cloud for each point n of the first: the minimum over m. -/
theorem v13_idx (x0 x1 : (⟨S1x16384x128, .f32⟩ : BufTy).Contents (Elt Ideal)) (n : Fin 16384) :
    val_main_v13 (F := Ideal) x0 x1 (ix2 (0 : Fin 1) n)
      = Finset.univ.fold min (Ideal.ofBits .f32 0x7F800000#32) (fun m : Fin 16384 => dist (rows3 x0) (rows3 x1) n m) := by
  have h : S1x16384x16384.Reduces [2] S1x16384 := by decide
  unfold val_main_v13
  -- min is commutative and associative, so the reduction over the last axis is the fold of min from +inf over m
  rw [Host.reduce_eq_fold_single FloatOps.minimumf _ _ reducesTo_S1x16384x16384_S1x16384_d2 h h_S_]
  have hf : (val_main_v12 (F := Ideal) x0 x1 ∘ h.lift (ix2 (0 : Fin 1) n))
      = fun m : Fin 16384 => dist (rows3 x0) (rows3 x1) n m :=
    funext fun k => (congrArg (val_main_v12 (F := Ideal) x0 x1) (lift_d2 h n k)).trans (v12_idx x0 x1 n ⟨k.val, k.isLt⟩)
  rw [hf]
  rfl

/-- Nearest in the first cloud for each point m of the second: the minimum over n. -/
theorem v14_idx (x0 x1 : (⟨S1x16384x128, .f32⟩ : BufTy).Contents (Elt Ideal)) (m : Fin 16384) :
    val_main_v14 (F := Ideal) x0 x1 (ix2 (0 : Fin 1) m) = nearest (rows3 x0) (rows3 x1) m := by
  have h : S1x16384x16384.Reduces [1] S1x16384 := by decide
  unfold val_main_v14 nearest
  -- the reduction over the middle axis is the fold of min from +inf over n
  rw [Host.reduce_eq_fold_single FloatOps.minimumf _ _ reducesTo_S1x16384x16384_S1x16384_d1 h h_S_]
  have hf : (val_main_v12 (F := Ideal) x0 x1 ∘ h.lift (ix2 (0 : Fin 1) m))
      = fun n : Fin 16384 => dist (rows3 x0) (rows3 x1) n m :=
    funext fun k => (congrArg (val_main_v12 (F := Ideal) x0 x1) (lift_d1 h m k)).trans (v12_idx x0 x1 ⟨k.val, k.isLt⟩ m)
  rw [hf]
  rfl

end Cert.ReferenceIdeal.RefValue

end
-- ==== Proof.KI.Value.lean ====
/-
  The idealized kernel's result, and that the reference's two nearest-neighbour rows are what the two calls leave.

  Write X0, X1 for the rows of the two point clouds.  The first call (queries X0, keys X1) leaves in its output row, at n, the
  fold of min from +inf over m of dist X1 X0 m n, which is the reference's minimum over m of dist X0 X1 n m because the expansion
  is symmetric.  The second call (queries X1, keys X0) leaves at m the fold of min over n of dist X0 X1 n m: the reference's other
  row as it stands.  Both programs then apply the same closing operations to the two rows.
-/
import proofs.«140751_j59055800320002_1_alg».proof.Proof.KI.Frames
import proofs.«140751_j59055800320002_1_alg».proof.Proof.KI.Entry
import proofs.«140751_j59055800320002_1_alg».proof.Proof.KI.Near0
import proofs.«140751_j59055800320002_1_alg».proof.Proof.KI.Near1
import proofs.«140751_j59055800320002_1_alg».proof.Proof.Ref.Stages
import proofs.«140751_j59055800320002_1_alg».proof.Proof.Spec

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen Cert.Spec

variable (m : (ℓ : Loc nD τ sig) → Buf (Elt Ideal) ℓ) (ρ : Dev nD → PrngReg)

/-- The rows of the two point clouds as launched. -/
abbrev cloud0 (c : Dev nD) : Fin 16384 → Fin 128 → EReal :=
  fun r d => (m ((c : Thread nD τ).loc main_arg0) : Vec Ideal S1x16384x128 .f32) (ix3 (0 : Fin 1) r d)
abbrev cloud1 (c : Dev nD) : Fin 16384 → Fin 128 → EReal :=
  fun r d => (m ((c : Thread nD τ).loc main_arg1) : Vec Ideal S1x16384x128 .f32) (ix3 (0 : Fin 1) r d)

theorem rows_v0 (c : Dev nD) : rows2 (E1 m c main_v0) = cloud0 m c :=
  funext fun r => funext fun d => E1_v0_idx m c r d
theorem rows_v1 (c : Dev nD) : rows2 (E1 m c main_v1) = cloud1 m c :=
  funext fun r => funext fun d => E1_v1_idx m c r d

/-- The first call's output row at n: the minimum over the second cloud's rows m of the distance from row n of the first. -/
theorem o2_idx (c : Dev nD) (n : Fin 16384) :
    (o2 m c : Vec Ideal S1x16384 .f32) (ix2 (0 : Fin 1) n)
      = Finset.univ.fold min (Ideal.ofBits .f32 0x7F800000#32) (fun k : Fin 16384 => dist (cloud0 m c) (cloud1 m c) n k) := by
  refine (near0_idx (E1 m) c n).trans ?_
  rw [rows_v0, rows_v1]
  unfold nearest
  exact congrArg (fun f : Fin 16384 → EReal => Finset.univ.fold min (Ideal.ofBits .f32 0x7F800000#32) f)
    (funext fun k => dist_swap (cloud1 m c) (cloud0 m c) k n)

/-- The second call's output row at k: the nearest row of the first cloud to row k of the second. -/
theorem o3_idx (c : Dev nD) (k : Fin 16384) :
    (o3 m c : Vec Ideal S1x16384 .f32) (ix2 (0 : Fin 1) k) = nearest (cloud0 m c) (cloud1 m c) k := by
  refine (Second.near1_idx (E2 m) c k).trans ?_
  show nearest (rows2 (E2 m c main_v0)) (rows2 (E2 m c main_v1)) k = _
  rw [E2_v0, E2_v1, rows_v0, rows_v1]

/-- The run with the result named: the closing operations applied to what the two calls leave; the arguments as launched. -/
theorem kernel_run : θ_run defs (onTc (τ := τ) (main (F := Ideal))) ⟨m, fun _ => 0, ρ⟩ (fun r => ∀ c : Dev nD,
      r.2.mem ((c.tc : Thread nD τ).loc main_v8) = tail (o2 m c) (o3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c (Proc.devRef .tc main_v8) (Finset.mem_filter.mpr ⟨StableHlo.devRef_mem_tcRefs main_v8, by decide⟩)).trans (V4_v8 m c),
      (h c (Proc.devRef .tc main_arg0) (Finset.mem_filter.mpr ⟨StableHlo.devRef_mem_tcRefs main_arg0, by decide⟩)).trans (Gen.V4_main_arg0 m (outsH m) c),
      (h c (Proc.devRef .tc main_arg1) (Finset.mem_filter.mpr ⟨StableHlo.devRef_mem_tcRefs main_arg1, by decide⟩)).trans (Gen.V4_main_arg1 m (outsH m) c)⟩)
    (runH m ρ)

end Cert.KernelIdeal.Hand

end
-- ==== Proof.Bridge.lean ====
/-
  The reference's result is the idealized kernel's.

  The reference's two rows of minima are, entry by entry, what the kernel's two calls leave in their output rows, and the
  reference's closing operations (each row summed from the zero word, divided by 16384, the quotients added) are the kernel
  program's own: one function of the two rows.
-/
import proofs.«140751_j59055800320002_1_alg».proof.Proof.KI.Value
import proofs.«140751_j59055800320002_1_alg».proof.Proof.Ref.Stages

set_option maxRecDepth 16384

noncomputable section

namespace Cert.Proof.Bridge

open Idealize.ShloMosaic Idealize.ShloMosaic.TcCoe Idealize.ShloMosaic.ValueIdx
open Idealize.SL Idealize.SL.Sem
open Cert.Spec Cert.KernelIdeal.Hand

variable (m : (ℓ : Loc Cert.KernelIdeal.nD Cert.KernelIdeal.τ Cert.KernelIdeal.sig) → Buf (Elt Ideal) ℓ)

/-- The reference's minima over the second cloud, as the first call leaves them. -/
theorem ref13_eq (c : Dev Cert.KernelIdeal.nD) :
    (Cert.ReferenceIdeal.Read.val_main_v13 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1)) : Vec Ideal Cert.KernelIdeal.S1x16384 .f32)
      = o2 m c := by
  funext j
  obtain ⟨a, n, rfl⟩ : ∃ (a : Fin 1) (n : Fin 16384), j = ix2 a n := ⟨j 0, j 1, eq_ix2 j⟩
  obtain rfl : a = 0 := Subsingleton.elim _ _
  exact (Cert.ReferenceIdeal.RefValue.v13_idx _ _ n).trans (o2_idx m c n).symm

/-- The reference's minima over the first cloud, as the second call leaves them. -/
theorem ref14_eq (c : Dev Cert.KernelIdeal.nD) :
    (Cert.ReferenceIdeal.Read.val_main_v14 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1)) : Vec Ideal Cert.KernelIdeal.S1x16384 .f32)
      = o3 m c := by
  funext j
  obtain ⟨a, n, rfl⟩ : ∃ (a : Fin 1) (n : Fin 16384), j = ix2 a n := ⟨j 0, j 1, eq_ix2 j⟩
  obtain rfl : a = 0 := Subsingleton.elim _ _
  exact (Cert.ReferenceIdeal.RefValue.v14_idx _ _ n).trans (o3_idx m c n).symm

/-- The reference's last stage is the kernel program's closing operations applied to what the two calls leave. -/
theorem ref_result_eq (c : Dev Cert.KernelIdeal.nD) :
    (Cert.ReferenceIdeal.Read.val_main_v19 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1)) : Vec Ideal Cert.KernelIdeal.S_ .f32)
      = tail (o2 m c) (o3 m c) := by
  rw [← ref13_eq m c, ← ref14_eq m c]
  rfl

end Cert.Proof.Bridge

end
-- ==== Proof.lean ====
/-
  The certificate of the Chamfer-distance kernel against its jnp reference, over the extended reals.

  Both programs compute, for two point clouds X0, X1 of 16384 rows and 128 columns,
      mean_n min_m d(n, m) + mean_m min_n d(n, m),     d(n, m) = (|X0 n|² + |X1 m|²) − 2 · Σ_k X0[n,k] · X1[m,k].
  The reference forms the whole 16384 × 16384 array d and reduces it along each axis.  The kernel makes two calls of one tiled
  routine (queries X0 against keys X1, then queries X1 against keys X0): for a tile of 2048 query rows it keeps a running row of
  minima, reset to +inf at the first of sixteen key tiles of 1024 rows and lowered at each key tile by that tile's column minima of
  the expanded distances (the inner products by one matrix product into a zero accumulator, the operands passed through a
  narrower float format, which changes nothing over the extended reals), and writes the row out after the last key tile.
  A minimum taken tile by tile is the minimum over the whole axis; the expansion is symmetric in its two rows, by commutativity of
  the sum and of the product alone, so neither side needs the inputs to be finite; and both programs finish with the same sums,
  quotients by 16384 and final sum of the two rows of minima.

  The three frames: each kernel program terminates without a fault and leaves its two arguments unchanged, by running each call's
  body at every one of its 128 grid points in its three control cases (first, middle, last key tile) with the two scratch rows'
  contents carried from point to point in the pipeline's invariant; the reference's frame is its run.  The idealization applied
  no rewrite, so there is nothing to preserve.
-/
import proofs.«140751_j59055800320002_1_alg».proof.Defs
import proofs.«140751_j59055800320002_1_alg».proof.Proof.Gen.Kernel
import proofs.«140751_j59055800320002_1_alg».proof.Proof.Gen.KernelIdeal
import proofs.«140751_j59055800320002_1_alg».proof.Proof.Gen.ReferenceIdeal
import proofs.«140751_j59055800320002_1_alg».proof.Proof.Gen.Pre_finite_inputs
import proofs.«140751_j59055800320002_1_alg».proof.Proof.Gen.ReferenceIdeal.Run
import proofs.«140751_j59055800320002_1_alg».proof.Proof.Gen.ReferenceIdeal.Read
import proofs.«140751_j59055800320002_1_alg».proof.Proof.K.Frames
import proofs.«140751_j59055800320002_1_alg».proof.Proof.KI.Frames
import proofs.«140751_j59055800320002_1_alg».proof.Proof.KI.Value
import proofs.«140751_j59055800320002_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel terminates, faults nowhere and keeps its arguments. -/
theorem frame_k : Cert.frame_Kernel := fun m ρ _ => Cert.Kernel.Hand.frameH m ρ

/-- So does the idealized kernel. -/
theorem frame_ki : Cert.frame_KernelIdeal := fun m ρ _ => Cert.KernelIdeal.Hand.frameH m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the two clouds both idealized programs end with the same result: the closing operations applied to
    the two rows of minima, which are the same rows on both sides. -/
theorem algebraic : Cert.algebraic_KernelIdeal_ReferenceIdeal := by
  intro m ρ m' ρ' _ hagree
  refine ⟨fun c => Cert.KernelIdeal.Hand.tail (Cert.KernelIdeal.Hand.o2 m c) (Cert.KernelIdeal.Hand.o3 m c), Cert.KernelIdeal.Hand.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, (hagree c).1, (hagree c).2]
  exact Cert.Proof.Bridge.ref_result_eq m c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
